-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64 .f32) (main_arg10 : FVec F S64x32 .f32) (main_arg11 : FVec F S32 .f32) (main_arg12 : FVec F S32x1 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg12
  let main_cst_18 : FVec F S_ .f32 := constant S_ .f32 0x7F800000#32
  let main_v50 : FVec F S32x1 .f32 := broadcastInDim S32x1 ![] bcast_S_S32x1 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x32 .f32) (main_arg11 : FVec F S32 .f32) (main_arg12 : FVec F S32x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S2x1600000 32) (main_arg2 : FVec F S1600000 .f32) (main_arg3 : IVec S100000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x32 .f32) (main_arg11 : FVec F S32 .f32) (main_arg12 : FVec F S32x1 .f32) (main_arg13 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S100000x1 : Shape := ⟨2, ![100000, 1]⟩
abbrev S5000x64 : Shape := ⟨2, ![5000, 64]⟩
abbrev S5000x1 : Shape := ⟨2, ![5000, 1]⟩
abbrev S1600000x64 : Shape := ⟨2, ![1600000, 64]⟩
abbrev S1x64 : Shape := ⟨2, ![1, 64]⟩
abbrev S1x256 : Shape := ⟨2, ![1, 256]⟩
abbrev S4000x64 : Shape := ⟨2, ![4000, 64]⟩
abbrev S4000x1 : Shape := ⟨2, ![4000, 1]⟩
abbrev S4000x32 : Shape := ⟨2, ![4000, 32]⟩
abbrev S1x32 : Shape := ⟨2, ![1, 32]⟩
abbrev S1x1 : Shape := ⟨2, ![1, 1]⟩
abbrev S4000x256 : Shape := ⟨2, ![4000, 256]⟩
abbrev S256 : Shape := ⟨1, ![256]⟩
abbrev S256x1 : Shape := ⟨2, ![256, 1]⟩

abbrev nBuf : Space → Nat
  | .hbm => 143
  | .vmem => 58
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x32, .f32⟩
  | 11 => ⟨S32, .f32⟩
  | 12 => ⟨S32x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S100000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S_, .f32⟩
  | 54 => ⟨S100000, .f32⟩
  | 55 => ⟨S100000, .f32⟩
  | 56 => ⟨S100000x1, .f32⟩
  | 57 => ⟨S100000x64, .f32⟩
  | 58 => ⟨S100000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S1600000x1, .f32⟩
  | 69 => ⟨S1600000x64, .f32⟩
  | 70 => ⟨S1600000x64, .f32⟩
  | 71 => ⟨S_, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S100000x64, .f32⟩
  | 82 => ⟨S100000x64, .f32⟩
  | 83 => ⟨S100000x64, .f32⟩
  | 84 => ⟨S100000x64, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x64, .f32⟩
  | 94 => ⟨S1600000x1, .f32⟩
  | 95 => ⟨S1600000x64, .f32⟩
  | 96 => ⟨S1600000x64, .f32⟩
  | 97 => ⟨S_, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S100000x64, .f32⟩
  | 108 => ⟨S100000x64, .f32⟩
  | 109 => ⟨S100000x64, .f32⟩
  | 110 => ⟨S100000x64, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S1600000x1, .f32⟩
  | 121 => ⟨S1600000x64, .f32⟩
  | 122 => ⟨S1600000x64, .f32⟩
  | 123 => ⟨S_, .f32⟩
  | 124 => ⟨S100000x64, .f32⟩
  | 125 => ⟨S_, .i32⟩
  | 126 => ⟨S1600000, .i32⟩
  | 127 => ⟨S1600000, .i1⟩
  | _ => ⟨S100000x64, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S100000x64, .f32⟩
  | 6 => ⟨S100000x64, .f32⟩
  | 7 => ⟨S100000x1, .i32⟩
  | 8 => ⟨S1x256, .f32⟩
  | 9 => ⟨S1x256, .f32⟩
  | 10 => ⟨S_, .f32⟩
  | 11 => ⟨S1x256, .f32⟩
  | 12 => ⟨S1x256, .f32⟩
  | 13 => ⟨S1x256, .f32⟩
  | 14 => ⟨S256x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S5000x1, .f32⟩
  | .local _ .vmem, ⟨36, _⟩ => ⟨S5000x1, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S64, .f32⟩
  | .local _ .vmem, ⟨46, _⟩ => ⟨S5000x64, .f32⟩
  | .local _ .vmem, ⟨47, _⟩ => ⟨S5000x64, .f32⟩
  | .local _ .vmem, ⟨48, _⟩ => ⟨S4000x64, .f32⟩
  | .local _ .vmem, ⟨49, _⟩ => ⟨S4000x64, .f32⟩
  | .local _ .vmem, ⟨50, _⟩ => ⟨S64x32, .f32⟩
  | .local _ .vmem, ⟨51, _⟩ => ⟨S32, .f32⟩
  | .local _ .vmem, ⟨52, _⟩ => ⟨S32x1, .f32⟩
  | .local _ .vmem, ⟨53, _⟩ => ⟨S1, .f32⟩
  | .local _ .vmem, ⟨54, _⟩ => ⟨S4000x1, .i32⟩
  | .local _ .vmem, ⟨55, _⟩ => ⟨S4000x1, .i32⟩
  | .local _ .vmem, ⟨56, _⟩ => ⟨S1x256, .f32⟩
  | .local _ .vmem, ⟨57, _⟩ => ⟨S1x256, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34_0 : Ref sig .tc := ⟨.hbm, 57, rfl⟩
abbrev main_v34_1 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_c_10 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54_0 : Ref sig .tc := ⟨.hbm, 83, rfl⟩
abbrev main_v54_1 : Ref sig .tc := ⟨.hbm, 84, rfl⟩
abbrev main_c_12 : Ref sig .tc := ⟨.hbm, 85, rfl⟩
abbrev main_v55 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_c_15 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74_0 : Ref sig .tc := ⟨.hbm, 109, rfl⟩
abbrev main_v74_1 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_c_20 : Ref sig .tc := ⟨.hbm, 125, rfl⟩
abbrev main_v86 : Ref sig .tc := ⟨.hbm, 126, rfl⟩
abbrev main_v87 : Ref sig .tc := ⟨.hbm, 127, rfl⟩
abbrev main_c_21 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95_0 : Ref sig .tc := ⟨.hbm, 136, rfl⟩
abbrev main_v95_1 : Ref sig .tc := ⟨.hbm, 137, rfl⟩
abbrev main_cst_22 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_stg4_0 : Ref sig .tc := ⟨.vmem, 39, rfl⟩
abbrev cc4_stg4_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc6_stg6_0 : Ref sig .tc := ⟨.vmem, 56, rfl⟩
abbrev cc6_stg7_0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc4_sem4_0 : DmaSem sig := 39
abbrev cc4_sem4_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc6_sem6_0 : DmaSem sig := 56
abbrev cc6_sem7_0 : DmaSem sig := 57

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x1 .i32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S1x256_S1x256_0_0 : ∀ a, (![0, 0] : Fin 2 → Nat) a + S1x256.size a ≤ S1x256.size a
  h_S1x256 : 0 < S1x256.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x256_d1_w32 : S4000x256.Iotas .tc 32 [1]
  broadcasts_S4000x1_S4000x256 : S4000x1.Broadcasts S4000x256
  natLt_1_32 : 1 < 32
  reduces_S4000x256_S256 : S4000x256.Reduces [0] S256
  shapeCasts_S256_S1x256 : S256.ShapeCasts S1x256
  shapeCasts_S1x256_S1x256 : S1x256.ShapeCasts S1x256
  bcast_S_S1x256 : S_.BroadcastsInDim S1x256 (![] : Fin 0 → Fin S1x256.rank)
  transposes_S1x256_S256x1_1_0 : S1x256.Transposes [1, 0] S256x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x32_S4000x32_1_0_0_1_n_n_wf : DotDims.WF S4000x64 S64x32 S4000x32 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32.size a ≤ S32.size a
  hwx6_2 : ∀ i : grid6.Coords, EltTy.bits .f32 = 32 ∨ (Rect.block (s := S32) S32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x1.size a ≤ S32x1.size a
  hwx6_3 : ∀ i : grid6.Coords, EltTy.bits .f32 = 32 ∨ (Rect.block (s := S32x1) S32x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1.size a ≤ S1.size a
  hwx6_4 : ∀ i : grid6.Coords, EltTy.bits .f32 = 32 ∨ (Rect.block (s := S1) S1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x1.size a ≤ S100000x1.size a
  hwx6_5 : ∀ i : grid6.Coords, EltTy.bits .i32 = 32 ∨ (Rect.block (s := S100000x1) S4000x1.size (cc6_transform_5 i) (hinb6_5 i)).WholeWords (EltTy.packing .i32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x256.size a ≤ S1x256.size a
  hwx6_7 : ∀ i : grid6.Coords, EltTy.bits .f32 = 32 ∨ (Rect.block (s := S1x256) S1x256.size (cc6_transform_7 i) (hinb6_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v52) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34_1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v54_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v72) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54_1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v73) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v74_0) S5000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v74_1) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v92) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74_1) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v93) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg11) S32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S32x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg13) S1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v94) S4000x1.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v95_0) S1x256.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v95_1) S1x256.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S1x1 : Shape := ⟨2, ![1, 1]⟩
abbrev S256x1 : Shape := ⟨2, ![256, 1]⟩

abbrev nBuf : Space → Nat
  | .hbm => 256
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x32, .f32⟩
  | 11 => ⟨S32, .f32⟩
  | 12 => ⟨S32x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S100000x64, .f32⟩
  | 19 => ⟨S_, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S_, .f32⟩
  | 55 => ⟨S100000x64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x1, .f32⟩
  | 66 => ⟨S1600000x64, .f32⟩
  | 67 => ⟨S1600000x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S100000x64, .f32⟩
  | 77 => ⟨S_, .f32⟩
  | 78 => ⟨S100000, .f32⟩
  | 79 => ⟨S100000, .f32⟩
  | 80 => ⟨S100000x1, .f32⟩
  | 81 => ⟨S100000x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S_, .f32⟩
  | 92 => ⟨S100000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S100000, .f32⟩
  | 102 => ⟨S_, .f32⟩
  | 103 => ⟨S100000, .f32⟩
  | 104 => ⟨S100000, .f32⟩
  | 105 => ⟨S100000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S1600000, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000, .f32⟩
  | 125 => ⟨S1600000, .f32⟩
  | 126 => ⟨S_, .f32⟩
  | 127 => ⟨S100000x64, .f32⟩
  | _ => ⟨S100000x64, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S1600000x1, .f32⟩
  | 10 => ⟨S1600000x64, .f32⟩
  | 11 => ⟨S1600000x64, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S100000x64, .f32⟩
  | 21 => ⟨S_, .f32⟩
  | 22 => ⟨S100000, .f32⟩
  | 23 => ⟨S100000, .f32⟩
  | 24 => ⟨S100000x1, .f32⟩
  | 25 => ⟨S100000x64, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S100000x64, .f32⟩
  | 35 => ⟨S_, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S100000, .f32⟩
  | 46 => ⟨S_, .f32⟩
  | 47 => ⟨S100000, .f32⟩
  | 48 => ⟨S100000, .f32⟩
  | 49 => ⟨S100000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000, .f32⟩
  | 69 => ⟨S1600000, .f32⟩
  | 70 => ⟨S_, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x64, .f32⟩
  | 81 => ⟨S1600000x1, .f32⟩
  | 82 => ⟨S1600000x64, .f32⟩
  | 83 => ⟨S1600000x64, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S100000x64, .f32⟩
  | 93 => ⟨S_, .f32⟩
  | 94 => ⟨S100000, .f32⟩
  | 95 => ⟨S100000, .f32⟩
  | 96 => ⟨S100000x1, .f32⟩
  | 97 => ⟨S100000x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S100000x32, .f32⟩
  | 104 => ⟨S1x32, .f32⟩
  | 105 => ⟨S100000x32, .f32⟩
  | 106 => ⟨S100000x32, .f32⟩
  | 107 => ⟨S_, .f32⟩
  | 108 => ⟨S100000x32, .f32⟩
  | 109 => ⟨S100000x32, .f32⟩
  | 110 => ⟨S100000x1, .f32⟩
  | 111 => ⟨S1x1, .f32⟩
  | 112 => ⟨S100000x1, .f32⟩
  | 113 => ⟨S100000x1, .f32⟩
  | 114 => ⟨S_, .f32⟩
  | 115 => ⟨S256x1, .f32⟩
  | 116 => ⟨S100000x1, .i32⟩
  | 117 => ⟨S256x1, .f32⟩
  | 118 => ⟨S_, .f32⟩
  | 119 => ⟨S100000x1, .f32⟩
  | 120 => ⟨S_, .f32⟩
  | 121 => ⟨S256x1, .f32⟩
  | 122 => ⟨S100000x1, .i32⟩
  | 123 => ⟨S256x1, .f32⟩
  | 124 => ⟨S_, .f32⟩
  | 125 => ⟨S256x1, .f32⟩
  | 126 => ⟨S256x1, .f32⟩
  | 127 => ⟨S256x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call0_cst : Ref sig .tc := ⟨.hbm, 87, rfl⟩
abbrev main_call0_v0 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_c_13 : Ref sig .tc := ⟨.hbm, 93, rfl⟩
abbrev main_v62 : Ref sig .tc := ⟨.hbm, 94, rfl⟩
abbrev main_v63 : Ref sig .tc := ⟨.hbm, 95, rfl⟩
abbrev main_c_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_16 : Ref sig .tc := ⟨.hbm, 106, rfl⟩
abbrev main_v72 : Ref sig .tc := ⟨.hbm, 107, rfl⟩
abbrev main_v73 : Ref sig .tc := ⟨.hbm, 108, rfl⟩
abbrev main_c_17 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_18 : Ref sig .tc := ⟨.hbm, 116, rfl⟩
abbrev main_v80 : Ref sig .tc := ⟨.hbm, 117, rfl⟩
abbrev main_v81 : Ref sig .tc := ⟨.hbm, 118, rfl⟩
abbrev main_c_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_20 : Ref sig .tc := ⟨.hbm, 126, rfl⟩
abbrev main_v88 : Ref sig .tc := ⟨.hbm, 127, rfl⟩
abbrev main_c_21 : Ref sig .tc := ⟨.hbm, 128, rfl⟩
abbrev main_v89 : Ref sig .tc := ⟨.hbm, 129, rfl⟩
abbrev main_v90 : Ref sig .tc := ⟨.hbm, 130, rfl⟩
abbrev main_c_22 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_23 : Ref sig .tc := ⟨.hbm, 140, rfl⟩
abbrev main_v99 : Ref sig .tc := ⟨.hbm, 141, rfl⟩
abbrev main_v100 : Ref sig .tc := ⟨.hbm, 142, rfl⟩
abbrev main_c_24 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_25 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_call1_cst : Ref sig .tc := ⟨.hbm, 159, rfl⟩
abbrev main_call1_v0 : Ref sig .tc := ⟨.hbm, 160, rfl⟩
abbrev main_v115 : Ref sig .tc := ⟨.hbm, 161, rfl⟩
abbrev main_v116 : Ref sig .tc := ⟨.hbm, 162, rfl⟩
abbrev main_cst_26 : Ref sig .tc := ⟨.hbm, 163, rfl⟩
abbrev main_v117 : Ref sig .tc := ⟨.hbm, 164, rfl⟩
abbrev main_c_27 : Ref sig .tc := ⟨.hbm, 165, rfl⟩
abbrev main_v118 : Ref sig .tc := ⟨.hbm, 166, rfl⟩
abbrev main_v119 : Ref sig .tc := ⟨.hbm, 167, rfl⟩
abbrev main_c_28 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_29 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_c_30 : Ref sig .tc := ⟨.hbm, 178, rfl⟩
abbrev main_v128 : Ref sig .tc := ⟨.hbm, 179, rfl⟩
abbrev main_v129 : Ref sig .tc := ⟨.hbm, 180, rfl⟩
abbrev main_c_31 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_c_32 : Ref sig .tc := ⟨.hbm, 188, rfl⟩
abbrev main_v136 : Ref sig .tc := ⟨.hbm, 189, rfl⟩
abbrev main_v137 : Ref sig .tc := ⟨.hbm, 190, rfl⟩
abbrev main_c_33 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_34 : Ref sig .tc := ⟨.hbm, 198, rfl⟩
abbrev main_v144 : Ref sig .tc := ⟨.hbm, 199, rfl⟩
abbrev main_c_35 : Ref sig .tc := ⟨.hbm, 200, rfl⟩
abbrev main_v145 : Ref sig .tc := ⟨.hbm, 201, rfl⟩
abbrev main_v146 : Ref sig .tc := ⟨.hbm, 202, rfl⟩
abbrev main_c_36 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_c_37 : Ref sig .tc := ⟨.hbm, 212, rfl⟩
abbrev main_v155 : Ref sig .tc := ⟨.hbm, 213, rfl⟩
abbrev main_v156 : Ref sig .tc := ⟨.hbm, 214, rfl⟩
abbrev main_c_38 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_39 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_call2_cst : Ref sig .tc := ⟨.hbm, 235, rfl⟩
abbrev main_call2_v0 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_cst_40 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_cst_41 : Ref sig .tc := ⟨.hbm, 246, rfl⟩
abbrev main_v183 : Ref sig .tc := ⟨.hbm, 247, rfl⟩
abbrev main_cst_42 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_cst_43 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S256x1 : S_.BroadcastsInDim S256x1 (![] : Fin 0 → Fin S256x1.rank)
  bcast_S_S100000x1 : S_.BroadcastsInDim S100000x1 (![] : Fin 0 → Fin S100000x1.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []
  scatter_S256x1_S100000x1_S100000x1_1_0_0_1_wf : ScatterDims.WF S256x1 S100000x1 S100000x1 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf

class Facts : Prop extends Facts₀ where

variable [Facts]
-- ==== Proof.Spec.lean ====
/-
  What the program computes, as functions of its argument arrays over the extended reals.

  A graph convolution layer takes node features x (100000 rows of 64), a weight matrix W and a bias b. With
  xw = x·W, the layer's result at node i, feature j is
      (A(xw) i j  +  xw i j · d i)  +  b j
  where A is the neighbour aggregation (a gather of rows by source node, a scaling by the edge's normalisation and
  a scatter-add into the destination node) and d i is the reciprocal of node i's degree, held as a column. Both A
  and d depend only on the graph (edge list and edge weights); here they are parameters. The first two layers are
  followed by max(·, 0).

  The readout of node n is  (Σ_k2 max(Σ_k h n k · Wr0 k k2 + br0 k2, 0) · Wr1 k2 0) + br1 0,  and the result for
  graph g is the sum of the readouts of the nodes whose graph id is g, divided by max(their number, 1).
-/
import Mathlib.Data.EReal.Operations
import Mathlib.Algebra.BigOperators.Fin
import Idealize.ShloMosaic.PureOps.Ideal
import Idealize.ShloMosaic.Lib.ValueIdx

noncomputable section

open scoped BigOperators

namespace Cert.Spec

open Idealize.ShloMosaic Idealize.ShloMosaic.ValueIdx

/-- Node rows. -/
abbrev Rows (C : ℕ) : Type := FVec Ideal ⟨2, ![100000, C]⟩ .f32

/-- One value per node, held as a column. -/
abbrev Col : Type := FVec Ideal ⟨2, ![100000, 1]⟩ .f32

/-- The product of the node rows with a K × C weight matrix. -/
def mm {K C : ℕ} (x : Rows K) (w : FVec Ideal ⟨2, ![K, C]⟩ .f32) : Rows C :=
  fun i => ∑ k : Fin K, x (ix2 (i 0) k) * w (ix2 k (i 1))

/-- Each node's row scaled by that node's factor. -/
def selfLoop (xw : Rows 64) (d : Col) : Rows 64 :=
  fun i => xw i * d (ix2 (i 0) (0 : Fin 1))

/-- Aggregate plus self-loop term plus bias. -/
def combine (agg sl : Rows 64) (b : FVec Ideal ⟨1, ![64]⟩ .f32) : Rows 64 :=
  fun i => (agg i + sl i) + b (ix1 (i 1))

/-- max(·, 0), entry by entry. -/
def relu {s : Shape} (x : FVec Ideal s .f32) : FVec Ideal s .f32 := fun i => max (x i) 0

/-- One layer without the activation. -/
def layer (A : Rows 64 → Rows 64) (d : Col) (x : Rows 64)
    (w : FVec Ideal ⟨2, ![64, 64]⟩ .f32) (b : FVec Ideal ⟨1, ![64]⟩ .f32) : Rows 64 :=
  combine (A (mm x w)) (selfLoop (mm x w) d) b

/-- The readout of node n: a hidden layer of 32 units with max(·, 0), then one output unit. -/
def readout (h : Rows 64) (wr0 : FVec Ideal ⟨2, ![64, 32]⟩ .f32) (br0 : FVec Ideal ⟨1, ![32]⟩ .f32)
    (wr1 : FVec Ideal ⟨2, ![32, 1]⟩ .f32) (br1 : FVec Ideal ⟨1, ![1]⟩ .f32) (n : Fin 100000) : EReal :=
  (∑ k2 : Fin 32, max ((∑ k : Fin 64, h (ix2 n k) * wr0 (ix2 k k2)) + br0 (ix1 k2)) 0 * wr1 (ix2 k2 (0 : Fin 1)))
    + br1 (ix1 (0 : Fin 1))

/-- The sum of a node quantity over the nodes of graph g; the graph ids are held as a column of words. -/
def graphSum (f : Fin 100000 → EReal) (batch : IVec ⟨2, ![100000, 1]⟩ 32) (g : Fin 256) : EReal :=
  ∑ n : Fin 100000, if batch (ix2 n (0 : Fin 1)) = BitVec.ofNat 32 g.val then f n else 0

/-- The mean of a node quantity over the nodes of graph g (the sum over max(count, 1)). -/
def graphMean (f : Fin 100000 → EReal) (batch : IVec ⟨2, ![100000, 1]⟩ 32) (g : Fin 256) : EReal :=
  Ideal.div (graphSum f batch g) (max (graphSum (fun _ => 1) batch g) 1)

/-- The three layers: the first two with the activation. -/
def hidden (A : Rows 64 → Rows 64) (d : Col) (x : Rows 64)
    (w0 : FVec Ideal ⟨2, ![64, 64]⟩ .f32) (b0 : FVec Ideal ⟨1, ![64]⟩ .f32)
    (w1 : FVec Ideal ⟨2, ![64, 64]⟩ .f32) (b1 : FVec Ideal ⟨1, ![64]⟩ .f32)
    (w2 : FVec Ideal ⟨2, ![64, 64]⟩ .f32) (b2 : FVec Ideal ⟨1, ![64]⟩ .f32) : Rows 64 :=
  layer A d (relu (layer A d (relu (layer A d x w0 b0)) w1 b1)) w2 b2

/-- The whole program: three layers, the readout, the mean per graph. -/
def result (A : Rows 64 → Rows 64) (d : Col) (x : Rows 64)
    (w0 : FVec Ideal ⟨2, ![64, 64]⟩ .f32) (b0 : FVec Ideal ⟨1, ![64]⟩ .f32)
    (w1 : FVec Ideal ⟨2, ![64, 64]⟩ .f32) (b1 : FVec Ideal ⟨1, ![64]⟩ .f32)
    (w2 : FVec Ideal ⟨2, ![64, 64]⟩ .f32) (b2 : FVec Ideal ⟨1, ![64]⟩ .f32)
    (wr0 : FVec Ideal ⟨2, ![64, 32]⟩ .f32) (br0 : FVec Ideal ⟨1, ![32]⟩ .f32)
    (wr1 : FVec Ideal ⟨2, ![32, 1]⟩ .f32) (br1 : FVec Ideal ⟨1, ![1]⟩ .f32)
    (batch : IVec ⟨2, ![100000, 1]⟩ 32) : FVec Ideal ⟨2, ![256, 1]⟩ .f32 :=
  fun i => graphMean (readout (hidden A d x w0 b0 w1 b1 w2 b2) wr0 br0 wr1 br1) batch (i 0)

end Cert.Spec

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.KMatmul.lean ====
/-
  The matrix-product regions. Each grid point t takes rows 5000·t … 5000·t + 4999 of the node features, the whole
  weight matrix and the same rows of the degree column; it writes the rows' product with the weights to its first
  output and that product scaled row by row by the column to its second. So after the region the first output
  array is the product of all node rows with the weights and the second the scaled product.
-/
import proofs.«418295_j74921409511934_1_alg».proof.Proof.Gen.KernelIdeal.Frame
import proofs.«418295_j74921409511934_1_alg».proof.Proof.Spec
import proofs.«418295_j74921409511934_1_alg».proof.Proof.LibVecRows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block arithmetic: a 5000 × 64 block times the 64 × 64 weights, entry by entry -/

-- the left operand is read at the output's row …
theorem lhs_blockdot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
-- … and the contracted coordinate,
theorem lhs_blockdot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
-- the right operand at the contracted coordinate …
theorem rhs_blockdot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
-- … and the output's column.
theorem rhs_blockdot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into a zero accumulator, entry (p, q): the sum over k of left (p, k) times right (k, q). -/
theorem blockdot_apply {φ₁ φ₂ : FTy} (x0 : FVec Ideal S5000x64 φ₁) (x1 : FVec Ideal S64x64 φ₂) (p : Fin 5000) (q : Fin 64) :
    matmul dot_S5000x64_S64x64_S5000x64_1_0_0_1_n_n none x0 x1 (constant (F := Ideal) S5000x64 .f32 0x00000000#32) (ix2 p q)
      = ∑ k : Fin 64, x0 (ix2 p k) * x1 (ix2 k q) := by
  refine (Ideal.matmul_constant_zero_apply dot_S5000x64_S64x64_S5000x64_1_0_0_1_n_n none x0 x1 (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_blockdot_0 _ _
    | ⟨1, _⟩ => exact (lhs_blockdot_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_blockdot_0 _ _).trans hk
    | ⟨1, _⟩ => exact rhs_blockdot_1 _ _)
  rw [el, er]

/-- Region 0's first payload at entry (p, q): narrowing is the identity on extended reals, so it is the block product. -/
theorem k0_pay1_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact blockdot_apply _ _ p q

/-- Region 0's second payload at entry (p, q): the first, times the column's entry of row p. -/
theorem k0_pay2_apply (x0 : Vec Ideal S5000x64 .f32) (x1 : Vec Ideal S64x64 .f32) (x2 : Vec Ideal S5000x1 .f32) (p : Fin 5000) (q : Fin 64) :
    k0_pay2 (F := Ideal) x0 x1 x2 (ix2 p q) = (∑ k : Fin 64, x0 (ix2 p k) * x1 (ix2 k q)) * x2 (ix2 p (0 : Fin 1)) := by
  unfold k0_pay2
  refine (mulf_apply _ _ _).trans ?_
  rw [k0_pay1_apply, shapeCast_self]
  exact congrArg _ (Cert.LibVecRows.broadcastTo_col_apply x2 broadcasts_S5000x1_S5000x64 p q)

/-- Region 2's first payload at entry (p, q): a reshape to the same shape and the narrowing change nothing, so it
    is the block product. -/
theorem k2_pay1_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  rw [shapeCast_self]
  exact blockdot_apply _ _ p q

/-- Region 2's second payload at entry (p, q): the first, times the column's entry of row p. -/
theorem k2_pay2_apply (x0 : Vec Ideal S5000x64 .f32) (x1 : Vec Ideal S64x64 .f32) (x2 : Vec Ideal S5000x1 .f32) (p : Fin 5000) (q : Fin 64) :
    k2_pay2 (F := Ideal) x0 x1 x2 (ix2 p q) = (∑ k : Fin 64, x0 (ix2 p k) * x1 (ix2 k q)) * x2 (ix2 p (0 : Fin 1)) := by
  unfold k2_pay2
  refine (mulf_apply _ _ _).trans ?_
  rw [k2_pay1_apply, shapeCast_self]
  exact congrArg _ (Cert.LibVecRows.broadcastTo_col_apply x2 broadcasts_S5000x1_S5000x64 p q)

/-- Region 4's first payload at entry (p, q): a reshape to the same shape and the narrowing change nothing, so it
    is the block product. -/
theorem k4_pay1_apply (x0 : Vec Ideal S5000x64 .f32) (x1 : Vec Ideal S64x64 .f32) (p : Fin 5000) (q : Fin 64) :
    k4_pay1 (F := Ideal) x0 x1 (ix2 p q) = ∑ k : Fin 64, x0 (ix2 p k) * x1 (ix2 k q) := by
  unfold k4_pay1
  rw [shapeCast_self]
  exact blockdot_apply _ _ p q

/-- Region 4's second payload at entry (p, q): the first, times the column's entry of row p. -/
theorem k4_pay2_apply (x0 : Vec Ideal S5000x64 .f32) (x1 : Vec Ideal S64x64 .f32) (x2 : Vec Ideal S5000x1 .f32) (p : Fin 5000) (q : Fin 64) :
    k4_pay2 (F := Ideal) x0 x1 x2 (ix2 p q) = (∑ k : Fin 64, x0 (ix2 p k) * x1 (ix2 k q)) * x2 (ix2 p (0 : Fin 1)) := by
  unfold k4_pay2
  refine (mulf_apply _ _ _).trans ?_
  rw [k4_pay1_apply, shapeCast_self]
  exact congrArg _ (Cert.LibVecRows.broadcastTo_col_apply x2 broadcasts_S5000x1_S5000x64 p q)

/-! ## Rows of the whole product from a block of rows -/

theorem hz : (![0, 0] : Fin 2 → Nat) = fun _ => 0 :=
  funext fun a => by match a with | ⟨0, _⟩ => rfl | ⟨1, _⟩ => rfl

/-- If a block holds rows 5000·r … of the node rows X and the second block is the weights W, the block product's
    entry (p, q) is the whole product's entry (5000·r + p, q): both are the same sum over the 64 features. -/
theorem mm_rows (x0 : Vec Ideal S5000x64 .f32) (x1 : Vec Ideal S64x64 .f32)
    (X : Cert.Spec.Rows 64) (W : FVec Ideal ⟨2, ![64, 64]⟩ .f32) (r : ℕ)
    (hx0 : ∀ (x : S5000x64.Idx) (i : S100000x64.Idx),
      (i 0).val = r * 5000 + (x 0).val → (i 1).val = (x 1).val → x0 x = X i)
    (hx1 : ∀ x : S64x64.Idx, x1 x = W x)
    (p : Fin 5000) (q : Fin 64) (i : S100000x64.Idx) (hi0 : (i 0).val = r * 5000 + p.val) (hi1 : (i 1).val = q.val) :
    ∑ k : Fin 64, x0 (ix2 p k) * x1 (ix2 k q) = Cert.Spec.mm X W i := by
  unfold Cert.Spec.mm
  have hq : q = i 1 := Fin.ext hi1.symm
  refine Finset.sum_congr rfl fun k _ => ?_
  rw [hx0 (ix2 p k) (ix2 (i 0) k) hi0 rfl, hx1, hq]

/-- With the third block rows 5000·r … of the column d as well, the scaled block product's entry (p, q) is the
    scaled whole product's entry (5000·r + p, q). -/
theorem selfLoop_rows (x0 : Vec Ideal S5000x64 .f32) (x1 : Vec Ideal S64x64 .f32) (x2 : Vec Ideal S5000x1 .f32)
    (X : Cert.Spec.Rows 64) (W : FVec Ideal ⟨2, ![64, 64]⟩ .f32) (d : Cert.Spec.Col) (r : ℕ)
    (hx0 : ∀ (x : S5000x64.Idx) (i : S100000x64.Idx),
      (i 0).val = r * 5000 + (x 0).val → (i 1).val = (x 1).val → x0 x = X i)
    (hx1 : ∀ x : S64x64.Idx, x1 x = W x)
    (hx2 : ∀ (x : S5000x1.Idx) (i : S100000x1.Idx),
      (i 0).val = r * 5000 + (x 0).val → (i 1).val = (x 1).val → x2 x = d i)
    (p : Fin 5000) (q : Fin 64) (i : S100000x64.Idx) (hi0 : (i 0).val = r * 5000 + p.val) (hi1 : (i 1).val = q.val) :
    (∑ k : Fin 64, x0 (ix2 p k) * x1 (ix2 k q)) * x2 (ix2 p (0 : Fin 1))
      = Cert.Spec.selfLoop (Cert.Spec.mm X W) d i := by
  unfold Cert.Spec.selfLoop
  rw [mm_rows x0 x1 X W r hx0 hx1 p q i hi0 hi1, hx2 (ix2 p (0 : Fin 1)) (ix2 (i 0) (0 : Fin 1)) hi0 rfl]

-- the buffer contents a region is entered with
variable (V : (c : Dev nD) → (b : Ref sig .tc) → Buf (Elt Ideal) ((c : Thread nD τ).loc b))

/-! ## Region 0 -/

/-- The index maps over the grid: the row windows sit at block t, the weights at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Window 0's block at point t is rows 5000·t … 5000·t + 4999 of the node rows. -/
theorem rows0_apply (c : Dev nD) (t : Fin cfg0.N) (x : S5000x64.Idx) (i : S100000x64.Idx)
    (h0 : (i 0).val = t.val * 5000 + (x 0).val) (h1 : (i 1).val = (x 1).val) :
    (iblk0 V c 0 t : Vec Ideal S5000x64 .f32) x = (V c main_arg0 : S100000x64.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * (x 0).val = (i 0).val; rw [e0, h0]; omega
  | ⟨1, _⟩ => show win0_0.index t 1 * 64 + 1 * (x 1).val = (i 1).val; rw [e1, h1]; omega

/-- Window 1's block at every point is the whole weight matrix. -/
theorem weights0_apply (c : Dev nD) (t : Fin cfg0.N) (x : S64x64.Idx) :
    (iblk0 V c 1 t : Vec Ideal S64x64 .f32) x = (V c main_arg4 : S64x64.Idx → EReal) x := by
  obtain ⟨-, -, e0, e1, -⟩ := idx_facts0 t
  unfold iblk0
  rw [View.read_apply]
  show V c main_arg4 _ = V c main_arg4 _
  congr 1
  funext a
  apply Fin.ext
  match a with
  | ⟨0, _⟩ => show win0_1.index t 0 * 64 + 1 * (x 0).val = (x 0).val; rw [e0]; omega
  | ⟨1, _⟩ => show win0_1.index t 1 * 64 + 1 * (x 1).val = (x 1).val; rw [e1]; omega

/-- Window 2's block at point t is rows 5000·t … 5000·t + 4999 of the column. -/
theorem col0_apply (c : Dev nD) (t : Fin cfg0.N) (x : S5000x1.Idx) (i : S100000x1.Idx)
    (h0 : (i 0).val = t.val * 5000 + (x 0).val) (h1 : (i 1).val = (x 1).val) :
    (iblk0 V c 2 t : Vec Ideal S5000x1 .f32) x = (V c main_v33 : S100000x1.Idx → EReal) i := by
  obtain ⟨-, -, -, -, e0, e1, -⟩ := idx_facts0 t
  unfold iblk0
  rw [View.read_apply]
  show V c main_v33 _ = V c main_v33 _
  congr 1
  funext a
  apply Fin.ext
  match a with
  | ⟨0, _⟩ => show win0_2.index t 0 * 5000 + 1 * (x 0).val = (i 0).val; rw [e0, h0]; omega
  | ⟨1, _⟩ => show win0_2.index t 1 * 1 + 1 * (x 1).val = (i 1).val; rw [e1, h1]; omega

/-- What point t writes back to the first output: rows 5000·t … of the product. -/
theorem flushed0_3 (c : Dev nD) (t : Fin cfg0.N) :
    (dat0 (F := Ideal) V c).flushed 3 t
      = ((cfg0.win 3).blk t).view.read (Elt Ideal) (Cert.Spec.mm (V c main_arg0) (V c main_arg4)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz]
  obtain ⟨-, -, -, -, -, -, e0, e1, -⟩ := idx_facts0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = Cert.Spec.mm (V c main_arg0) (V c main_arg4) (((cfg0.win 3).blk t).view.emb (ix2 p q))
  refine (k0_pay1_apply (iblk0 V c 0 t) (iblk0 V c 1 t) p q).trans ?_
  refine mm_rows (iblk0 V c 0 t) (iblk0 V c 1 t) (V c main_arg0) (V c main_arg4) t.val
    (rows0_apply V c t) (weights0_apply V c t) p q _ ?_ ?_
  · show win0_3.index t 0 * 5000 + 1 * p.val = t.val * 5000 + p.val; rw [e0]; omega
  · show win0_3.index t 1 * 64 + 1 * q.val = q.val; rw [e1]; omega

/-- What point t writes back to the second output: rows 5000·t … of the scaled product. -/
theorem flushed0_4 (c : Dev nD) (t : Fin cfg0.N) :
    (dat0 (F := Ideal) V c).flushed 4 t
      = ((cfg0.win 4).blk t).view.read (Elt Ideal)
          (Cert.Spec.selfLoop (Cert.Spec.mm (V c main_arg0) (V c main_arg4)) (V c main_v33)) := by
  show (cfg0.win 4).cut (grid0.coords t) ((dat0 V c).after 4 t) = _
  rw [after0_4]
  unfold out0_4
  rw [View.canon_unit_zero hz]
  simp only [View.ld_unit_zero (S := S5000x64) hz, View.ld_unit_zero (S := S64x64) hz, View.ld_unit_zero (S := S5000x1) hz]
  obtain ⟨-, -, -, -, -, -, -, -, e0, e1⟩ := idx_facts0 t
  funext j
  obtain ⟨p, q, rfl⟩ : ∃ (p : Fin 5000) (q : Fin 64), j = ix2 p q := ⟨j 0, j 1, eq_ix2 j⟩
  show k0_pay2 (F := Ideal) (iblk0 V c 0 t) (iblk0 V c 1 t) (iblk0 V c 2 t) (ix2 p q)
    = Cert.Spec.selfLoop (Cert.Spec.mm (V c main_arg0) (V c main_arg4)) (V c main_v33) (((cfg0.win 4).blk t).view.emb (ix2 p q))
  refine (k0_pay2_apply (iblk0 V c 0 t) (iblk0 V c 1 t) (iblk0 V c 2 t) p q).trans ?_
  refine selfLoop_rows (iblk0 V c 0 t) (iblk0 V c 1 t) (iblk0 V c 2 t) (V c main_arg0) (V c main_arg4) (V c main_v33) t.val
    (rows0_apply V c t) (weights0_apply V c t) (col0_apply V c t) p q _ ?_ ?_
  · show win0_4.index t 0 * 5000 + 1 * p.val = t.val * 5000 + p.val; rw [e0]; omega
  · show win0_4.index t 1 * 64 + 1 * q.val = q.val; rw [e1]; omega

/-- An index of the first output array is in point t's block iff each coordinate is in the block's range. -/
theorem mem_blk0_3 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v34_0).slice (win0_3.rect t)).set ↔ _
  rw [View.set_slice_whole, Rect.mem_set_unit]
  exact Iff.rfl

/-- The same for the second output array. -/
theorem mem_blk0_4 (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v34_1).slice (win0_4.rect t)).set ↔ _
  rw [View.set_slice_whole, Rect.mem_set_unit]
  exact Iff.rfl

/-- Row r of the first output lies in the block of point r / 5000, and every point writes back. -/
theorem covered0_3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, e0, e1, -⟩ := idx_facts0 t
  refine ⟨t, flush0_3 t, ?_⟩
  rw [mem_blk0_3]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 64 ≤ (i 1).val ∧ (i 1).val < win0_3.index t (1 : Fin 2) * 64 + 64
    rw [e1]; omega

/-- The same for the second output. -/
theorem covered0_4 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, e0, e1⟩ := idx_facts0 t
  refine ⟨t, flush0_4 t, ?_⟩
  rw [mem_blk0_4]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 64 ≤ (i 1).val ∧ (i 1).val < win0_4.index t (1 : Fin 2) * 64 + 64
    rw [e1]; omega

/-- Region 0, first output: the product of the features with the first weight matrix. -/
theorem final0_3 (c : Dev nD) :
    (dat0 (F := Ideal) V c).arrAt 3 cfg0.N = Cert.Spec.mm (V c main_arg0) (V c main_arg4) := by
  exact (dat0 (F := Ideal) V c).arrAt_eq_of_cover 3 (Cert.Spec.mm (V c main_arg0) (V c main_arg4))
    (fun t _ => flushed0_3 V c t) covered0_3

/-- Region 0, second output: that product, each row scaled by its node's entry of the column. -/
theorem final0_4 (c : Dev nD) :
    (dat0 (F := Ideal) V c).arrAt 4 cfg0.N
      = Cert.Spec.selfLoop (Cert.Spec.mm (V c main_arg0) (V c main_arg4)) (V c main_v33) := by
  exact (dat0 (F := Ideal) V c).arrAt_eq_of_cover 4
    (Cert.Spec.selfLoop (Cert.Spec.mm (V c main_arg0) (V c main_arg4)) (V c main_v33))
    (fun t _ => flushed0_4 V c t) covered0_4

/-! ## Region 2 -/

/-- The index maps over the grid: the row windows sit at block t, the weights at block 0. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Window 0's block at point t is rows 5000·t … 5000·t + 4999 of the node rows. -/
theorem rows2_apply (c : Dev nD) (t : Fin cfg2.N) (x : S5000x64.Idx) (i : S100000x64.Idx)
    (h0 : (i 0).val = t.val * 5000 + (x 0).val) (h1 : (i 1).val = (x 1).val) :
    (iblk2 V c 0 t : Vec Ideal S5000x64 .f32) x = (V c main_v53 : S100000x64.Idx → EReal) i := by
  obtain ⟨e0, e1, -⟩ := idx_facts2 t
  unfold iblk2
  rw [View.read_apply]
  show V c main_v53 _ = V c main_v53 _
  congr 1
  funext a
  apply Fin.ext
  match a with
  | ⟨0, _⟩ => show win2_0.index t 0 * 5000 + 1 * (x 0).val = (i 0).val; rw [e0, h0]; omega
  | ⟨1, _⟩ => show win2_0.index t 1 * 64 + 1 * (x 1).val = (i 1).val; rw [e1, h1]; omega

/-- Window 1's block at every point is the whole weight matrix. -/
theorem weights2_apply (c : Dev nD) (t : Fin cfg2.N) (x : S64x64.Idx) :
    (iblk2 V c 1 t : Vec Ideal S64x64 .f32) x = (V c main_arg6 : S64x64.Idx → EReal) x := by
  obtain ⟨-, -, e0, e1, -⟩ := idx_facts2 t
  unfold iblk2
  rw [View.read_apply]
  show V c main_arg6 _ = V c main_arg6 _
  congr 1
  funext a
  apply Fin.ext
  match a with
  | ⟨0, _⟩ => show win2_1.index t 0 * 64 + 1 * (x 0).val = (x 0).val; rw [e0]; omega
  | ⟨1, _⟩ => show win2_1.index t 1 * 64 + 1 * (x 1).val = (x 1).val; rw [e1]; omega

/-- Window 2's block at point t is rows 5000·t … 5000·t + 4999 of the column. -/
theorem col2_apply (c : Dev nD) (t : Fin cfg2.N) (x : S5000x1.Idx) (i : S100000x1.Idx)
    (h0 : (i 0).val = t.val * 5000 + (x 0).val) (h1 : (i 1).val = (x 1).val) :
    (iblk2 V c 2 t : Vec Ideal S5000x1 .f32) x = (V c main_v33 : S100000x1.Idx → EReal) i := by
  obtain ⟨-, -, -, -, e0, e1, -⟩ := idx_facts2 t
  unfold iblk2
  rw [View.read_apply]
  show V c main_v33 _ = V c main_v33 _
  congr 1
  funext a
  apply Fin.ext
  match a with
  | ⟨0, _⟩ => show win2_2.index t 0 * 5000 + 1 * (x 0).val = (i 0).val; rw [e0, h0]; omega
  | ⟨1, _⟩ => show win2_2.index t 1 * 1 + 1 * (x 1).val = (i 1).val; rw [e1, h1]; omega

/-- What point t writes back to the first output: rows 5000·t … of the product. -/
theorem flushed2_3 (c : Dev nD) (t : Fin cfg2.N) :
    (dat2 (F := Ideal) V c).flushed 3 t
      = ((cfg2.win 3).blk t).view.read (Elt Ideal) (Cert.Spec.mm (V c main_v53) (V c main_arg6)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz]
  obtain ⟨-, -, -, -, -, -, e0, e1, -⟩ := idx_facts2 t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q)
    = Cert.Spec.mm (V c main_v53) (V c main_arg6) (((cfg2.win 3).blk t).view.emb (ix2 p q))
  refine (k2_pay1_apply (iblk2 V c 0 t) (iblk2 V c 1 t) p q).trans ?_
  refine mm_rows (iblk2 V c 0 t) (iblk2 V c 1 t) (V c main_v53) (V c main_arg6) t.val
    (rows2_apply V c t) (weights2_apply V c t) p q _ ?_ ?_
  · show win2_3.index t 0 * 5000 + 1 * p.val = t.val * 5000 + p.val; rw [e0]; omega
  · show win2_3.index t 1 * 64 + 1 * q.val = q.val; rw [e1]; omega

/-- What point t writes back to the second output: rows 5000·t … of the scaled product. -/
theorem flushed2_4 (c : Dev nD) (t : Fin cfg2.N) :
    (dat2 (F := Ideal) V c).flushed 4 t
      = ((cfg2.win 4).blk t).view.read (Elt Ideal)
          (Cert.Spec.selfLoop (Cert.Spec.mm (V c main_v53) (V c main_arg6)) (V c main_v33)) := by
  show (cfg2.win 4).cut (grid2.coords t) ((dat2 V c).after 4 t) = _
  rw [after2_4]
  unfold out2_4
  rw [View.canon_unit_zero hz]
  simp only [View.ld_unit_zero (S := S5000x64) hz, View.ld_unit_zero (S := S64x64) hz, View.ld_unit_zero (S := S5000x1) hz]
  obtain ⟨-, -, -, -, -, -, -, -, e0, e1⟩ := idx_facts2 t
  funext j
  obtain ⟨p, q, rfl⟩ : ∃ (p : Fin 5000) (q : Fin 64), j = ix2 p q := ⟨j 0, j 1, eq_ix2 j⟩
  show k2_pay2 (F := Ideal) (iblk2 V c 0 t) (iblk2 V c 1 t) (iblk2 V c 2 t) (ix2 p q)
    = Cert.Spec.selfLoop (Cert.Spec.mm (V c main_v53) (V c main_arg6)) (V c main_v33) (((cfg2.win 4).blk t).view.emb (ix2 p q))
  refine (k2_pay2_apply (iblk2 V c 0 t) (iblk2 V c 1 t) (iblk2 V c 2 t) p q).trans ?_
  refine selfLoop_rows (iblk2 V c 0 t) (iblk2 V c 1 t) (iblk2 V c 2 t) (V c main_v53) (V c main_arg6) (V c main_v33) t.val
    (rows2_apply V c t) (weights2_apply V c t) (col2_apply V c t) p q _ ?_ ?_
  · show win2_4.index t 0 * 5000 + 1 * p.val = t.val * 5000 + p.val; rw [e0]; omega
  · show win2_4.index t 1 * 64 + 1 * q.val = q.val; rw [e1]; omega

/-- An index of the first output array is in point t's block iff each coordinate is in the block's range. -/
theorem mem_blk2_3 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v54_0).slice (win2_3.rect t)).set ↔ _
  rw [View.set_slice_whole, Rect.mem_set_unit]
  exact Iff.rfl

/-- The same for the second output array. -/
theorem mem_blk2_4 (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v54_1).slice (win2_4.rect t)).set ↔ _
  rw [View.set_slice_whole, Rect.mem_set_unit]
  exact Iff.rfl

/-- Row r of the first output lies in the block of point r / 5000, and every point writes back. -/
theorem covered2_3 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by omega⟩, rfl⟩
  obtain ⟨-, -, -, -, -, -, e0, e1, -⟩ := idx_facts2 t
  refine ⟨t, flush2_3 t, ?_⟩
  rw [mem_blk2_3]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 64 ≤ (i 1).val ∧ (i 1).val < win2_3.index t (1 : Fin 2) * 64 + 64
    rw [e1]; omega

/-- The same for the second output. -/
theorem covered2_4 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by omega⟩, rfl⟩
  obtain ⟨-, -, -, -, -, -, -, -, e0, e1⟩ := idx_facts2 t
  refine ⟨t, flush2_4 t, ?_⟩
  rw [mem_blk2_4]
  intro a
  match a with
  | ⟨0, _⟩ =>
    show win2_4.index t (0 : Fin 2) * 5000 ≤ (i 0).val ∧ (i 0).val < win2_4.index t (0 : Fin 2) * 5000 + 5000
    rw [e0, ht]; omega
  | ⟨1, _⟩ =>
    show win2_4.index t (1 : Fin 2) * 64 ≤ (i 1).val ∧ (i 1).val < win2_4.index t (1 : Fin 2) * 64 + 64
    rw [e1]; omega

/-- Region 2, first output. -/
theorem final2_3 (c : Dev nD) :
    (dat2 (F := Ideal) V c).arrAt 3 cfg2.N = Cert.Spec.mm (V c main_v53) (V c main_arg6) := by
  exact (dat2 (F := Ideal) V c).arrAt_eq_of_cover 3 (Cert.Spec.mm (V c main_v53) (V c main_arg6))
    (fun t _ => flushed2_3 V c t) covered2_3

/-- Region 2, second output. -/
theorem final2_4 (c : Dev nD) :
    (dat2 (F := Ideal) V c).arrAt 4 cfg2.N
      = Cert.Spec.selfLoop (Cert.Spec.mm (V c main_v53) (V c main_arg6)) (V c main_v33) := by
  exact (dat2 (F := Ideal) V c).arrAt_eq_of_cover 4
    (Cert.Spec.selfLoop (Cert.Spec.mm (V c main_v53) (V c main_arg6)) (V c main_v33))
    (fun t _ => flushed2_4 V c t) covered2_4

/-! ## Region 4 -/

/-- The index maps over the grid: the row windows sit at block t, the weights at block 0. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Window 0's block at point t is rows 5000·t … 5000·t + 4999 of the node rows. -/
theorem rows4_apply (c : Dev nD) (t : Fin cfg4.N) (x : S5000x64.Idx) (i : S100000x64.Idx)
    (h0 : (i 0).val = t.val * 5000 + (x 0).val) (h1 : (i 1).val = (x 1).val) :
    (iblk4 V c 0 t : Vec Ideal S5000x64 .f32) x = (V c main_v73 : S100000x64.Idx → EReal) i := by
  obtain ⟨e0, e1, -⟩ := idx_facts4 t
  unfold iblk4
  rw [View.read_apply]
  show V c main_v73 _ = V c main_v73 _
  congr 1
  funext a
  apply Fin.ext
  match a with
  | ⟨0, _⟩ => show win4_0.index t 0 * 5000 + 1 * (x 0).val = (i 0).val; rw [e0, h0]; omega
  | ⟨1, _⟩ => show win4_0.index t 1 * 64 + 1 * (x 1).val = (i 1).val; rw [e1, h1]; omega

/-- Window 1's block at every point is the whole weight matrix. -/
theorem weights4_apply (c : Dev nD) (t : Fin cfg4.N) (x : S64x64.Idx) :
    (iblk4 V c 1 t : Vec Ideal S64x64 .f32) x = (V c main_arg8 : S64x64.Idx → EReal) x := by
  obtain ⟨-, -, e0, e1, -⟩ := idx_facts4 t
  unfold iblk4
  rw [View.read_apply]
  show V c main_arg8 _ = V c main_arg8 _
  congr 1
  funext a
  apply Fin.ext
  match a with
  | ⟨0, _⟩ => show win4_1.index t 0 * 64 + 1 * (x 0).val = (x 0).val; rw [e0]; omega
  | ⟨1, _⟩ => show win4_1.index t 1 * 64 + 1 * (x 1).val = (x 1).val; rw [e1]; omega

/-- Window 2's block at point t is rows 5000·t … 5000·t + 4999 of the column. -/
theorem col4_apply (c : Dev nD) (t : Fin cfg4.N) (x : S5000x1.Idx) (i : S100000x1.Idx)
    (h0 : (i 0).val = t.val * 5000 + (x 0).val) (h1 : (i 1).val = (x 1).val) :
    (iblk4 V c 2 t : Vec Ideal S5000x1 .f32) x = (V c main_v33 : S100000x1.Idx → EReal) i := by
  obtain ⟨-, -, -, -, e0, e1, -⟩ := idx_facts4 t
  unfold iblk4
  rw [View.read_apply]
  show V c main_v33 _ = V c main_v33 _
  congr 1
  funext a
  apply Fin.ext
  match a with
  | ⟨0, _⟩ => show win4_2.index t 0 * 5000 + 1 * (x 0).val = (i 0).val; rw [e0, h0]; omega
  | ⟨1, _⟩ => show win4_2.index t 1 * 1 + 1 * (x 1).val = (i 1).val; rw [e1, h1]; omega

/-- What point t writes back to the first output: rows 5000·t … of the product. -/
theorem flushed4_3 (c : Dev nD) (t : Fin cfg4.N) :
    (dat4 (F := Ideal) V c).flushed 3 t
      = ((cfg4.win 3).blk t).view.read (Elt Ideal) (Cert.Spec.mm (V c main_v73) (V c main_arg8)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x64) hz]
  obtain ⟨-, -, -, -, -, -, e0, e1, -⟩ := idx_facts4 t
  funext j
  obtain ⟨p, q, rfl⟩ : ∃ (p : Fin 5000) (q : Fin 64), j = ix2 p q := ⟨j 0, j 1, eq_ix2 j⟩
  show k4_pay1 (F := Ideal) (iblk4 V c 0 t) (iblk4 V c 1 t) (ix2 p q)
    = Cert.Spec.mm (V c main_v73) (V c main_arg8) (((cfg4.win 3).blk t).view.emb (ix2 p q))
  refine (k4_pay1_apply (iblk4 V c 0 t) (iblk4 V c 1 t) p q).trans ?_
  refine mm_rows (iblk4 V c 0 t) (iblk4 V c 1 t) (V c main_v73) (V c main_arg8) t.val
    (rows4_apply V c t) (weights4_apply V c t) p q _ ?_ ?_
  · show win4_3.index t 0 * 5000 + 1 * p.val = t.val * 5000 + p.val; rw [e0]; omega
  · show win4_3.index t 1 * 64 + 1 * q.val = q.val; rw [e1]; omega

/-- What point t writes back to the second output: rows 5000·t … of the scaled product. -/
theorem flushed4_4 (c : Dev nD) (t : Fin cfg4.N) :
    (dat4 (F := Ideal) V c).flushed 4 t
      = ((cfg4.win 4).blk t).view.read (Elt Ideal)
          (Cert.Spec.selfLoop (Cert.Spec.mm (V c main_v73) (V c main_arg8)) (V c main_v33)) := by
  show (cfg4.win 4).cut (grid4.coords t) ((dat4 V c).after 4 t) = _
  rw [after4_4]
  unfold out4_4
  rw [View.canon_unit_zero hz]
  simp only [View.ld_unit_zero (S := S5000x64) hz, View.ld_unit_zero (S := S64x64) hz, View.ld_unit_zero (S := S5000x1) hz]
  obtain ⟨-, -, -, -, -, -, -, -, e0, e1⟩ := idx_facts4 t
  funext j
  obtain ⟨p, q, rfl⟩ : ∃ (p : Fin 5000) (q : Fin 64), j = ix2 p q := ⟨j 0, j 1, eq_ix2 j⟩
  show k4_pay2 (F := Ideal) (iblk4 V c 0 t) (iblk4 V c 1 t) (iblk4 V c 2 t) (ix2 p q)
    = Cert.Spec.selfLoop (Cert.Spec.mm (V c main_v73) (V c main_arg8)) (V c main_v33) (((cfg4.win 4).blk t).view.emb (ix2 p q))
  refine (k4_pay2_apply (iblk4 V c 0 t) (iblk4 V c 1 t) (iblk4 V c 2 t) p q).trans ?_
  refine selfLoop_rows (iblk4 V c 0 t) (iblk4 V c 1 t) (iblk4 V c 2 t) (V c main_v73) (V c main_arg8) (V c main_v33) t.val
    (rows4_apply V c t) (weights4_apply V c t) (col4_apply V c t) p q _ ?_ ?_
  · show win4_4.index t 0 * 5000 + 1 * p.val = t.val * 5000 + p.val; rw [e0]; omega
  · show win4_4.index t 1 * 64 + 1 * q.val = q.val; rw [e1]; omega

/-- An index of the first output array is in point t's block iff each coordinate is in the block's range. -/
theorem mem_blk4_3 (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v74_0).slice (win4_3.rect t)).set ↔ _
  rw [View.set_slice_whole, Rect.mem_set_unit]
  exact Iff.rfl

/-- The same for the second output array. -/
theorem mem_blk4_4 (t : Fin cfg4.N) (i : S100000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v74_1).slice (win4_4.rect t)).set ↔ _
  rw [View.set_slice_whole, Rect.mem_set_unit]
  exact Iff.rfl

/-- Row r of the first output lies in the block of point r / 5000, and every point writes back. -/
theorem covered4_3 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by omega⟩, rfl⟩
  obtain ⟨-, -, -, -, -, -, e0, e1, -⟩ := idx_facts4 t
  refine ⟨t, flush4_3 t, ?_⟩
  rw [mem_blk4_3]
  intro a
  match a with
  | ⟨0, _⟩ =>
    show win4_3.index t (0 : Fin 2) * 5000 ≤ (i 0).val ∧ (i 0).val < win4_3.index t (0 : Fin 2) * 5000 + 5000
    rw [e0, ht]; omega
  | ⟨1, _⟩ =>
    show win4_3.index t (1 : Fin 2) * 64 ≤ (i 1).val ∧ (i 1).val < win4_3.index t (1 : Fin 2) * 64 + 64
    rw [e1]; omega

/-- The same for the second output. -/
theorem covered4_4 (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by omega⟩, rfl⟩
  obtain ⟨-, -, -, -, -, -, -, -, e0, e1⟩ := idx_facts4 t
  refine ⟨t, flush4_4 t, ?_⟩
  rw [mem_blk4_4]
  intro a
  match a with
  | ⟨0, _⟩ =>
    show win4_4.index t (0 : Fin 2) * 5000 ≤ (i 0).val ∧ (i 0).val < win4_4.index t (0 : Fin 2) * 5000 + 5000
    rw [e0, ht]; omega
  | ⟨1, _⟩ =>
    show win4_4.index t (1 : Fin 2) * 64 ≤ (i 1).val ∧ (i 1).val < win4_4.index t (1 : Fin 2) * 64 + 64
    rw [e1]; omega

/-- Region 4, first output. -/
theorem final4_3 (c : Dev nD) :
    (dat4 (F := Ideal) V c).arrAt 3 cfg4.N = Cert.Spec.mm (V c main_v73) (V c main_arg8) := by
  exact (dat4 (F := Ideal) V c).arrAt_eq_of_cover 3 (Cert.Spec.mm (V c main_v73) (V c main_arg8))
    (fun t _ => flushed4_3 V c t) covered4_3

/-- Region 4, second output. -/
theorem final4_4 (c : Dev nD) :
    (dat4 (F := Ideal) V c).arrAt 4 cfg4.N
      = Cert.Spec.selfLoop (Cert.Spec.mm (V c main_v73) (V c main_arg8)) (V c main_v33) := by
  exact (dat4 (F := Ideal) V c).arrAt_eq_of_cover 4
    (Cert.Spec.selfLoop (Cert.Spec.mm (V c main_v73) (V c main_arg8)) (V c main_v33))
    (fun t _ => flushed4_4 V c t) covered4_4

end Cert.KernelIdeal.KV

end
-- ==== Proof.KEpilogue.lean ====
/-
  The epilogue regions. Each grid point t takes rows 5000·t … 5000·t + 4999 of the aggregate and of the self-loop
  term and the whole bias; it writes (aggregate + self-loop) + bias, in regions 1 and 3 followed by max(·, 0).
-/
import proofs.«418295_j74921409511934_1_alg».proof.Proof.Gen.KernelIdeal.Frame
import proofs.«418295_j74921409511934_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents a region is entered with
variable (V : (c : Dev nD) → (b : Ref sig .tc) → Buf (Elt Ideal) ((c : Thread nD τ).loc b))

/-! ## The body's arithmetic at an index -/

/-- Region 1: at row p, feature q of a block the body holds the two row blocks' entries added, the bias
    entry of the feature added, and the maximum with zero taken. The two casts to the same shape are the identity,
    the bias viewed as one row and repeated down the rows reads its entry q, and the zero word is the real 0. -/
theorem k1_pay1_apply (v0 v2 : Vec Ideal S5000x64 .f32) (v5 : Vec Ideal S64 .f32) (p : Fin 5000) (q : Fin 64) :
    k1_pay1 (F := Ideal) v0 v2 v5 (ix2 p q) = max ((v0 (ix2 p q) + v2 (ix2 p q)) + v5 (ix1 q)) 0 := by
  unfold k1_pay1
  rw [maximumf_apply, addf_apply, addf_apply, broadcast_apply, shapeCast_self, shapeCast_self,
    broadcastTo_1b_ab_apply, shapeCast_a_1a_apply]
  show max _ (Ideal.ofBits .f32 0x00000000#32) = _
  rw [Ideal.ofBits_zero_f32]

/-- Region 3's body is region 1's. -/
theorem k3_pay1_apply (v0 v2 : Vec Ideal S5000x64 .f32) (v5 : Vec Ideal S64 .f32) (p : Fin 5000) (q : Fin 64) :
    k3_pay1 (F := Ideal) v0 v2 v5 (ix2 p q) = max ((v0 (ix2 p q) + v2 (ix2 p q)) + v5 (ix1 q)) 0 := by
  unfold k3_pay1
  rw [maximumf_apply, addf_apply, addf_apply, broadcast_apply, shapeCast_self, shapeCast_self,
    broadcastTo_1b_ab_apply, shapeCast_a_1a_apply]
  show max _ (Ideal.ofBits .f32 0x00000000#32) = _
  rw [Ideal.ofBits_zero_f32]

/-- Region 5: the same sum of the two row blocks' entries and the bias entry, with no maximum taken. -/
theorem k5_pay1_apply (v0 v2 : Vec Ideal S5000x64 .f32) (v5 : Vec Ideal S64 .f32) (p : Fin 5000) (q : Fin 64) :
    k5_pay1 (F := Ideal) v0 v2 v5 (ix2 p q) = (v0 (ix2 p q) + v2 (ix2 p q)) + v5 (ix1 q) := by
  unfold k5_pay1
  rw [addf_apply, addf_apply, shapeCast_self, shapeCast_self, broadcastTo_1b_ab_apply, shapeCast_a_1a_apply]

/-! ## The layer's output at an array index -/

/-- The layer's output with the activation at an array index, from its three arrays read at indices that name
    the same row and the same feature. -/
theorem relu_combine_read (agg sl : Cert.Spec.Rows 64) (b : FVec Ideal S64 .f32)
    (i i0 i1 : S100000x64.Idx) (k : S64.Idx) (h0 : i0 = i) (h1 : i1 = i) (h2 : k = ix1 (i 1)) :
    max ((agg i0 + sl i1) + b k) 0 = Cert.Spec.relu (Cert.Spec.combine agg sl b) i := by
  subst h0 h1 h2; rfl

/-- The same without the activation. -/
theorem combine_read (agg sl : Cert.Spec.Rows 64) (b : FVec Ideal S64 .f32)
    (i i0 i1 : S100000x64.Idx) (k : S64.Idx) (h0 : i0 = i) (h1 : i1 = i) (h2 : k = ix1 (i 1)) :
    (agg i0 + sl i1) + b k = Cert.Spec.combine agg sl b i := by
  subst h0 h1 h2; rfl

/-! ## Offsets of the whole-buffer accesses -/

theorem zero_off2 : (![0, 0] : Fin 2 → Nat) = fun _ => 0 :=
  funext fun a => by match a with | ⟨0, _⟩ => rfl | ⟨1, _⟩ => rfl

theorem zero_off1 : (![0] : Fin 1 → Nat) = fun _ => 0 :=
  funext fun a => by match a with | ⟨0, _⟩ => rfl

/-! ## Region 1 -/

/-- The block indices at point t: the three row windows take block t of the rows and the only block of the
    features; the bias window always takes its only block. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point t writes back is block t of the layer's output: entry (p, q) of the block is row 5000·t + p,
    feature q of the array, and the aggregate, the self-loop term and the bias are read at that row and feature. -/
theorem flushed1_3_eq (c : Dev nD) (t : Fin cfg1.N) :
    (dat1 (F := Ideal) V c).flushed 3 t
      = ((cfg1.win 3).blk t).view.read (Elt Ideal)
          (Cert.Spec.relu (Cert.Spec.combine (V c main_v52) (V c main_v34_1) (V c main_arg5))) := by
  show (cfg1.win 3).cut (grid1.coords t) ((dat1 (F := Ideal) V c).after 3 t) = _
  rw [after1_3]
  unfold out1_3
  rw [View.canon_unit_zero zero_off2]
  simp only [View.ld_unit_zero (S := S5000x64) zero_off2, View.ld_unit_zero (S := S64) zero_off1]
  obtain ⟨e00, e01, e10, e11, e20, e30, e31⟩ := block_index1 t
  funext j
  obtain ⟨p, q, rfl⟩ : ∃ (p : Fin 5000) (q : Fin 64), j = ix2 p q := ⟨j 0, j 1, eq_ix2 j⟩
  refine (k1_pay1_apply (iblk1 V c 0 t) (iblk1 V c 1 t) (iblk1 V c 2 t) p q).trans ?_
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * q.val = win1_3.index t (1 : Fin 2) * 64 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 64 + 1 * q.val = win1_3.index t (1 : Fin 2) * 64 + 1 * q.val; omega
  have h2 : ((cfg1.win 2).blk t).view.emb (ix1 q) = ix1 ((((cfg1.win 3).blk t).view.emb (ix2 p q)) 1) := by
    funext a; apply Fin.ext
    match a with
    | ⟨0, _⟩ => show win1_2.index t (0 : Fin 1) * 64 + 1 * q.val = win1_3.index t (1 : Fin 2) * 64 + 1 * q.val; omega
  exact relu_combine_read (V c main_v52) (V c main_v34_1) (V c main_arg5) _ _ _ _ h0 h1 h2

/-- An array index is in point t's block iff each coordinate is in the block's range on its axis. -/
theorem mem_blk1_3 (t : Fin cfg1.N) (i : S100000x64.Idx) :
    i ∈ ((cfg1.win 3).blk t).view.set
      ↔ ∀ a : Fin 2, win1_3.index t a * S5000x64.size a ≤ (i a).val
          ∧ (i a).val < win1_3.index t a * S5000x64.size a + S5000x64.size a := by
  show i ∈ ((View.whole main_v53).slice (win1_3.rect t)).set ↔ _
  rw [View.set_slice_whole, Rect.mem_set_unit]
  exact Iff.rfl

/-- Every array index lies in the block of the point its row falls to: row r belongs to point r / 5000. -/
theorem cover1_3_rows (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  let t : Fin cfg1.N := ⟨(i 0).val / 5000, by omega⟩
  obtain ⟨e00, e01, e10, e11, e20, e30, e31⟩ := block_index1 t
  have ht : t.val = (i 0).val / 5000 := rfl
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-! ## Region 3 -/

/-- The block indices at point t: the three row windows take block t of the rows and the only block of the
    features; the bias window always takes its only block. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- What point t writes back is block t of the layer's output: entry (p, q) of the block is row 5000·t + p,
    feature q of the array, and the aggregate, the self-loop term and the bias are read at that row and feature. -/
theorem flushed3_3_eq (c : Dev nD) (t : Fin cfg3.N) :
    (dat3 (F := Ideal) V c).flushed 3 t
      = ((cfg3.win 3).blk t).view.read (Elt Ideal)
          (Cert.Spec.relu (Cert.Spec.combine (V c main_v72) (V c main_v54_1) (V c main_arg7))) := by
  show (cfg3.win 3).cut (grid3.coords t) ((dat3 (F := Ideal) V c).after 3 t) = _
  rw [after3_3]
  unfold out3_3
  rw [View.canon_unit_zero zero_off2]
  simp only [View.ld_unit_zero (S := S5000x64) zero_off2, View.ld_unit_zero (S := S64) zero_off1]
  obtain ⟨e00, e01, e10, e11, e20, e30, e31⟩ := block_index3 t
  funext j
  obtain ⟨p, q, rfl⟩ : ∃ (p : Fin 5000) (q : Fin 64), j = ix2 p q := ⟨j 0, j 1, eq_ix2 j⟩
  refine (k3_pay1_apply (iblk3 V c 0 t) (iblk3 V c 1 t) (iblk3 V c 2 t) p q).trans ?_
  have h0 : ((cfg3.win 0).blk t).view.emb (ix2 p q) = ((cfg3.win 3).blk t).view.emb (ix2 p q) := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * q.val = win3_3.index t (1 : Fin 2) * 64 + 1 * q.val; omega
  have h1 : ((cfg3.win 1).blk t).view.emb (ix2 p q) = ((cfg3.win 3).blk t).view.emb (ix2 p q) := by
    funext a; apply Fin.ext
    match a with
    | ⟨0, _⟩ => show win3_1.index t (0 : Fin 2) * 5000 + 1 * p.val = win3_3.index t (0 : Fin 2) * 5000 + 1 * p.val; omega
    | ⟨1, _⟩ => show win3_1.index t (1 : Fin 2) * 64 + 1 * q.val = win3_3.index t (1 : Fin 2) * 64 + 1 * q.val; omega
  have h2 : ((cfg3.win 2).blk t).view.emb (ix1 q) = ix1 ((((cfg3.win 3).blk t).view.emb (ix2 p q)) 1) := by
    funext a; apply Fin.ext
    match a with
    | ⟨0, _⟩ => show win3_2.index t (0 : Fin 1) * 64 + 1 * q.val = win3_3.index t (1 : Fin 2) * 64 + 1 * q.val; omega
  exact relu_combine_read (V c main_v72) (V c main_v54_1) (V c main_arg7) _ _ _ _ h0 h1 h2

/-- An array index is in point t's block iff each coordinate is in the block's range on its axis. -/
theorem mem_blk3_3 (t : Fin cfg3.N) (i : S100000x64.Idx) :
    i ∈ ((cfg3.win 3).blk t).view.set
      ↔ ∀ a : Fin 2, win3_3.index t a * S5000x64.size a ≤ (i a).val
          ∧ (i a).val < win3_3.index t a * S5000x64.size a + S5000x64.size a := by
  show i ∈ ((View.whole main_v73).slice (win3_3.rect t)).set ↔ _
  rw [View.set_slice_whole, Rect.mem_set_unit]
  exact Iff.rfl

/-- Every array index lies in the block of the point its row falls to: row r belongs to point r / 5000. -/
theorem cover3_3_rows (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  let t : Fin cfg3.N := ⟨(i 0).val / 5000, by omega⟩
  obtain ⟨e00, e01, e10, e11, e20, e30, e31⟩ := block_index3 t
  have ht : t.val = (i 0).val / 5000 := rfl
  refine ⟨t, flush3_3 t, ?_⟩
  rw [mem_blk3_3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-! ## Region 5 -/

/-- The block indices at point t: the three row windows take block t of the rows and the only block of the
    features; the bias window always takes its only block. -/
theorem block_index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- What point t writes back is block t of the layer's output: entry (p, q) of the block is row 5000·t + p,
    feature q of the array, and the aggregate, the self-loop term and the bias are read at that row and feature. -/
theorem flushed5_3_eq (c : Dev nD) (t : Fin cfg5.N) :
    (dat5 (F := Ideal) V c).flushed 3 t
      = ((cfg5.win 3).blk t).view.read (Elt Ideal)
          (Cert.Spec.combine (V c main_v92) (V c main_v74_1) (V c main_arg9)) := by
  show (cfg5.win 3).cut (grid5.coords t) ((dat5 (F := Ideal) V c).after 3 t) = _
  rw [after5_3]
  unfold out5_3
  rw [View.canon_unit_zero zero_off2]
  simp only [View.ld_unit_zero (S := S5000x64) zero_off2, View.ld_unit_zero (S := S64) zero_off1]
  obtain ⟨e00, e01, e10, e11, e20, e30, e31⟩ := block_index5 t
  funext j
  obtain ⟨p, q, rfl⟩ : ∃ (p : Fin 5000) (q : Fin 64), j = ix2 p q := ⟨j 0, j 1, eq_ix2 j⟩
  refine (k5_pay1_apply (iblk5 V c 0 t) (iblk5 V c 1 t) (iblk5 V c 2 t) p q).trans ?_
  have h0 : ((cfg5.win 0).blk t).view.emb (ix2 p q) = ((cfg5.win 3).blk t).view.emb (ix2 p q) := by
    funext a; apply Fin.ext
    match a with
    | ⟨0, _⟩ => show win5_0.index t (0 : Fin 2) * 5000 + 1 * p.val = win5_3.index t (0 : Fin 2) * 5000 + 1 * p.val; omega
    | ⟨1, _⟩ => show win5_0.index t (1 : Fin 2) * 64 + 1 * q.val = win5_3.index t (1 : Fin 2) * 64 + 1 * q.val; omega
  have h1 : ((cfg5.win 1).blk t).view.emb (ix2 p q) = ((cfg5.win 3).blk t).view.emb (ix2 p q) := by
    funext a; apply Fin.ext
    match a with
    | ⟨0, _⟩ => show win5_1.index t (0 : Fin 2) * 5000 + 1 * p.val = win5_3.index t (0 : Fin 2) * 5000 + 1 * p.val; omega
    | ⟨1, _⟩ => show win5_1.index t (1 : Fin 2) * 64 + 1 * q.val = win5_3.index t (1 : Fin 2) * 64 + 1 * q.val; omega
  have h2 : ((cfg5.win 2).blk t).view.emb (ix1 q) = ix1 ((((cfg5.win 3).blk t).view.emb (ix2 p q)) 1) := by
    funext a; apply Fin.ext
    match a with
    | ⟨0, _⟩ => show win5_2.index t (0 : Fin 1) * 64 + 1 * q.val = win5_3.index t (1 : Fin 2) * 64 + 1 * q.val; omega
  exact combine_read (V c main_v92) (V c main_v74_1) (V c main_arg9) _ _ _ _ h0 h1 h2

/-- An array index is in point t's block iff each coordinate is in the block's range on its axis. -/
theorem mem_blk5_3 (t : Fin cfg5.N) (i : S100000x64.Idx) :
    i ∈ ((cfg5.win 3).blk t).view.set
      ↔ ∀ a : Fin 2, win5_3.index t a * S5000x64.size a ≤ (i a).val
          ∧ (i a).val < win5_3.index t a * S5000x64.size a + S5000x64.size a := by
  show i ∈ ((View.whole main_v93).slice (win5_3.rect t)).set ↔ _
  rw [View.set_slice_whole, Rect.mem_set_unit]
  exact Iff.rfl

/-- Every array index lies in the block of the point its row falls to: row r belongs to point r / 5000. -/
theorem cover5_3_rows (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 20 := N_5
  let t : Fin cfg5.N := ⟨(i 0).val / 5000, by omega⟩
  obtain ⟨e00, e01, e10, e11, e20, e30, e31⟩ := block_index5 t
  have ht : t.val = (i 0).val / 5000 := rfl
  refine ⟨t, flush5_3 t, ?_⟩
  rw [mem_blk5_3]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- Region 1: the first layer's output with the activation. -/
theorem final1_3 (c : Dev nD) :
    (dat1 (F := Ideal) V c).arrAt 3 cfg1.N
      = Cert.Spec.relu (Cert.Spec.combine (V c main_v52) (V c main_v34_1) (V c main_arg5)) :=
  (dat1 (F := Ideal) V c).arrAt_eq_of_cover 3
    (Cert.Spec.relu (Cert.Spec.combine (V c main_v52) (V c main_v34_1) (V c main_arg5)))
    (fun t _ => flushed1_3_eq V c t) cover1_3_rows

/-- Region 3: the second layer's output with the activation. -/
theorem final3_3 (c : Dev nD) :
    (dat3 (F := Ideal) V c).arrAt 3 cfg3.N
      = Cert.Spec.relu (Cert.Spec.combine (V c main_v72) (V c main_v54_1) (V c main_arg7)) :=
  (dat3 (F := Ideal) V c).arrAt_eq_of_cover 3
    (Cert.Spec.relu (Cert.Spec.combine (V c main_v72) (V c main_v54_1) (V c main_arg7)))
    (fun t _ => flushed3_3_eq V c t) cover3_3_rows

/-- Region 5: the third layer's output, no activation. -/
theorem final5_3 (c : Dev nD) :
    (dat5 (F := Ideal) V c).arrAt 3 cfg5.N
      = Cert.Spec.combine (V c main_v92) (V c main_v74_1) (V c main_arg9) :=
  (dat5 (F := Ideal) V c).arrAt_eq_of_cover 3
    (Cert.Spec.combine (V c main_v92) (V c main_v74_1) (V c main_arg9))
    (fun t _ => flushed5_3_eq V c t) cover5_3_rows

end Cert.KernelIdeal.KV

end
-- ==== Proof.KPoolPay.lean ====
/-
  The arithmetic of the readout-and-pooling body, read at an entry. For a block of 4000 node rows, entry g of the
  count term is the number of the block's nodes whose graph id is g, and entry g of the sum term is what the
  accumulator held plus the sum of the readouts of those nodes. A node's membership factor is 1 or 0, and 0 times
  any extended real is 0, so the product with the factor is a selection.
-/
import proofs.«418295_j74921409511934_1_alg».proof.Proof.Gen.KernelIdeal.Frame
import proofs.«418295_j74921409511934_1_alg».proof.Proof.Spec
import proofs.«418295_j74921409511934_1_alg».proof.Proof.LibVecRows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents a region is entered with
variable (V : (c : Dev nD) → (b : Ref sig .tc) → Buf (Elt Ideal) ((c : Thread nD τ).loc b))

/-- The sum over the first axis of an a × b block, read at column q: the sum of the column. -/
private theorem multiReduction_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  -- The reduction over one axis is the sum over that axis's coordinates of the source at the column index with the
  -- coordinate inserted; on the first axis of a rank-2 block the inserted index is (k, q).
  refine (Ideal.multiReduction_add_single src acc h hφ hacc (ix1 q)).trans ?_
  show ∑ k : Fin a, src (h.lift (ix1 q) k) = ∑ k : Fin a, src (ix2 k q)
  refine Finset.sum_congr rfl fun k _ => congrArg src ?_
  funext c
  match c with
  | ⟨0, _⟩ => exact Fin.ext rfl
  | ⟨1, _⟩ => exact Fin.ext rfl

/-- A one-bit word widened to 32 bits and read as a signed integer is 1 or 0. -/
private theorem sitofp_bit (b : BitVec 1) :
    (FloatOps.sitofp (F := Ideal) .f32 (b.setWidth 32) : EReal) = if b = 1#1 then 1 else 0 := by
  rcases BitVec.eq_zero_or_eq_one b with rfl | rfl
  · have h : ((0#1 : BitVec 1).setWidth 32).toInt = 0 := by decide
    show (((((0#1 : BitVec 1).setWidth 32).toInt : ℤ) : ℝ) : EReal) = if (0#1 : BitVec 1) = 1#1 then 1 else 0
    rw [h, if_neg (by decide), Int.cast_zero, EReal.coe_zero]
  · have h : ((1#1 : BitVec 1).setWidth 32).toInt = 1 := by decide
    show (((((1#1 : BitVec 1).setWidth 32).toInt : ℤ) : ℝ) : EReal) = if (1#1 : BitVec 1) = 1#1 then 1 else 0
    rw [h, if_pos rfl, Int.cast_one, EReal.coe_one]

/-- The one-bit result of comparing two words for equality is set exactly when they are equal. -/
private theorem cmpi_eq_one_iff (a b : BitVec 32) : IntOp.cmpi .eq a b = 1#1 ↔ a = b := by
  show BitVec.ofBool (a == b) = 1#1 ↔ a = b
  by_cases h : a = b
  · subst h; simp
  · have hb : (a == b) = false := beq_eq_false_iff_ne.mpr h
    rw [hb]
    exact ⟨fun h' => absurd h' (by decide), fun h' => absurd h' h⟩

private theorem lhs_hid_0 (i : S4000x32.Idx) (q : dot_S4000x64_S64x32_S4000x32_1_0_0_1_n_n.contr.Idx) :
    (dot_S4000x64_S64x32_S4000x32_1_0_0_1_n_n.lhsIdx i q 0).val = (i 0).val := by
  unfold DotDims.lhsIdx
  rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
  rfl
private theorem lhs_hid_1 (i : S4000x32.Idx) (q : dot_S4000x64_S64x32_S4000x32_1_0_0_1_n_n.contr.Idx) :
    (dot_S4000x64_S64x32_S4000x32_1_0_0_1_n_n.lhsIdx i q 1).val = (q ⟨0, by decide⟩).val :=
  dot_S4000x64_S64x32_S4000x32_1_0_0_1_n_n.lhsIdx_val_of_single rfl i q
private theorem rhs_hid_0 (i : S4000x32.Idx) (q : dot_S4000x64_S64x32_S4000x32_1_0_0_1_n_n.contr.Idx) :
    (dot_S4000x64_S64x32_S4000x32_1_0_0_1_n_n.rhsIdx i q 0).val = (q ⟨0, by decide⟩).val :=
  dot_S4000x64_S64x32_S4000x32_1_0_0_1_n_n.rhsIdx_val_of_single rfl i q
private theorem rhs_hid_1 (i : S4000x32.Idx) (q : dot_S4000x64_S64x32_S4000x32_1_0_0_1_n_n.contr.Idx) :
    (dot_S4000x64_S64x32_S4000x32_1_0_0_1_n_n.rhsIdx i q 1).val = (i 1).val := by
  unfold DotDims.rhsIdx
  rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
  rfl

/-- The product of a block of 4000 rows of 64 with a 64 × 32 matrix, into zero, read at row p and column c. -/
private theorem hid_apply {φ₁ φ₂ : FTy} (x : FVec Ideal S4000x64 φ₁) (w : FVec Ideal S64x32 φ₂) (p : Fin 4000) (c : Fin 32) :
    matmul dot_S4000x64_S64x32_S4000x32_1_0_0_1_n_n none x w (constant (F := Ideal) S4000x32 .f32 0x00000000#32) (ix2 p c)
      = ∑ k : Fin 64, x (ix2 p k) * w (ix2 k c) := by
  -- the product into zero is the sum over the contracted axis; its one coordinate k sits on axis 1 of the left
  -- operand and on axis 0 of the right one
  simp only [matmul]
  rw [Ideal.matmul_constant_zero_apply, ← Equiv.sum_comp (contrEquiv1 dot_S4000x64_S64x32_S4000x32_1_0_0_1_n_n 64 rfl rfl).symm]
  refine Finset.sum_congr rfl fun k _ => ?_
  have hk := contrEquiv1_symm_val dot_S4000x64_S64x32_S4000x32_1_0_0_1_n_n 64 rfl rfl k
  have el : dot_S4000x64_S64x32_S4000x32_1_0_0_1_n_n.lhsIdx (ix2 p c) ((contrEquiv1 dot_S4000x64_S64x32_S4000x32_1_0_0_1_n_n 64 rfl rfl).symm k) = ix2 p k := funext fun a => Fin.ext (by
    match a with
    | ⟨0, _⟩ => exact lhs_hid_0 _ _
    | ⟨1, _⟩ => exact (lhs_hid_1 _ _).trans hk)
  have er : dot_S4000x64_S64x32_S4000x32_1_0_0_1_n_n.rhsIdx (ix2 p c) ((contrEquiv1 dot_S4000x64_S64x32_S4000x32_1_0_0_1_n_n 64 rfl rfl).symm k) = ix2 k c := funext fun a => Fin.ext (by
    match a with
    | ⟨0, _⟩ => exact (rhs_hid_0 _ _).trans hk
    | ⟨1, _⟩ => exact rhs_hid_1 _ _)
  rw [el, er]

private theorem lhs_out_0 (i : S4000x1.Idx) (q : dot_S4000x32_S32x1_S4000x1_1_0_0_1_n_n.contr.Idx) :
    (dot_S4000x32_S32x1_S4000x1_1_0_0_1_n_n.lhsIdx i q 0).val = (i 0).val := by
  unfold DotDims.lhsIdx
  rw [dif_neg (show ¬(0 : Fin S4000x32.rank) ∈ dot_S4000x32_S32x1_S4000x1_1_0_0_1_n_n.lhsBatch by decide), dif_pos (show (0 : Fin S4000x32.rank) ∈ dot_S4000x32_S32x1_S4000x1_1_0_0_1_n_n.lhsNonContracting by decide)]
  rfl
private theorem lhs_out_1 (i : S4000x1.Idx) (q : dot_S4000x32_S32x1_S4000x1_1_0_0_1_n_n.contr.Idx) :
    (dot_S4000x32_S32x1_S4000x1_1_0_0_1_n_n.lhsIdx i q 1).val = (q ⟨0, by decide⟩).val :=
  dot_S4000x32_S32x1_S4000x1_1_0_0_1_n_n.lhsIdx_val_of_single rfl i q
private theorem rhs_out_0 (i : S4000x1.Idx) (q : dot_S4000x32_S32x1_S4000x1_1_0_0_1_n_n.contr.Idx) :
    (dot_S4000x32_S32x1_S4000x1_1_0_0_1_n_n.rhsIdx i q 0).val = (q ⟨0, by decide⟩).val :=
  dot_S4000x32_S32x1_S4000x1_1_0_0_1_n_n.rhsIdx_val_of_single rfl i q
private theorem rhs_out_1 (i : S4000x1.Idx) (q : dot_S4000x32_S32x1_S4000x1_1_0_0_1_n_n.contr.Idx) :
    (dot_S4000x32_S32x1_S4000x1_1_0_0_1_n_n.rhsIdx i q 1).val = (i 1).val := by
  unfold DotDims.rhsIdx
  rw [dif_neg (show ¬(1 : Fin S32x1.rank) ∈ dot_S4000x32_S32x1_S4000x1_1_0_0_1_n_n.rhsBatch by decide), dif_pos (show (1 : Fin S32x1.rank) ∈ dot_S4000x32_S32x1_S4000x1_1_0_0_1_n_n.rhsNonContracting by decide)]
  rfl

/-- The product of a block of 4000 rows of 32 with a 32 × 1 matrix, into zero, read at row p and column c. -/
private theorem out_apply {φ₁ φ₂ : FTy} (x : FVec Ideal S4000x32 φ₁) (w : FVec Ideal S32x1 φ₂) (p : Fin 4000) (c : Fin 1) :
    matmul dot_S4000x32_S32x1_S4000x1_1_0_0_1_n_n none x w (constant (F := Ideal) S4000x1 .f32 0x00000000#32) (ix2 p c)
      = ∑ k : Fin 32, x (ix2 p k) * w (ix2 k c) := by
  -- the product into zero is the sum over the contracted axis; its one coordinate k sits on axis 1 of the left
  -- operand and on axis 0 of the right one
  simp only [matmul]
  rw [Ideal.matmul_constant_zero_apply, ← Equiv.sum_comp (contrEquiv1 dot_S4000x32_S32x1_S4000x1_1_0_0_1_n_n 32 rfl rfl).symm]
  refine Finset.sum_congr rfl fun k _ => ?_
  have hk := contrEquiv1_symm_val dot_S4000x32_S32x1_S4000x1_1_0_0_1_n_n 32 rfl rfl k
  have el : dot_S4000x32_S32x1_S4000x1_1_0_0_1_n_n.lhsIdx (ix2 p c) ((contrEquiv1 dot_S4000x32_S32x1_S4000x1_1_0_0_1_n_n 32 rfl rfl).symm k) = ix2 p k := funext fun a => Fin.ext (by
    match a with
    | ⟨0, _⟩ => exact lhs_out_0 _ _
    | ⟨1, _⟩ => exact (lhs_out_1 _ _).trans hk)
  have er : dot_S4000x32_S32x1_S4000x1_1_0_0_1_n_n.rhsIdx (ix2 p c) ((contrEquiv1 dot_S4000x32_S32x1_S4000x1_1_0_0_1_n_n 32 rfl rfl).symm k) = ix2 k c := funext fun a => Fin.ext (by
    match a with
    | ⟨0, _⟩ => exact (rhs_out_0 _ _).trans hk
    | ⟨1, _⟩ => exact rhs_out_1 _ _)
  rw [el, er]

/-- The readout of row p of a block of node rows. -/
def blockReadout (v3 : Vec Ideal S4000x64 .f32) (v6 : Vec Ideal S64x32 .f32) (v9 : Vec Ideal S32 .f32)
    (v16 : Vec Ideal S32x1 .f32) (v19 : Vec Ideal S1 .f32) (p : Fin 4000) : EReal :=
  (∑ k2 : Fin 32, max ((∑ k : Fin 64, v3 (ix2 p k) * v6 (ix2 k k2)) + v9 (ix1 k2)) 0 * v16 (ix2 k2 (0 : Fin 1)))
    + v19 (ix1 (0 : Fin 1))

/-- The membership factor of row p and graph g: 1 if the row's graph id is the word of g, else 0. -/
private theorem pay4_apply (v23 : Vec Ideal S4000x1 .i32) (p : Fin 4000) (g : Fin 256) :
    k6_pay4 (F := Ideal) v23 (ix2 p g)
      = if v23 (ix2 p (0 : Fin 1)) = BitVec.ofNat 32 g.val then (1 : EReal) else 0 := by
  unfold k6_pay4
  -- the conversion of the widened bit, then the bit as the equality of the two words read at (p, g)
  refine (sitofp_bit _).trans ?_
  have e1 : broadcastTo S4000x256 (shapeCast S4000x1 v23 shapeCasts_S4000x1_S4000x1) broadcasts_S4000x1_S4000x256 (ix2 p g)
      = v23 (ix2 p (0 : Fin 1)) := by
    rw [shapeCast_self]
    exact Cert.LibVecRows.broadcastTo_col_apply v23 broadcasts_S4000x1_S4000x256 p g
  have e2 : iota .tc S4000x256 32 [1] iota_S4000x256_d1_w32 (ix2 p g) = BitVec.ofNat 32 g.val :=
    iota_single_apply .tc S4000x256 32 1 iota_S4000x256_d1_w32 (ix2 p g)
  show (if IntOp.cmpi .eq
          (broadcastTo S4000x256 (shapeCast S4000x1 v23 shapeCasts_S4000x1_S4000x1) broadcasts_S4000x1_S4000x256 (ix2 p g))
          (iota .tc S4000x256 32 [1] iota_S4000x256_d1_w32 (ix2 p g)) = 1#1 then (1 : EReal) else 0) = _
  rw [e1, e2]
  exact if_congr (cmpi_eq_one_iff _ _) rfl rfl

/-- A column of row values broadcast along the rows and multiplied by a factor that is 1 or 0 selects: at (p, g) the
    product is the row's value where the factor is 1 and 0 where it is 0, whatever extended real the value is. -/
private theorem mulf_factor_col_apply (f : FVec Ideal S4000x256 .f32) (col : FVec Ideal S4000x1 .f32)
    (h : S4000x1.Broadcasts S4000x256) (p : Fin 4000) (g : Fin 256) (c : Prop) [Decidable c] (r : EReal)
    (hf : f (ix2 p g) = if c then 1 else 0) (hc : col (ix2 p (0 : Fin 1)) = r) :
    mulf f (broadcastTo S4000x256 col h) (ix2 p g) = if c then r else 0 := by
  rw [mulf_apply, hf, Cert.LibVecRows.broadcastTo_col_apply col h p g, hc]
  -- 1 · r = r and 0 · r = 0 for every extended real r
  split
  · exact one_mul r
  · exact zero_mul r

/-- The readout column of the block, read at row p: the hidden layer of 32 units with max(·, 0), then the output unit. -/
private theorem readoutCol_apply (v3 : Vec Ideal S4000x64 .f32) (v6 : Vec Ideal S64x32 .f32) (v9 : Vec Ideal S32 .f32)
    (v16 : Vec Ideal S32x1 .f32) (v19 : Vec Ideal S1 .f32) (p : Fin 4000) :
    addf (F := Ideal)
      (matmul dot_S4000x32_S32x1_S4000x1_1_0_0_1_n_n none
        (truncf .bf16
          (maximumf
            (addf
              (matmul dot_S4000x64_S64x32_S4000x32_1_0_0_1_n_n none
                (truncf .bf16 (shapeCast S4000x64 v3 shapeCasts_S4000x64_S4000x64) bitsLt_bf16_f32)
                (truncf .bf16 v6 bitsLt_bf16_f32) (constant S4000x32 .f32 0x00000000#32))
              (broadcastTo S4000x32 (shapeCast S1x32 v9 shapeCasts_S32_S1x32) broadcasts_S1x32_S4000x32))
            (broadcast S4000x32 (Scalar.ofBits .f32 0x00000000#32)))
          bitsLt_bf16_f32)
        (truncf .bf16 v16 bitsLt_bf16_f32) (constant S4000x1 .f32 0x00000000#32))
      (broadcastTo S4000x1 (shapeCast S1x1 v19 shapeCasts_S1_S1x1) broadcasts_S1x1_S4000x1) (ix2 p (0 : Fin 1))
      = blockReadout v3 v6 v9 v16 v19 p := by
  unfold blockReadout
  refine (addf_apply _ _ _).trans (congrArg₂ (· + ·) ?_ ?_)
  · -- the second product: over the 32 hidden units, the unit's value times its output weight
    refine (out_apply _ _ p (0 : Fin 1)).trans (Finset.sum_congr rfl fun k2 _ => congrArg₂ (· * ·) ?_ rfl)
    -- the hidden unit k2 of row p: max(·, 0) of the first product plus the bias
    refine (maximumf_apply _ _ _).trans (congrArg₂ max ?_ ?_)
    · refine (addf_apply _ _ _).trans (congrArg₂ (· + ·) ?_ ?_)
      · refine (hid_apply _ _ p k2).trans (Finset.sum_congr rfl fun k _ => congrArg₂ (· * ·) ?_ rfl)
        exact congrFun (shapeCast_self v3 shapeCasts_S4000x64_S4000x64) (ix2 p k)
      · -- the bias, a vector of 32 viewed as one row and broadcast over the rows
        exact (broadcastTo_1b_ab_apply _ broadcasts_S1x32_S4000x32 p k2).trans
          (shapeCast_a_1a_apply v9 shapeCasts_S32_S1x32 (0 : Fin 1) k2)
    · exact Ideal.ofBits_zero_f32
  · -- the output bias, one value viewed as a 1 × 1 block and broadcast over the rows
    exact (broadcastTo_1b_ab_apply _ broadcasts_S1x1_S4000x1 p (0 : Fin 1)).trans
      (shapeCast_a_1a_apply v19 shapeCasts_S1_S1x1 (0 : Fin 1) (0 : Fin 1))

/-- The count term at graph g: the number of the block's nodes in graph g. -/
theorem pay5_apply (v23 : Vec Ideal S4000x1 .i32) (g : Fin 256) :
    k6_pay5 (F := Ideal) v23 (ix2 (0 : Fin 1) g)
      = ∑ p : Fin 4000, (if v23 (ix2 p (0 : Fin 1)) = BitVec.ofNat 32 g.val then (1 : EReal) else 0) := by
  unfold k6_pay5
  -- a vector of 256 viewed as one row reads its entry g; the entry is the sum over the rows of the factor
  refine (shapeCast_a_1a_apply _ shapeCasts_S256_S1x256 (0 : Fin 1) g).trans ?_
  refine (multiReduction_cols_apply (k6_pay4 (F := Ideal) v23) 0x00000000#32 reduces_S4000x256_S256 (.inl rfl) rfl g).trans ?_
  exact Finset.sum_congr rfl fun p _ => pay4_apply v23 p g

/-- The sum term at graph g: the accumulator's entry plus the readouts of the block's nodes in graph g. -/
theorem pay6_apply (v3 : Vec Ideal S4000x64 .f32) (v6 : Vec Ideal S64x32 .f32) (v9 : Vec Ideal S32 .f32)
    (v16 : Vec Ideal S32x1 .f32) (v19 : Vec Ideal S1 .f32) (v23 : Vec Ideal S4000x1 .i32) (v36 : Vec Ideal S1x256 .f32)
    (g : Fin 256) :
    k6_pay6 (F := Ideal) v3 v6 v9 v16 v19 v23 v36 (ix2 (0 : Fin 1) g)
      = v36 (ix2 (0 : Fin 1) g)
        + ∑ p : Fin 4000, (if v23 (ix2 p (0 : Fin 1)) = BitVec.ofNat 32 g.val then blockReadout v3 v6 v9 v16 v19 p else 0) := by
  unfold k6_pay6
  refine (addf_apply _ _ _).trans (congrArg₂ (· + ·) ?_ ?_)
  · exact congrFun (shapeCast_self v36 shapeCasts_S1x256_S1x256) (ix2 (0 : Fin 1) g)
  · -- a vector of 256 viewed as one row reads its entry g: the sum over the rows of factor times readout
    refine (shapeCast_a_1a_apply _ shapeCasts_S256_S1x256 (0 : Fin 1) g).trans ?_
    refine (multiReduction_cols_apply _ 0x00000000#32 reduces_S4000x256_S256 (.inl rfl) rfl g).trans ?_
    refine Finset.sum_congr rfl fun p _ => ?_
    exact mulf_factor_col_apply _ _ broadcasts_S4000x1_S4000x256 p g _ _ (pay4_apply v23 p g)
      (readoutCol_apply v3 v6 v9 v16 v19 p)

end Cert.KernelIdeal.KV

end
-- ==== Proof.LibSumBlocks.lean ====
/-
  Two re-indexings of finite sums, over any commutative monoid.

  A sum over the numbers below a·b is the sum over the a blocks of b consecutive numbers, block by block. And a
  [16, 128] array that is zero except at the entries (0, 0) and (8, 0) sums to those two entries.
-/
import Mathlib.Algebra.BigOperators.Fin
import Mathlib.Logic.Equiv.Fin.Basic
import Idealize.ShloMosaic.Lib.ValueIdx

namespace Cert.LibSumBlocks

open Idealize.ShloMosaic Idealize.ShloMosaic.ValueIdx

/-- The numbers below a·b, taken block by block: n = b·t + j with t < a and j < b. -/
theorem sum_fin_mul {M : Type*} [AddCommMonoid M] (a b : ℕ) (G : ℕ → M) :
    ∑ n : Fin (a * b), G n.val = ∑ t : Fin a, ∑ j : Fin b, G (b * t.val + j.val) := by
  rw [← Fintype.sum_prod_type' (f := fun (t : Fin a) (j : Fin b) => G (b * t.val + j.val)),
    ← Equiv.sum_comp finProdFinEquiv (fun n : Fin (a * b) => G n.val)]
  refine Finset.sum_congr rfl fun p _ => ?_
  show G (p.2.val + b * p.1.val) = G (b * p.1.val + p.2.val)
  rw [add_comm]

/-- An array over [16, 128] holding f (r / 8) at the entries (r, 0) with 8 ∣ r and zero elsewhere sums to f 0 + f 1. -/
theorem sum_corner {M : Type*} [AddCommMonoid M] (f : ℕ → M) :
    ∑ i : (⟨2, ![16, 128]⟩ : Shape).Idx, (if (i 0).val % 8 = 0 ∧ (i 1).val = 0 then f ((i 0).val / 8) else 0) = f 0 + f 1 := by
  rw [sum_idx2]
  have inner : ∀ a : Fin 16, ∑ b : Fin 128, (if ((ix2 a b : (⟨2, ![16, 128]⟩ : Shape).Idx) 0).val % 8 = 0 ∧ ((ix2 a b : (⟨2, ![16, 128]⟩ : Shape).Idx) 1).val = 0
        then f (((ix2 a b : (⟨2, ![16, 128]⟩ : Shape).Idx) 0).val / 8) else 0) = if a.val % 8 = 0 then f (a.val / 8) else 0 := by
    intro a
    show ∑ b : Fin 128, (if a.val % 8 = 0 ∧ b.val = 0 then f (a.val / 8) else 0) = _
    by_cases ha : a.val % 8 = 0
    · rw [if_pos ha, Finset.sum_eq_single (0 : Fin 128)]
      · rw [if_pos ⟨ha, rfl⟩]
      · intro b _ hb
        rw [if_neg]
        rintro ⟨-, h0⟩
        exact hb (Fin.ext h0)
      · intro h; exact absurd (Finset.mem_univ _) h
    · rw [if_neg ha]
      exact Finset.sum_eq_zero fun b _ => if_neg fun h => ha h.1
  rw [Finset.sum_congr rfl fun a _ => inner a]
  rw [Fin.sum_univ_eq_sum_range (fun a => if a % 8 = 0 then f (a / 8) else 0) 16]
  simp [Finset.sum_range_succ]

end Cert.LibSumBlocks
-- ==== Proof.KPool.lean ====
/-
  The readout-and-pooling region. Grid point t takes node rows 4000·t … 4000·t + 3999, computes each node's readout,
  and adds into two accumulators of 256 entries — set to zero at the first point — the readouts, respectively the
  ones, of the block's nodes that belong to each graph. After the last point the accumulators hold the sum over all
  nodes of each graph.

  The road: at the first point each accumulator is left at zero plus the block's term, at every later point at what
  it held plus the block's term, so after point n it holds the terms of blocks 0 … n (induction on the point); a
  block's row p is node row 4000·t + p, and the sum over 25 blocks of 4000 nodes is the sum over the 100000 nodes.
  Both accumulators are written back once, after the last point, and their one block is the whole array.
-/
import proofs.«418295_j74921409511934_1_alg».proof.Proof.Gen.KernelIdeal.Frame
import proofs.«418295_j74921409511934_1_alg».proof.Proof.Spec
import proofs.«418295_j74921409511934_1_alg».proof.Proof.KPoolPay
import proofs.«418295_j74921409511934_1_alg».proof.Proof.LibSumBlocks
import Idealize.ShloMosaic.Lib.ValueIdx
import Idealize.ShloMosaic.Lib.ValueLayout
import Idealize.ShloMosaic.Lib.Pipeline.Value
import Idealize.ShloMosaic.Lib.Tactic
import Idealize.ShloMosaic.PureOps.Ideal.Laws

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## What each case of the body leaves in the two accumulators, as the body's arithmetic of the blocks -/

section Pieces
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- Past the first point the first accumulator is left at itself plus the block's sums. -/
theorem piece_B_6 (c : Dev nD) (i : grid6.Coords) (a1 : Memref sig .tc .vmem S4000x64 .f32) (h1 : a1.IsWhole) (a2 : Memref sig .tc .vmem S64x32 .f32) (h2 : a2.IsWhole) (a3 : Memref sig .tc .vmem S32 .f32) (h3 : a3.IsWhole) (a4 : Memref sig .tc .vmem S32x1 .f32) (h4 : a4.IsWhole) (a5 : Memref sig .tc .vmem S1 .f32) (h5 : a5.IsWhole) (a6 : Memref sig .tc .vmem S4000x1 .i32) (h6 : a6.IsWhole) (a7 : Memref sig .tc .vmem S1x256 .f32) (h7 : a7.IsWhole) (a8 : Memref sig .tc .vmem S1x256 .f32) (h8 : a8.IsWhole) (hc : ¬cond6_0 i)
    (x0 : Vec F S4000x64 .f32) (x1 : Vec F S64x32 .f32) (x2 : Vec F S32 .f32) (x3 : Vec F S32x1 .f32) (x4 : Vec F S1 .f32) (x5 : Vec F S4000x1 .i32) (xo6 : Vec F S1x256 .f32) (xo7 : Vec F S1x256 .f32) :
    out6_B_6 c i a1 h1 a2 h2 a3 h3 a4 h4 a5 h5 a6 h6 a7 h7 a8 h8 hc x0 x1 x2 x3 x4 x5 xo6 xo7 = k6_pay6 x0 x1 x2 x3 x4 x5 xo6 := by
  unfold out6_B_6
  rw [View.read_writes_eq_canon _ _ _ (cover6_B_6 c i a1 h1 a2 h2 a3 h3 a4 h4 a5 h5 a6 h6 a7 h7 a8 h8 hc x0 x1 x2 x3 x4 x5 xo6 xo7)]
  unfold kernelRun6_B
  dsimp only
  sl_unfold_words
  rw [View.canon_unit_zero hz2]
  simp only [View.readAt_eq_ld, h1.read_unread, h2.read_unread, h3.read_unread, h4.read_unread, h5.read_unread, h6.read_unread, h7.read_unread, h8.read_unread,
    View.ld_unit_zero (S := S4000x64) hz2, View.ld_unit_zero (S := S64x32) hz2, View.ld_unit_zero (S := S32) hz1, View.ld_unit_zero (S := S32x1) hz2,
    View.ld_unit_zero (S := S1) hz1, View.ld_unit_zero (S := S4000x1) hz2, View.ld_unit_zero (S := S1x256) hz2]

/-- Past the first point the second accumulator is left at itself plus the block's counts. -/
theorem piece_B_7 (c : Dev nD) (i : grid6.Coords) (a1 : Memref sig .tc .vmem S4000x64 .f32) (h1 : a1.IsWhole) (a2 : Memref sig .tc .vmem S64x32 .f32) (h2 : a2.IsWhole) (a3 : Memref sig .tc .vmem S32 .f32) (h3 : a3.IsWhole) (a4 : Memref sig .tc .vmem S32x1 .f32) (h4 : a4.IsWhole) (a5 : Memref sig .tc .vmem S1 .f32) (h5 : a5.IsWhole) (a6 : Memref sig .tc .vmem S4000x1 .i32) (h6 : a6.IsWhole) (a7 : Memref sig .tc .vmem S1x256 .f32) (h7 : a7.IsWhole) (a8 : Memref sig .tc .vmem S1x256 .f32) (h8 : a8.IsWhole) (hc : ¬cond6_0 i)
    (x0 : Vec F S4000x64 .f32) (x1 : Vec F S64x32 .f32) (x2 : Vec F S32 .f32) (x3 : Vec F S32x1 .f32) (x4 : Vec F S1 .f32) (x5 : Vec F S4000x1 .i32) (xo6 : Vec F S1x256 .f32) (xo7 : Vec F S1x256 .f32) :
    out6_B_7 c i a1 h1 a2 h2 a3 h3 a4 h4 a5 h5 a6 h6 a7 h7 a8 h8 hc x0 x1 x2 x3 x4 x5 xo6 xo7 = k6_pay1 (k6_pay5 x5) xo7 := by
  unfold out6_B_7
  rw [View.read_writes_eq_canon _ _ _ (cover6_B_7 c i a1 h1 a2 h2 a3 h3 a4 h4 a5 h5 a6 h6 a7 h7 a8 h8 hc x0 x1 x2 x3 x4 x5 xo6 xo7)]
  unfold kernelRun6_B
  dsimp only
  sl_unfold_words
  rw [View.canon_unit_zero hz2]
  simp only [View.readAt_eq_ld, h1.read_unread, h2.read_unread, h3.read_unread, h4.read_unread, h5.read_unread, h6.read_unread, h7.read_unread, h8.read_unread,
    View.ld_unit_zero (S := S4000x64) hz2, View.ld_unit_zero (S := S64x32) hz2, View.ld_unit_zero (S := S32) hz1, View.ld_unit_zero (S := S32x1) hz2,
    View.ld_unit_zero (S := S1) hz1, View.ld_unit_zero (S := S4000x1) hz2, View.ld_unit_zero (S := S1x256) hz2]

/-- At the first point the first accumulator is set to zero and then left at zero plus the block's sums. -/
theorem piece_A_6 (c : Dev nD) (i : grid6.Coords) (a1 : Memref sig .tc .vmem S4000x64 .f32) (h1 : a1.IsWhole) (a2 : Memref sig .tc .vmem S64x32 .f32) (h2 : a2.IsWhole) (a3 : Memref sig .tc .vmem S32 .f32) (h3 : a3.IsWhole) (a4 : Memref sig .tc .vmem S32x1 .f32) (h4 : a4.IsWhole) (a5 : Memref sig .tc .vmem S1 .f32) (h5 : a5.IsWhole) (a6 : Memref sig .tc .vmem S4000x1 .i32) (h6 : a6.IsWhole) (a7 : Memref sig .tc .vmem S1x256 .f32) (h7 : a7.IsWhole) (a8 : Memref sig .tc .vmem S1x256 .f32) (h8 : a8.IsWhole) (hc : cond6_0 i)
    (x0 : Vec F S4000x64 .f32) (x1 : Vec F S64x32 .f32) (x2 : Vec F S32 .f32) (x3 : Vec F S32x1 .f32) (x4 : Vec F S1 .f32) (x5 : Vec F S4000x1 .i32) :
    out6_A_6 c i a1 h1 a2 h2 a3 h3 a4 h4 a5 h5 a6 h6 a7 h7 a8 h8 hc x0 x1 x2 x3 x4 x5 = k6_pay6 x0 x1 x2 x3 x4 x5 (k6_pay2 (F := F)) := by
  unfold out6_A_6
  rw [View.read_writes_eq_canon _ _ _ (cover6_A_6 c i a1 h1 a2 h2 a3 h3 a4 h4 a5 h5 a6 h6 a7 h7 a8 h8 hc x0 x1 x2 x3 x4 x5)]
  unfold kernelRun6_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h6.read_unread, h7.read_unread, h8.read_unread,
    View.ld_unit_zero (S := S4000x64) hz2, View.ld_unit_zero (S := S64x32) hz2, View.ld_unit_zero (S := S32) hz1, View.ld_unit_zero (S := S32x1) hz2,
    View.ld_unit_zero (S := S1) hz1, View.ld_unit_zero (S := S4000x1) hz2, View.ld_unit_zero (S := S1x256) hz2]

/-- At the first point the second accumulator is set to zero and then left at zero plus the block's counts. -/
theorem piece_A_7 (c : Dev nD) (i : grid6.Coords) (a1 : Memref sig .tc .vmem S4000x64 .f32) (h1 : a1.IsWhole) (a2 : Memref sig .tc .vmem S64x32 .f32) (h2 : a2.IsWhole) (a3 : Memref sig .tc .vmem S32 .f32) (h3 : a3.IsWhole) (a4 : Memref sig .tc .vmem S32x1 .f32) (h4 : a4.IsWhole) (a5 : Memref sig .tc .vmem S1 .f32) (h5 : a5.IsWhole) (a6 : Memref sig .tc .vmem S4000x1 .i32) (h6 : a6.IsWhole) (a7 : Memref sig .tc .vmem S1x256 .f32) (h7 : a7.IsWhole) (a8 : Memref sig .tc .vmem S1x256 .f32) (h8 : a8.IsWhole) (hc : cond6_0 i)
    (x0 : Vec F S4000x64 .f32) (x1 : Vec F S64x32 .f32) (x2 : Vec F S32 .f32) (x3 : Vec F S32x1 .f32) (x4 : Vec F S1 .f32) (x5 : Vec F S4000x1 .i32) :
    out6_A_7 c i a1 h1 a2 h2 a3 h3 a4 h4 a5 h5 a6 h6 a7 h7 a8 h8 hc x0 x1 x2 x3 x4 x5 = k6_pay1 (k6_pay5 x5) (k6_pay3 (F := F)) := by
  unfold out6_A_7
  rw [View.read_writes_eq_canon _ _ _ (cover6_A_7 c i a1 h1 a2 h2 a3 h3 a4 h4 a5 h5 a6 h6 a7 h7 a8 h8 hc x0 x1 x2 x3 x4 x5)]
  unfold kernelRun6_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h6.read_unread, h7.read_unread, h8.read_unread,
    View.ld_unit_zero (S := S4000x64) hz2, View.ld_unit_zero (S := S64x32) hz2, View.ld_unit_zero (S := S32) hz1, View.ld_unit_zero (S := S32x1) hz2,
    View.ld_unit_zero (S := S1) hz1, View.ld_unit_zero (S := S4000x1) hz2, View.ld_unit_zero (S := S1x256) hz2]

end Pieces

/-! ## The small terms at an entry -/

theorem pay2_apply (i : S1x256.Idx) : k6_pay2 (F := Ideal) i = 0 := Ideal.ofBits_zero_f32
theorem pay3_apply (i : S1x256.Idx) : k6_pay3 (F := Ideal) i = 0 := Ideal.ofBits_zero_f32

/-- The count accumulator's update: what it held plus the block's counts. -/
theorem pay1_apply (v35 : FVec Ideal S1x256 .f32) (v40 : Vec Ideal S1x256 .f32) (i : S1x256.Idx) :
    k6_pay1 (F := Ideal) v35 v40 i = v40 i + v35 i := by
  show addf (shapeCast S1x256 v40 _) v35 i = _
  rw [addf_apply, shapeCast_self]

-- the buffer contents a region is entered with
variable (V : (c : Dev nD) → (b : Ref sig .tc) → Buf (Elt Ideal) ((c : Thread nD τ).loc b))

/-! ## The arrays and the blocks, by their literal types -/

abbrev hArr (c : Dev nD) : Cert.Spec.Rows 64 := V c main_v93
abbrev batchArr (c : Dev nD) : IVec ⟨2, ![100000, 1]⟩ 32 := V c main_v94
abbrev hB (c : Dev nD) (t : Fin cfg6.N) : Vec Ideal S4000x64 .f32 := iblk6 V c 0 t
abbrev w0B (c : Dev nD) (t : Fin cfg6.N) : Vec Ideal S64x32 .f32 := iblk6 V c 1 t
abbrev b0B (c : Dev nD) (t : Fin cfg6.N) : Vec Ideal S32 .f32 := iblk6 V c 2 t
abbrev w1B (c : Dev nD) (t : Fin cfg6.N) : Vec Ideal S32x1 .f32 := iblk6 V c 3 t
abbrev b1B (c : Dev nD) (t : Fin cfg6.N) : Vec Ideal S1 .f32 := iblk6 V c 4 t
abbrev bB (c : Dev nD) (t : Fin cfg6.N) : Vec Ideal S4000x1 .i32 := iblk6 V c 5 t

/-- The readout of every node, of the arrays the region is entered with. -/
abbrev rd (c : Dev nD) : Fin 100000 → EReal :=
  Cert.Spec.readout (V c main_v93) (V c main_arg10) (V c main_arg11) (V c main_arg12) (V c main_arg13)

/-! ## Where each block sits in its array: block index × block size + the coordinate inside the block -/

theorem idx6_0 : ∀ t : Fin cfg6.N, win6_0.index t 0 = t.val ∧ win6_0.index t 1 = 0 :=
  (by decide +kernel : ∀ t : Fin grid6.N, win6_0.index t 0 = t.val ∧ win6_0.index t 1 = 0)
theorem idx6_1 : ∀ t : Fin cfg6.N, win6_1.index t 0 = 0 ∧ win6_1.index t 1 = 0 :=
  (by decide +kernel : ∀ t : Fin grid6.N, win6_1.index t 0 = 0 ∧ win6_1.index t 1 = 0)
theorem idx6_2 : ∀ t : Fin cfg6.N, win6_2.index t 0 = 0 :=
  (by decide +kernel : ∀ t : Fin grid6.N, win6_2.index t 0 = 0)
theorem idx6_3 : ∀ t : Fin cfg6.N, win6_3.index t 0 = 0 ∧ win6_3.index t 1 = 0 :=
  (by decide +kernel : ∀ t : Fin grid6.N, win6_3.index t 0 = 0 ∧ win6_3.index t 1 = 0)
theorem idx6_4 : ∀ t : Fin cfg6.N, win6_4.index t 0 = 0 :=
  (by decide +kernel : ∀ t : Fin grid6.N, win6_4.index t 0 = 0)
theorem idx6_5 : ∀ t : Fin cfg6.N, win6_5.index t 0 = t.val ∧ win6_5.index t 1 = 0 :=
  (by decide +kernel : ∀ t : Fin grid6.N, win6_5.index t 0 = t.val ∧ win6_5.index t 1 = 0)
theorem idx6_6 : ∀ t : Fin cfg6.N, win6_6.index t 0 = 0 ∧ win6_6.index t 1 = 0 :=
  (by decide +kernel : ∀ t : Fin grid6.N, win6_6.index t 0 = 0 ∧ win6_6.index t 1 = 0)
theorem idx6_7 : ∀ t : Fin cfg6.N, win6_7.index t 0 = 0 ∧ win6_7.index t 1 = 0 :=
  (by decide +kernel : ∀ t : Fin grid6.N, win6_7.index t 0 = 0 ∧ win6_7.index t 1 = 0)

/-- Row p of point t's block of node rows is node row 4000·t + p. -/
theorem hB_apply (c : Dev nD) (t : Fin cfg6.N) (p : Fin 4000) (k : Fin 64) (hlt : 4000 * t.val + p.val < 100000) :
    hB V c t (ix2 p k) = hArr V c (ix2 (⟨4000 * t.val + p.val, hlt⟩ : Fin 100000) k) := by
  show iblk6 V c 0 t (ix2 p k) = V c main_v93 _
  unfold iblk6
  rw [View.read_apply]
  show V c main_v93 _ = V c main_v93 _
  congr 1
  funext a
  apply Fin.ext
  match a with
  | ⟨0, _⟩ => show win6_0.index t 0 * 4000 + 1 * p.val = 4000 * t.val + p.val; rw [(idx6_0 t).1]; omega
  | ⟨1, _⟩ => show win6_0.index t 1 * 64 + 1 * k.val = k.val; rw [(idx6_0 t).2]; omega

/-- Row p of point t's block of graph ids is node 4000·t + p's. -/
theorem bB_apply (c : Dev nD) (t : Fin cfg6.N) (p : Fin 4000) (hlt : 4000 * t.val + p.val < 100000) :
    bB V c t (ix2 p (0 : Fin 1)) = batchArr V c (ix2 (⟨4000 * t.val + p.val, hlt⟩ : Fin 100000) (0 : Fin 1)) := by
  show iblk6 V c 5 t (ix2 p (0 : Fin 1)) = V c main_v94 _
  unfold iblk6
  rw [View.read_apply]
  show V c main_v94 _ = V c main_v94 _
  congr 1
  funext a
  apply Fin.ext
  match a with
  | ⟨0, _⟩ => show win6_5.index t 0 * 4000 + 1 * p.val = 4000 * t.val + p.val; rw [(idx6_5 t).1]; omega
  | ⟨1, _⟩ => show win6_5.index t 1 * 1 + 1 * 0 = 0; rw [(idx6_5 t).2]

/-- The readout's operands are taken whole at every point. -/
theorem w0B_eq (c : Dev nD) (t : Fin cfg6.N) : w0B V c t = V c main_arg10 := by
  funext y
  show iblk6 V c 1 t y = V c main_arg10 y
  unfold iblk6
  rw [View.read_apply]
  show V c main_arg10 _ = V c main_arg10 y
  congr 1
  funext a
  apply Fin.ext
  match a with
  | ⟨0, _⟩ => show win6_1.index t 0 * 64 + 1 * (y 0).val = (y 0).val; rw [(idx6_1 t).1]; omega
  | ⟨1, _⟩ => show win6_1.index t 1 * 32 + 1 * (y 1).val = (y 1).val; rw [(idx6_1 t).2]; omega
theorem b0B_eq (c : Dev nD) (t : Fin cfg6.N) : b0B V c t = V c main_arg11 := by
  funext y
  show iblk6 V c 2 t y = V c main_arg11 y
  unfold iblk6
  rw [View.read_apply]
  show V c main_arg11 _ = V c main_arg11 y
  congr 1
  funext a
  apply Fin.ext
  match a with
  | ⟨0, _⟩ => show win6_2.index t 0 * 32 + 1 * (y 0).val = (y 0).val; rw [idx6_2 t]; omega
theorem w1B_eq (c : Dev nD) (t : Fin cfg6.N) : w1B V c t = V c main_arg12 := by
  funext y
  show iblk6 V c 3 t y = V c main_arg12 y
  unfold iblk6
  rw [View.read_apply]
  show V c main_arg12 _ = V c main_arg12 y
  congr 1
  funext a
  apply Fin.ext
  match a with
  | ⟨0, _⟩ => show win6_3.index t 0 * 32 + 1 * (y 0).val = (y 0).val; rw [(idx6_3 t).1]; omega
  | ⟨1, _⟩ => show win6_3.index t 1 * 1 + 1 * (y 1).val = (y 1).val; rw [(idx6_3 t).2]; omega
theorem b1B_eq (c : Dev nD) (t : Fin cfg6.N) : b1B V c t = V c main_arg13 := by
  funext y
  show iblk6 V c 4 t y = V c main_arg13 y
  unfold iblk6
  rw [View.read_apply]
  show V c main_arg13 _ = V c main_arg13 y
  congr 1
  funext a
  apply Fin.ext
  match a with
  | ⟨0, _⟩ => show win6_4.index t 0 * 1 + 1 * (y 0).val = (y 0).val; rw [idx6_4 t]; omega

/-- The readout of row p of point t's block is node 4000·t + p's. -/
theorem blockReadout_eq (c : Dev nD) (t : Fin cfg6.N) (p : Fin 4000) (hlt : 4000 * t.val + p.val < 100000) :
    blockReadout (hB V c t) (w0B V c t) (b0B V c t) (w1B V c t) (b1B V c t) p
      = rd V c (⟨4000 * t.val + p.val, hlt⟩ : Fin 100000) := by
  rw [w0B_eq, b0B_eq, w1B_eq, b1B_eq]
  show _ = Cert.Spec.readout (V c main_v93) (V c main_arg10) (V c main_arg11) (V c main_arg12) (V c main_arg13) _
  unfold blockReadout Cert.Spec.readout
  simp only [hB_apply V c t p _ hlt]

/-! ## The accumulators after each point -/

/-- Node n's term in graph g's sum of the node quantity f (nothing past the last node). -/
def term (f : Fin 100000 → EReal) (c : Dev nD) (g : Fin 256) (n : ℕ) : EReal :=
  if h : n < 100000 then
    (if batchArr V c (ix2 (⟨n, h⟩ : Fin 100000) (0 : Fin 1)) = BitVec.ofNat 32 g.val then f ⟨n, h⟩ else 0)
  else 0

/-- The terms of the 4000 nodes of block s. -/
def blockTerm (f : Fin 100000 → EReal) (c : Dev nD) (g : Fin 256) (s : ℕ) : EReal :=
  ∑ j : Fin 4000, term V f c g (4000 * s + j.val)

/-- A selection over point t's block, of a quantity that is f at the block's nodes, is block t's terms. -/
theorem block_sum_eq (f : Fin 100000 → EReal) (φ : Fin 4000 → EReal) (c : Dev nD) (t : Fin cfg6.N) (g : Fin 256)
    (hφ : ∀ (p : Fin 4000) (hlt : 4000 * t.val + p.val < 100000), φ p = f ⟨4000 * t.val + p.val, hlt⟩) :
    ∑ p : Fin 4000, (if bB V c t (ix2 p (0 : Fin 1)) = BitVec.ofNat 32 g.val then φ p else 0) = blockTerm V f c g t.val := by
  have hN : t.val < 25 := lt_of_lt_of_eq t.isLt (show cfg6.N = 25 from N_6)
  unfold blockTerm
  refine Finset.sum_congr rfl fun p _ => ?_
  have hlt : 4000 * t.val + p.val < 100000 := by have := p.isLt; omega
  unfold term
  rw [dif_pos hlt, bB_apply V c t p hlt, hφ p hlt]

/-- At the first point: zero plus the block's terms. -/
theorem step_A (c : Dev nD) (t : Fin cfg6.N) (h0 : t.val % 25 = 0) (g : Fin 256) :
    (outsAt6 V c t.val t.isLt).1 (ix2 (0 : Fin 1) g) = blockTerm V (rd V c) c g t.val
    ∧ (outsAt6 V c t.val t.isLt).2 (ix2 (0 : Fin 1) g) = blockTerm V (fun _ => 1) c g t.val := by
  rw [outsAt6_A V c t h0]
  dsimp only
  constructor
  · refine (congrFun (piece_A_6 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t) (iblk6 V c 5 t)) (ix2 (0 : Fin 1) g)).trans ?_
    refine (pay6_apply (hB V c t) (w0B V c t) (b0B V c t) (w1B V c t) (b1B V c t) (bB V c t) (k6_pay2 (F := Ideal)) g).trans ?_
    rw [pay2_apply, zero_add]
    exact block_sum_eq V (rd V c) _ c t g (fun p hlt => blockReadout_eq V c t p hlt)
  · refine (congrFun (piece_A_7 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t) (iblk6 V c 5 t)) (ix2 (0 : Fin 1) g)).trans ?_
    refine (pay1_apply (k6_pay5 (F := Ideal) (bB V c t)) (k6_pay3 (F := Ideal)) (ix2 (0 : Fin 1) g)).trans ?_
    rw [pay3_apply, zero_add]
    refine (pay5_apply (bB V c t) g).trans ?_
    exact block_sum_eq V (fun _ => 1) (fun _ => 1) c t g (fun p hlt => rfl)

/-- Past the first point: what the point before left plus the block's terms. -/
theorem step_B (c : Dev nD) (t : Fin cfg6.N) (h0 : ¬t.val % 25 = 0) (g : Fin 256) :
    (outsAt6 V c t.val t.isLt).1 (ix2 (0 : Fin 1) g)
      = (outsAt6 V c (t.val - 1) (Nat.lt_of_le_of_lt (Nat.sub_le _ _) t.isLt)).1 (ix2 (0 : Fin 1) g) + blockTerm V (rd V c) c g t.val
    ∧ (outsAt6 V c t.val t.isLt).2 (ix2 (0 : Fin 1) g)
      = (outsAt6 V c (t.val - 1) (Nat.lt_of_le_of_lt (Nat.sub_le _ _) t.isLt)).2 (ix2 (0 : Fin 1) g) + blockTerm V (fun _ => 1) c g t.val := by
  rw [outsAt6_B V c t h0]
  dsimp only
  constructor
  · refine (congrFun (piece_B_6 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) (iblk6 V c 5 t)
      (outsAt6 V c (t.val - 1) (Nat.lt_of_le_of_lt (Nat.sub_le _ _) t.isLt)).1 (outsAt6 V c (t.val - 1) (Nat.lt_of_le_of_lt (Nat.sub_le _ _) t.isLt)).2) (ix2 (0 : Fin 1) g)).trans ?_
    refine (pay6_apply (hB V c t) (w0B V c t) (b0B V c t) (w1B V c t) (b1B V c t) (bB V c t)
      (outsAt6 V c (t.val - 1) (Nat.lt_of_le_of_lt (Nat.sub_le _ _) t.isLt)).1 g).trans ?_
    exact congrArg _ (block_sum_eq V (rd V c) _ c t g (fun p hlt => blockReadout_eq V c t p hlt))
  · refine (congrFun (piece_B_7 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) (iblk6 V c 5 t)
      (outsAt6 V c (t.val - 1) (Nat.lt_of_le_of_lt (Nat.sub_le _ _) t.isLt)).1 (outsAt6 V c (t.val - 1) (Nat.lt_of_le_of_lt (Nat.sub_le _ _) t.isLt)).2) (ix2 (0 : Fin 1) g)).trans ?_
    refine (pay1_apply (k6_pay5 (F := Ideal) (bB V c t)) (outsAt6 V c (t.val - 1) (Nat.lt_of_le_of_lt (Nat.sub_le _ _) t.isLt)).2 (ix2 (0 : Fin 1) g)).trans ?_
    refine congrArg _ ((pay5_apply (bB V c t) g).trans ?_)
    exact block_sum_eq V (fun _ => 1) (fun _ => 1) c t g (fun p hlt => rfl)

/-- After point n the accumulators hold the terms of the blocks 0 … n. -/
theorem acc_inv (c : Dev nD) (g : Fin 256) : ∀ (n : ℕ) (hn : n < cfg6.N),
    (outsAt6 V c n hn).1 (ix2 (0 : Fin 1) g) = ∑ s ∈ Finset.range (n + 1), blockTerm V (rd V c) c g s
    ∧ (outsAt6 V c n hn).2 (ix2 (0 : Fin 1) g) = ∑ s ∈ Finset.range (n + 1), blockTerm V (fun _ => 1) c g s
  | 0, hn => by
    have h := step_A V c ⟨0, hn⟩ rfl g
    rw [Finset.sum_range_one, Finset.sum_range_one]
    exact h
  | n + 1, hn => by
    have hN : cfg6.N = 25 := N_6
    have hB : ¬(⟨n + 1, hn⟩ : Fin cfg6.N).val % 25 = 0 := by dsimp only; omega
    have h := step_B V c ⟨n + 1, hn⟩ hB g
    have ih := acc_inv c g n (Nat.lt_of_succ_lt hn)
    rw [Finset.sum_range_succ _ (n + 1), Finset.sum_range_succ _ (n + 1), ← ih.1, ← ih.2]
    exact h

/-- Graph g's sum of f over all nodes is the terms of the 25 blocks. -/
theorem graphSum_eq_blocks (f : Fin 100000 → EReal) (c : Dev nD) (g : Fin 256) :
    Cert.Spec.graphSum f (V c main_v94) g = ∑ s ∈ Finset.range 25, blockTerm V f c g s := by
  rw [Finset.sum_range (fun s => blockTerm V f c g s)]
  unfold blockTerm
  rw [← Cert.LibSumBlocks.sum_fin_mul 25 4000 (term V f c g)]
  unfold Cert.Spec.graphSum
  show ∑ n : Fin 100000, _ = ∑ n : Fin 100000, term V f c g n.val
  refine Finset.sum_congr rfl fun n _ => ?_
  unfold term
  rw [dif_pos n.isLt]

/-! ## The final arrays: the one write-back, after the last point, of the one block that is the whole array -/

theorem last_lt : 24 < cfg6.N := by rw [show cfg6.N = 25 from N_6]; decide

/-- The last point. -/
abbrev tLast : Fin cfg6.N := ⟨24, last_lt⟩

theorem xsize6_6 : ∀ t : Fin cfg6.N, win6_6.xsize (grid6.coords t) 0 = 1 ∧ win6_6.xsize (grid6.coords t) 1 = 256 :=
  (by decide +kernel : ∀ t : Fin grid6.N, win6_6.xsize (grid6.coords t) 0 = 1 ∧ win6_6.xsize (grid6.coords t) 1 = 256)
theorem xsize6_7 : ∀ t : Fin cfg6.N, win6_7.xsize (grid6.coords t) 0 = 1 ∧ win6_7.xsize (grid6.coords t) 1 = 256 :=
  (by decide +kernel : ∀ t : Fin grid6.N, win6_7.xsize (grid6.coords t) 0 = 1 ∧ win6_7.xsize (grid6.coords t) 1 = 256)

/-- The first accumulator: per graph, the sum of its nodes' readouts. -/
theorem final6_6 (c : Dev nD) :
    (dat6 (F := Ideal) V c).arrAt 6 cfg6.N
      = fun i => Cert.Spec.graphSum
          (Cert.Spec.readout (V c main_v93) (V c main_arg10) (V c main_arg11) (V c main_arg12) (V c main_arg13))
          (V c main_v94) (i 1) := by
  refine (dat6 (F := Ideal) V c).arrAt_eq_of_cover 6 _ (fun t hf => ?_) (fun i => ?_)
  · have hN : cfg6.N = 25 := N_6
    have h24 : t.val = 24 := by have := (flush6_6 t).mp hf; have := t.isLt; omega
    obtain rfl : t = tLast := Fin.ext h24
    show (cfg6.win 6).cut (grid6.coords tLast) ((dat6 V c).after 6 tLast) = _
    rw [after6_6]
    funext y
    rw [View.read_apply]
    obtain ⟨a, g, rfl⟩ : ∃ (a : Fin 1) (g : Fin 256), y = ix2 a g := ⟨y 0, y 1, eq_ix2 (n0 := 1) (n1 := 256) y⟩
    obtain rfl : a = 0 := Subsingleton.elim _ _
    have e : ((cfg6.win 6).blk tLast).view.emb (ix2 (0 : Fin 1) g) 1 = g :=
      Fin.ext (by show win6_6.index tLast 1 * 256 + 1 * g.val = g.val; rw [(idx6_6 tLast).2]; omega)
    rw [e, graphSum_eq_blocks]
    exact (acc_inv V c g 24 last_lt).1
  · refine ⟨tLast, (flush6_6 tLast).mpr rfl, ?_⟩
    show i ∈ ((View.whole main_v95_0).slice (win6_6.rect tLast)).set
    rw [View.set_slice_whole, Rect.mem_set_unit]
    intro a
    have h0 : (i 0 : Nat) < 1 := (i 0).isLt
    have h1 : (i 1 : Nat) < 256 := (i 1).isLt
    match a with
    | ⟨0, _⟩ =>
      show win6_6.index tLast 0 * 1 ≤ (i 0 : Nat) ∧ (i 0 : Nat) < win6_6.index tLast 0 * 1 + win6_6.xsize (grid6.coords tLast) 0
      rw [(idx6_6 tLast).1, (xsize6_6 tLast).1]; omega
    | ⟨1, _⟩ =>
      show win6_6.index tLast 1 * 256 ≤ (i 1 : Nat) ∧ (i 1 : Nat) < win6_6.index tLast 1 * 256 + win6_6.xsize (grid6.coords tLast) 1
      rw [(idx6_6 tLast).2, (xsize6_6 tLast).2]; omega

/-- The second accumulator: per graph, the number of its nodes. -/
theorem final6_7 (c : Dev nD) :
    (dat6 (F := Ideal) V c).arrAt 7 cfg6.N
      = fun i => Cert.Spec.graphSum (fun _ => 1) (V c main_v94) (i 1) := by
  refine (dat6 (F := Ideal) V c).arrAt_eq_of_cover 7 _ (fun t hf => ?_) (fun i => ?_)
  · have hN : cfg6.N = 25 := N_6
    have h24 : t.val = 24 := by have := (flush6_7 t).mp hf; have := t.isLt; omega
    obtain rfl : t = tLast := Fin.ext h24
    show (cfg6.win 7).cut (grid6.coords tLast) ((dat6 V c).after 7 tLast) = _
    rw [after6_7]
    funext y
    rw [View.read_apply]
    obtain ⟨a, g, rfl⟩ : ∃ (a : Fin 1) (g : Fin 256), y = ix2 a g := ⟨y 0, y 1, eq_ix2 (n0 := 1) (n1 := 256) y⟩
    obtain rfl : a = 0 := Subsingleton.elim _ _
    have e : ((cfg6.win 7).blk tLast).view.emb (ix2 (0 : Fin 1) g) 1 = g :=
      Fin.ext (by show win6_7.index tLast 1 * 256 + 1 * g.val = g.val; rw [(idx6_7 tLast).2]; omega)
    rw [e, graphSum_eq_blocks]
    exact (acc_inv V c g 24 last_lt).2
  · refine ⟨tLast, (flush6_7 tLast).mpr rfl, ?_⟩
    show i ∈ ((View.whole main_v95_1).slice (win6_7.rect tLast)).set
    rw [View.set_slice_whole, Rect.mem_set_unit]
    intro a
    have h0 : (i 0 : Nat) < 1 := (i 0).isLt
    have h1 : (i 1 : Nat) < 256 := (i 1).isLt
    match a with
    | ⟨0, _⟩ =>
      show win6_7.index tLast 0 * 1 ≤ (i 0 : Nat) ∧ (i 0 : Nat) < win6_7.index tLast 0 * 1 + win6_7.xsize (grid6.coords tLast) 0
      rw [(idx6_7 tLast).1, (xsize6_7 tLast).1]; omega
    | ⟨1, _⟩ =>
      show win6_7.index tLast 1 * 256 ≤ (i 1 : Nat) ∧ (i 1 : Nat) < win6_7.index tLast 1 * 256 + win6_7.xsize (grid6.coords tLast) 1
      rw [(idx6_7 tLast).2, (xsize6_7 tLast).2]; omega

end Cert.KernelIdeal.KV
end
-- ==== Proof.KChain.lean ====
/-
  The kernel program's result, read through its host operations and regions.

  The host operations before the first region compute, from the edge list and the edge weights, the graph quantities
  every layer shares: the source and destination node of each edge, the degrees, the edge normalisation and the
  reciprocal degrees as a column. Each layer is then: a region that multiplies the node rows by the weights and scales
  the product by the reciprocal-degree column; host operations that aggregate the product over the edges; a region that
  adds aggregate, scaled product and bias (with max(·, 0) in the first two layers). A last region accumulates the
  readouts and the counts per graph, and the final host operations divide. No operation overwrites a buffer another
  reads later, so each buffer is read at the contents its one writer left.
-/
import proofs.«418295_j74921409511934_1_alg».proof.Proof.Gen.KernelIdeal.Frame
import proofs.«418295_j74921409511934_1_alg».proof.Proof.Spec
import proofs.«418295_j74921409511934_1_alg».proof.Proof.KMatmul
import proofs.«418295_j74921409511934_1_alg».proof.Proof.KEpilogue
import proofs.«418295_j74921409511934_1_alg».proof.Proof.KPool
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

/-! ## The host operations as named pieces -/

section Pieces
variable {F : FTy → Type} [FloatOps F]

/-- The edge list's second row: the destination node of each edge. -/
def dstRow (ei : IVec S2x1600000 32) : IVec S1600000 32 :=
  shapeCast _ (extractStridedSlice S1x1600000 ![1, 0] ei slices_S2x1600000_S1x1600000_1_0) shapeCasts_S1x1600000_S1600000

/-- The edge list's first row: the source node of each edge. -/
def srcRow (ei : IVec S2x1600000 32) : IVec S1600000 32 :=
  shapeCast _ (extractStridedSlice S1x1600000 ![0, 0] ei slices_S2x1600000_S1x1600000_0_0) shapeCasts_S1x1600000_S1600000

/-- A node index with a negative value counted from the end. -/
def wrapIdx (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- Each node's degree: one plus the sum of the weights of the edges that end at it. -/
def deg (ei : IVec S2x1600000 32) (ew : FVec F S1600000 .f32) : FVec F S100000 .f32 :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 (wrapIdx (dstRow ei))) ew)
    (broadcastInDim S100000 ![] bcast_S_S100000 (constant S_ .f32 0x3F800000#32))

/-- Each edge's normalisation: its weight times the inverse square roots of its two end nodes' degrees. -/
def norm (ei : IVec S2x1600000 32) (ew : FVec F S1600000 .f32) : FVec F S1600000 .f32 :=
  mulf (mulf (Host.gather gather_S100000_S1600000x1_S1600000_n_0_n_n_0_1_1 (Host.rsqrt (deg ei ew))
        (broadcastInDim S1600000x1 ![0] bcast_S1600000_S1600000x1_0 (wrapIdx (srcRow ei)))) ew)
    (Host.gather gather_S100000_S1600000x1_S1600000_n_0_n_n_0_1_1 (Host.rsqrt (deg ei ew))
      (broadcastInDim S1600000x1 ![0] bcast_S1600000_S1600000x1_0 (wrapIdx (dstRow ei))))

/-- The neighbour aggregation with a given per-edge factor: each edge takes its source node's row, scales it, and adds it
    into its destination node's row. -/
def aggWith (ei : IVec S2x1600000 32) (nrm : FVec F S1600000 .f32) (xw : FVec F S100000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (wrapIdx (dstRow ei)))
    (mulf (Host.gather gather_S100000x64_S1600000x1_S1600000x64_1_0_n_n_0_1_164 xw
        (broadcastInDim S1600000x1 ![0] bcast_S1600000_S1600000x1_0 (wrapIdx (srcRow ei))))
      (broadcastInDim S1600000x64 ![0, 1] bcast_S1600000x1_S1600000x64_0_1
        (broadcastInDim S1600000x1 ![0] bcast_S1600000_S1600000x1_0 nrm)))

/-- The neighbour aggregation. -/
def agg (ei : IVec S2x1600000 32) (ew : FVec F S1600000 .f32) (xw : FVec F S100000x64 .f32) : FVec F S100000x64 .f32 :=
  aggWith ei (norm ei ew) xw

/-- The reciprocal of each node's degree. -/
def rdeg (ei : IVec S2x1600000 32) (ew : FVec F S1600000 .f32) : FVec F S100000 .f32 :=
  Host.divf (broadcastInDim S100000 ![] bcast_S_S100000 (constant S_ .f32 0x3F800000#32)) (deg ei ew)

/-- The reciprocal degrees as a column. -/
def dcol (ei : IVec S2x1600000 32) (ew : FVec F S1600000 .f32) : FVec F S100000x1 .f32 :=
  shapeCast _ (rdeg ei ew) shapeCasts_S100000_S100000x1

/-- The graph ids as a column. -/
def bcol (bt : IVec S100000 32) : IVec S100000x1 32 :=
  shapeCast _ bt shapeCasts_S100000_S100000x1

/-- The mean per graph from the two accumulators: sums over max(counts, 1), laid out as a column. -/
def meanOf (s cnt : FVec F S1x256 .f32) : FVec F S256x1 .f32 :=
  transpose S256x1 [1, 0] (Host.divf s (maximumf cnt (broadcastInDim S1x256 ![] bcast_S_S1x256 (constant S_ .f32 0x3F800000#32))))
    transposes_S1x256_S256x1_1_0

end Pieces

/-! ## The references each host stretch writes -/

/-- Written before the first region. -/
def outs0 : List (Ref sig .tc) := [main_v0, main_v1, main_v2, main_v3, main_cst, main_v4, main_c, main_v5, main_v6, main_c_0, main_v7, main_v8, main_v9, main_v10, main_v11, main_cst_1, main_v12, main_v13, main_v14, main_c_2, main_v15, main_v16, main_c_3, main_v17, main_v18, main_v19, main_v20, main_v21, main_v22, main_c_4, main_v23, main_v24, main_c_5, main_v25, main_v26, main_v27, main_v28, main_v29, main_v30, main_cst_6, main_v31, main_v32, main_v33]
/-- Written by the first layer's aggregation. -/
def outs1 : List (Ref sig .tc) := [main_c_7, main_v35, main_v36, main_c_8, main_v37, main_v38, main_v39, main_v40, main_v41, main_v42, main_v43, main_v44, main_cst_9, main_v45, main_c_10, main_v46, main_v47, main_c_11, main_v48, main_v49, main_v50, main_v51, main_v52]
/-- Written by the second layer's aggregation. -/
def outs3 : List (Ref sig .tc) := [main_c_12, main_v55, main_v56, main_c_13, main_v57, main_v58, main_v59, main_v60, main_v61, main_v62, main_v63, main_v64, main_cst_14, main_v65, main_c_15, main_v66, main_v67, main_c_16, main_v68, main_v69, main_v70, main_v71, main_v72]
/-- Written by the third layer's aggregation. -/
def outs5 : List (Ref sig .tc) := [main_c_17, main_v75, main_v76, main_c_18, main_v77, main_v78, main_v79, main_v80, main_v81, main_v82, main_v83, main_v84, main_cst_19, main_v85, main_c_20, main_v86, main_v87, main_c_21, main_v88, main_v89, main_v90, main_v91, main_v92]
/-- Written before the last region. -/
def outs6 : List (Ref sig .tc) := [main_v94]
/-- Written after the last region. -/
def outs7 : List (Ref sig .tc) := [main_cst_22, main_v96, main_v97, main_v98, main_v99]

section Writes
variable {F : FTy → Type} [FloatOps F]

theorem writes0 : (hostOps0 : List (HloOp τ sig (Elt F))).Forall fun op => op.writes ⊆ (outs0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes]
  decide
theorem writes1 : (hostOps1 : List (HloOp τ sig (Elt F))).Forall fun op => op.writes ⊆ (outs1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes]
  decide
theorem writes3 : (hostOps3 : List (HloOp τ sig (Elt F))).Forall fun op => op.writes ⊆ (outs3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes]
  decide
theorem writes5 : (hostOps5 : List (HloOp τ sig (Elt F))).Forall fun op => op.writes ⊆ (outs5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes]
  decide
theorem writes6 : (hostOps6 : List (HloOp τ sig (Elt F))).Forall fun op => op.writes ⊆ (outs6.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes]
  decide
theorem writes7 : (hostOps7 : List (HloOp τ sig (Elt F))).Forall fun op => op.writes ⊆ (outs7.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes]
  decide

end Writes

/-! ## A buffer keeps its contents across a segment that does not write it -/

section Keep
variable {F : FTy → Type} [FloatOps F]
variable (m : (ℓ : Loc nD τ sig) → Buf (Elt F) ℓ) (ρ : Dev nD → PrngReg) (c : Dev nD) (r : Ref sig .tc)

theorem keep1 (h : r ∉ outs0) : W1 m ρ c (Proc.devRef .tc r) = m ((c : Thread nD τ).loc r) :=
  StableHlo.after_of_writes_sub hostOps0 (W0 m ρ c) writes0 h
theorem keep2 (h : ∀ w, Pipeline.arrRef spec0 w ≠ r) : W2 m ρ c (Proc.devRef .tc r) = W1 m ρ c (Proc.devRef .tc r) :=
  W2_of_ne m ρ c r h
theorem keep3 (h : r ∉ outs1) : W3 m ρ c (Proc.devRef .tc r) = W2 m ρ c (Proc.devRef .tc r) :=
  StableHlo.after_of_writes_sub hostOps1 (W2 m ρ c) writes1 h
theorem keep4 (h : ∀ w, Pipeline.arrRef spec1 w ≠ r) : W4 m ρ c (Proc.devRef .tc r) = W3 m ρ c (Proc.devRef .tc r) :=
  W4_of_ne m ρ c r h
theorem keep5 (h : ∀ w, Pipeline.arrRef spec2 w ≠ r) : W5 m ρ c (Proc.devRef .tc r) = W4 m ρ c (Proc.devRef .tc r) :=
  W5_of_ne m ρ c r h
theorem keep6 (h : r ∉ outs3) : W6 m ρ c (Proc.devRef .tc r) = W5 m ρ c (Proc.devRef .tc r) :=
  StableHlo.after_of_writes_sub hostOps3 (W5 m ρ c) writes3 h
theorem keep7 (h : ∀ w, Pipeline.arrRef spec3 w ≠ r) : W7 m ρ c (Proc.devRef .tc r) = W6 m ρ c (Proc.devRef .tc r) :=
  W7_of_ne m ρ c r h
theorem keep8 (h : ∀ w, Pipeline.arrRef spec4 w ≠ r) : W8 m ρ c (Proc.devRef .tc r) = W7 m ρ c (Proc.devRef .tc r) :=
  W8_of_ne m ρ c r h
theorem keep9 (h : r ∉ outs5) : W9 m ρ c (Proc.devRef .tc r) = W8 m ρ c (Proc.devRef .tc r) :=
  StableHlo.after_of_writes_sub hostOps5 (W8 m ρ c) writes5 h
theorem keep10 (h : ∀ w, Pipeline.arrRef spec5 w ≠ r) : W10 m ρ c (Proc.devRef .tc r) = W9 m ρ c (Proc.devRef .tc r) :=
  W10_of_ne m ρ c r h
theorem keep11 (h : r ∉ outs6) : W11 m ρ c (Proc.devRef .tc r) = W10 m ρ c (Proc.devRef .tc r) :=
  StableHlo.after_of_writes_sub hostOps6 (W10 m ρ c) writes6 h

/-- Untouched through the first layer. -/
theorem keep4to1 (h2 : ∀ w, Pipeline.arrRef spec0 w ≠ r) (h3 : r ∉ outs1) (h4 : ∀ w, Pipeline.arrRef spec1 w ≠ r) :
    W4 m ρ c (Proc.devRef .tc r) = W1 m ρ c (Proc.devRef .tc r) :=
  (keep4 m ρ c r h4).trans ((keep3 m ρ c r h3).trans (keep2 m ρ c r h2))
/-- Untouched through the second layer. -/
theorem keep7to4 (h5 : ∀ w, Pipeline.arrRef spec2 w ≠ r) (h6 : r ∉ outs3) (h7 : ∀ w, Pipeline.arrRef spec3 w ≠ r) :
    W7 m ρ c (Proc.devRef .tc r) = W4 m ρ c (Proc.devRef .tc r) :=
  (keep7 m ρ c r h7).trans ((keep6 m ρ c r h6).trans (keep5 m ρ c r h5))
/-- Untouched through the third layer. -/
theorem keep10to7 (h8 : ∀ w, Pipeline.arrRef spec4 w ≠ r) (h9 : r ∉ outs5) (h10 : ∀ w, Pipeline.arrRef spec5 w ≠ r) :
    W10 m ρ c (Proc.devRef .tc r) = W7 m ρ c (Proc.devRef .tc r) :=
  (keep10 m ρ c r h10).trans ((keep9 m ρ c r h9).trans (keep8 m ρ c r h8))

end Keep

/-! ## The contents at each boundary, at the ideal instance -/

section Values
variable (m : (ℓ : Loc nD τ sig) → Buf (Elt Ideal) ℓ) (ρ : Dev nD → PrngReg) (c : Dev nD)

/-- The first layer's output with its activation. -/
def h1 : Cert.Spec.Rows 64 :=
  Cert.Spec.relu (Cert.Spec.layer (agg (F := Ideal) (m ((c : Thread nD τ).loc main_arg1)) (m ((c : Thread nD τ).loc main_arg2))) (dcol (F := Ideal) (m ((c : Thread nD τ).loc main_arg1)) (m ((c : Thread nD τ).loc main_arg2))) (m ((c : Thread nD τ).loc main_arg0)) (m ((c : Thread nD τ).loc main_arg4)) (m ((c : Thread nD τ).loc main_arg5)))
/-- The second layer's output with its activation. -/
def h2 : Cert.Spec.Rows 64 :=
  Cert.Spec.relu (Cert.Spec.layer (agg (F := Ideal) (m ((c : Thread nD τ).loc main_arg1)) (m ((c : Thread nD τ).loc main_arg2))) (dcol (F := Ideal) (m ((c : Thread nD τ).loc main_arg1)) (m ((c : Thread nD τ).loc main_arg2))) (h1 m c) (m ((c : Thread nD τ).loc main_arg6)) (m ((c : Thread nD τ).loc main_arg7)))
/-- The third layer's output. -/
def h3 : Cert.Spec.Rows 64 :=
  Cert.Spec.layer (agg (F := Ideal) (m ((c : Thread nD τ).loc main_arg1)) (m ((c : Thread nD τ).loc main_arg2))) (dcol (F := Ideal) (m ((c : Thread nD τ).loc main_arg1)) (m ((c : Thread nD τ).loc main_arg2))) (h2 m c) (m ((c : Thread nD τ).loc main_arg8)) (m ((c : Thread nD τ).loc main_arg9))

/-! ### Before the first region -/

set_option maxHeartbeats 2000000 in
theorem W1_v1 : W1 m ρ c (Proc.devRef .tc main_v1) = srcRow (m ((c : Thread nD τ).loc main_arg1)) := by
  show StableHlo.after hostOps0 (W0 m ρ c) (Proc.devRef .tc main_v1) = _
  after_results_simp
  rfl
set_option maxHeartbeats 2000000 in
theorem W1_v3 : W1 m ρ c (Proc.devRef .tc main_v3) = dstRow (m ((c : Thread nD τ).loc main_arg1)) := by
  show StableHlo.after hostOps0 (W0 m ρ c) (Proc.devRef .tc main_v3) = _
  after_results_simp
  rfl
set_option maxHeartbeats 2000000 in
theorem W1_v30 : W1 m ρ c (Proc.devRef .tc main_v30) = norm (F := Ideal) (m ((c : Thread nD τ).loc main_arg1)) (m ((c : Thread nD τ).loc main_arg2)) := by
  show StableHlo.after hostOps0 (W0 m ρ c) (Proc.devRef .tc main_v30) = _
  after_results_simp
  rfl
set_option maxHeartbeats 2000000 in
theorem W1_v33 : W1 m ρ c (Proc.devRef .tc main_v33) = dcol (F := Ideal) (m ((c : Thread nD τ).loc main_arg1)) (m ((c : Thread nD τ).loc main_arg2)) := by
  show StableHlo.after hostOps0 (W0 m ρ c) (Proc.devRef .tc main_v33) = _
  after_results_simp
  rfl

/-! ### The first layer -/

theorem W2_v34_0 : W2 m ρ c (Proc.devRef .tc main_v34_0) = Cert.Spec.mm (m ((c : Thread nD τ).loc main_arg0)) (m ((c : Thread nD τ).loc main_arg4)) := by
  refine (W2_arr m ρ c 3).trans ?_
  rw [final0_3 (V1 m ρ) c]
  show Cert.Spec.mm (W1 m ρ c (Proc.devRef .tc main_arg0)) (W1 m ρ c (Proc.devRef .tc main_arg4)) = _
  rw [keep1 m ρ c main_arg0 (by decide), keep1 m ρ c main_arg4 (by decide)]

theorem W2_v34_1 : W2 m ρ c (Proc.devRef .tc main_v34_1)
    = Cert.Spec.selfLoop (Cert.Spec.mm (m ((c : Thread nD τ).loc main_arg0)) (m ((c : Thread nD τ).loc main_arg4))) (dcol (F := Ideal) (m ((c : Thread nD τ).loc main_arg1)) (m ((c : Thread nD τ).loc main_arg2))) := by
  refine (W2_arr m ρ c 4).trans ?_
  rw [final0_4 (V1 m ρ) c]
  show Cert.Spec.selfLoop (Cert.Spec.mm (W1 m ρ c (Proc.devRef .tc main_arg0)) (W1 m ρ c (Proc.devRef .tc main_arg4)))
    (W1 m ρ c (Proc.devRef .tc main_v33)) = _
  rw [keep1 m ρ c main_arg0 (by decide), keep1 m ρ c main_arg4 (by decide), W1_v33]

set_option maxHeartbeats 2000000 in
theorem W3_v52 : W3 m ρ c (Proc.devRef .tc main_v52) = agg (F := Ideal) (m ((c : Thread nD τ).loc main_arg1)) (m ((c : Thread nD τ).loc main_arg2)) (Cert.Spec.mm (m ((c : Thread nD τ).loc main_arg0)) (m ((c : Thread nD τ).loc main_arg4))) := by
  show StableHlo.after hostOps1 (W2 m ρ c) (Proc.devRef .tc main_v52) = _
  after_results_simp
  rw [W2_v34_0, keep2 m ρ c main_v1 (by decide), keep2 m ρ c main_v3 (by decide), keep2 m ρ c main_v30 (by decide),
    W1_v1, W1_v3, W1_v30]
  rfl

theorem W4_v53 : W4 m ρ c (Proc.devRef .tc main_v53) = h1 m c := by
  refine (W4_arr m ρ c 3).trans ?_
  rw [final1_3 (V3 m ρ) c]
  show Cert.Spec.relu (Cert.Spec.combine (W3 m ρ c (Proc.devRef .tc main_v52)) (W3 m ρ c (Proc.devRef .tc main_v34_1))
    (W3 m ρ c (Proc.devRef .tc main_arg5))) = _
  rw [W3_v52, keep3 m ρ c main_v34_1 (by decide), W2_v34_1,
    keep3 m ρ c main_arg5 (by decide), keep2 m ρ c main_arg5 (by decide), keep1 m ρ c main_arg5 (by decide)]
  rfl

/-! ### The second layer -/

/-- The reciprocal-degree column is an input of the first region, which leaves it as it was. -/
theorem W2_v33 : W2 m ρ c (Proc.devRef .tc main_v33) = dcol (F := Ideal) (m ((c : Thread nD τ).loc main_arg1)) (m ((c : Thread nD τ).loc main_arg2)) :=
  ((W2_arr m ρ c 2).trans (((dat0 (V1 m ρ) c).arrAt_in 2 rfl _).trans (A_eq0 (V1 m ρ) c 2))).trans (W1_v33 m ρ c)

theorem W4_v33 : W4 m ρ c (Proc.devRef .tc main_v33) = dcol (F := Ideal) (m ((c : Thread nD τ).loc main_arg1)) (m ((c : Thread nD τ).loc main_arg2)) :=
  (keep4 m ρ c main_v33 (by decide)).trans ((keep3 m ρ c main_v33 (by decide)).trans (W2_v33 m ρ c))

theorem W5_v54_0 : W5 m ρ c (Proc.devRef .tc main_v54_0) = Cert.Spec.mm (h1 m c) (m ((c : Thread nD τ).loc main_arg6)) := by
  refine (W5_arr m ρ c 3).trans ?_
  rw [final2_3 (V4 m ρ) c]
  show Cert.Spec.mm (W4 m ρ c (Proc.devRef .tc main_v53)) (W4 m ρ c (Proc.devRef .tc main_arg6)) = _
  rw [W4_v53, keep4to1 m ρ c main_arg6 (by decide) (by decide) (by decide), keep1 m ρ c main_arg6 (by decide)]

theorem W5_v54_1 : W5 m ρ c (Proc.devRef .tc main_v54_1)
    = Cert.Spec.selfLoop (Cert.Spec.mm (h1 m c) (m ((c : Thread nD τ).loc main_arg6))) (dcol (F := Ideal) (m ((c : Thread nD τ).loc main_arg1)) (m ((c : Thread nD τ).loc main_arg2))) := by
  refine (W5_arr m ρ c 4).trans ?_
  rw [final2_4 (V4 m ρ) c]
  show Cert.Spec.selfLoop (Cert.Spec.mm (W4 m ρ c (Proc.devRef .tc main_v53)) (W4 m ρ c (Proc.devRef .tc main_arg6)))
    (W4 m ρ c (Proc.devRef .tc main_v33)) = _
  rw [W4_v53, keep4to1 m ρ c main_arg6 (by decide) (by decide) (by decide), keep1 m ρ c main_arg6 (by decide), W4_v33]

set_option maxHeartbeats 2000000 in
theorem W6_v72 : W6 m ρ c (Proc.devRef .tc main_v72) = agg (F := Ideal) (m ((c : Thread nD τ).loc main_arg1)) (m ((c : Thread nD τ).loc main_arg2)) (Cert.Spec.mm (h1 m c) (m ((c : Thread nD τ).loc main_arg6))) := by
  show StableHlo.after hostOps3 (W5 m ρ c) (Proc.devRef .tc main_v72) = _
  after_results_simp
  rw [W5_v54_0, keep5 m ρ c main_v1 (by decide), keep5 m ρ c main_v3 (by decide), keep5 m ρ c main_v30 (by decide),
    keep4to1 m ρ c main_v1 (by decide) (by decide) (by decide), keep4to1 m ρ c main_v3 (by decide) (by decide) (by decide),
    keep4to1 m ρ c main_v30 (by decide) (by decide) (by decide), W1_v1, W1_v3, W1_v30]
  rfl

theorem W7_v73 : W7 m ρ c (Proc.devRef .tc main_v73) = h2 m c := by
  refine (W7_arr m ρ c 3).trans ?_
  rw [final3_3 (V6 m ρ) c]
  show Cert.Spec.relu (Cert.Spec.combine (W6 m ρ c (Proc.devRef .tc main_v72)) (W6 m ρ c (Proc.devRef .tc main_v54_1))
    (W6 m ρ c (Proc.devRef .tc main_arg7))) = _
  rw [W6_v72, keep6 m ρ c main_v54_1 (by decide), W5_v54_1,
    keep6 m ρ c main_arg7 (by decide), keep5 m ρ c main_arg7 (by decide),
    keep4to1 m ρ c main_arg7 (by decide) (by decide) (by decide), keep1 m ρ c main_arg7 (by decide)]
  rfl

/-! ### The third layer -/

/-- The column is an input of the third region too. -/
theorem W5_v33 : W5 m ρ c (Proc.devRef .tc main_v33) = dcol (F := Ideal) (m ((c : Thread nD τ).loc main_arg1)) (m ((c : Thread nD τ).loc main_arg2)) :=
  ((W5_arr m ρ c 2).trans (((dat2 (V4 m ρ) c).arrAt_in 2 rfl _).trans (A_eq2 (V4 m ρ) c 2))).trans (W4_v33 m ρ c)

theorem W7_v33 : W7 m ρ c (Proc.devRef .tc main_v33) = dcol (F := Ideal) (m ((c : Thread nD τ).loc main_arg1)) (m ((c : Thread nD τ).loc main_arg2)) :=
  (keep7 m ρ c main_v33 (by decide)).trans ((keep6 m ρ c main_v33 (by decide)).trans (W5_v33 m ρ c))

theorem W7_arg (r : Ref sig .tc) (h0 : r ∉ outs0) (h2 : ∀ w, Pipeline.arrRef spec0 w ≠ r) (h3 : r ∉ outs1)
    (h4 : ∀ w, Pipeline.arrRef spec1 w ≠ r) (h5 : ∀ w, Pipeline.arrRef spec2 w ≠ r) (h6 : r ∉ outs3)
    (h7 : ∀ w, Pipeline.arrRef spec3 w ≠ r) : W7 m ρ c (Proc.devRef .tc r) = m ((c : Thread nD τ).loc r) :=
  (keep7to4 m ρ c r h5 h6 h7).trans ((keep4to1 m ρ c r h2 h3 h4).trans (keep1 m ρ c r h0))

theorem W8_v74_0 : W8 m ρ c (Proc.devRef .tc main_v74_0) = Cert.Spec.mm (h2 m c) (m ((c : Thread nD τ).loc main_arg8)) := by
  refine (W8_arr m ρ c 3).trans ?_
  rw [final4_3 (V7 m ρ) c]
  show Cert.Spec.mm (W7 m ρ c (Proc.devRef .tc main_v73)) (W7 m ρ c (Proc.devRef .tc main_arg8)) = _
  rw [W7_v73, W7_arg m ρ c main_arg8 (by decide) (by decide) (by decide) (by decide) (by decide) (by decide) (by decide)]

theorem W8_v74_1 : W8 m ρ c (Proc.devRef .tc main_v74_1)
    = Cert.Spec.selfLoop (Cert.Spec.mm (h2 m c) (m ((c : Thread nD τ).loc main_arg8))) (dcol (F := Ideal) (m ((c : Thread nD τ).loc main_arg1)) (m ((c : Thread nD τ).loc main_arg2))) := by
  refine (W8_arr m ρ c 4).trans ?_
  rw [final4_4 (V7 m ρ) c]
  show Cert.Spec.selfLoop (Cert.Spec.mm (W7 m ρ c (Proc.devRef .tc main_v73)) (W7 m ρ c (Proc.devRef .tc main_arg8)))
    (W7 m ρ c (Proc.devRef .tc main_v33)) = _
  rw [W7_v73, W7_arg m ρ c main_arg8 (by decide) (by decide) (by decide) (by decide) (by decide) (by decide) (by decide), W7_v33]

set_option maxHeartbeats 2000000 in
theorem W9_v92 : W9 m ρ c (Proc.devRef .tc main_v92) = agg (F := Ideal) (m ((c : Thread nD τ).loc main_arg1)) (m ((c : Thread nD τ).loc main_arg2)) (Cert.Spec.mm (h2 m c) (m ((c : Thread nD τ).loc main_arg8))) := by
  show StableHlo.after hostOps5 (W8 m ρ c) (Proc.devRef .tc main_v92) = _
  after_results_simp
  rw [W8_v74_0, keep8 m ρ c main_v1 (by decide), keep8 m ρ c main_v3 (by decide), keep8 m ρ c main_v30 (by decide),
    keep7to4 m ρ c main_v1 (by decide) (by decide) (by decide), keep7to4 m ρ c main_v3 (by decide) (by decide) (by decide),
    keep7to4 m ρ c main_v30 (by decide) (by decide) (by decide),
    keep4to1 m ρ c main_v1 (by decide) (by decide) (by decide), keep4to1 m ρ c main_v3 (by decide) (by decide) (by decide),
    keep4to1 m ρ c main_v30 (by decide) (by decide) (by decide), W1_v1, W1_v3, W1_v30]
  rfl

theorem W10_v93 : W10 m ρ c (Proc.devRef .tc main_v93) = h3 m c := by
  refine (W10_arr m ρ c 3).trans ?_
  rw [final5_3 (V9 m ρ) c]
  show Cert.Spec.combine (W9 m ρ c (Proc.devRef .tc main_v92)) (W9 m ρ c (Proc.devRef .tc main_v74_1))
    (W9 m ρ c (Proc.devRef .tc main_arg9)) = _
  rw [W9_v92, keep9 m ρ c main_v74_1 (by decide), W8_v74_1,
    keep9 m ρ c main_arg9 (by decide), keep8 m ρ c main_arg9 (by decide),
    W7_arg m ρ c main_arg9 (by decide) (by decide) (by decide) (by decide) (by decide) (by decide) (by decide)]
  rfl

/-! ### The readout and the mean -/

theorem W11_arg (r : Ref sig .tc) (h0 : r ∉ outs0) (h2 : ∀ w, Pipeline.arrRef spec0 w ≠ r) (h3 : r ∉ outs1)
    (h4 : ∀ w, Pipeline.arrRef spec1 w ≠ r) (h5 : ∀ w, Pipeline.arrRef spec2 w ≠ r) (h6 : r ∉ outs3)
    (h7 : ∀ w, Pipeline.arrRef spec3 w ≠ r) (h8 : ∀ w, Pipeline.arrRef spec4 w ≠ r) (h9 : r ∉ outs5)
    (h10 : ∀ w, Pipeline.arrRef spec5 w ≠ r) (h11 : r ∉ outs6) :
    W11 m ρ c (Proc.devRef .tc r) = m ((c : Thread nD τ).loc r) :=
  (keep11 m ρ c r h11).trans ((keep10to7 m ρ c r h8 h9 h10).trans (W7_arg m ρ c r h0 h2 h3 h4 h5 h6 h7))

theorem W11_v94 : W11 m ρ c (Proc.devRef .tc main_v94) = bcol (m ((c : Thread nD τ).loc main_arg3)) := by
  show StableHlo.after hostOps6 (W10 m ρ c) (Proc.devRef .tc main_v94) = _
  after_results_simp
  rw [keep10to7 m ρ c main_arg3 (by decide) (by decide) (by decide),
    W7_arg m ρ c main_arg3 (by decide) (by decide) (by decide) (by decide) (by decide) (by decide) (by decide)]
  rfl

theorem W11_v93 : W11 m ρ c (Proc.devRef .tc main_v93) = h3 m c :=
  (keep11 m ρ c main_v93 (by decide)).trans (W10_v93 m ρ c)

theorem W12_v95_0 : W12 m ρ c (Proc.devRef .tc main_v95_0)
    = fun i => Cert.Spec.graphSum (Cert.Spec.readout (h3 m c) (m ((c : Thread nD τ).loc main_arg10)) (m ((c : Thread nD τ).loc main_arg11)) (m ((c : Thread nD τ).loc main_arg12)) (m ((c : Thread nD τ).loc main_arg13)))
        (bcol (m ((c : Thread nD τ).loc main_arg3))) (i 1) := by
  refine (W12_arr m ρ c 6).trans ((final6_6 (V11 m ρ) c).trans ?_)
  have e93 : V11 m ρ c main_v93 = h3 m c := W11_v93 m ρ c
  have e94 : V11 m ρ c main_v94 = bcol (m ((c : Thread nD τ).loc main_arg3)) := W11_v94 m ρ c
  have e10 : V11 m ρ c main_arg10 = m ((c : Thread nD τ).loc main_arg10) :=
    W11_arg m ρ c main_arg10 (by decide) (by decide) (by decide) (by decide) (by decide) (by decide) (by decide) (by decide) (by decide) (by decide) (by decide)
  have e11 : V11 m ρ c main_arg11 = m ((c : Thread nD τ).loc main_arg11) :=
    W11_arg m ρ c main_arg11 (by decide) (by decide) (by decide) (by decide) (by decide) (by decide) (by decide) (by decide) (by decide) (by decide) (by decide)
  have e12 : V11 m ρ c main_arg12 = m ((c : Thread nD τ).loc main_arg12) :=
    W11_arg m ρ c main_arg12 (by decide) (by decide) (by decide) (by decide) (by decide) (by decide) (by decide) (by decide) (by decide) (by decide) (by decide)
  have e13 : V11 m ρ c main_arg13 = m ((c : Thread nD τ).loc main_arg13) :=
    W11_arg m ρ c main_arg13 (by decide) (by decide) (by decide) (by decide) (by decide) (by decide) (by decide) (by decide) (by decide) (by decide) (by decide)
  rw [e93, e94, e10, e11, e12, e13]

theorem W12_v95_1 : W12 m ρ c (Proc.devRef .tc main_v95_1)
    = fun i => Cert.Spec.graphSum (fun _ => 1) (bcol (m ((c : Thread nD τ).loc main_arg3))) (i 1) := by
  refine (W12_arr m ρ c 7).trans ((final6_7 (V11 m ρ) c).trans ?_)
  have e94 : V11 m ρ c main_v94 = bcol (m ((c : Thread nD τ).loc main_arg3)) := W11_v94 m ρ c
  rw [e94]

/-- The result buffer at the last boundary: the mean of the two accumulators. -/
theorem W13_v99 : W13 m ρ c (Proc.devRef .tc main_v99)
    = meanOf (F := Ideal) (fun i => Cert.Spec.graphSum (Cert.Spec.readout (h3 m c) (m ((c : Thread nD τ).loc main_arg10)) (m ((c : Thread nD τ).loc main_arg11)) (m ((c : Thread nD τ).loc main_arg12)) (m ((c : Thread nD τ).loc main_arg13)))
        (bcol (m ((c : Thread nD τ).loc main_arg3))) (i 1))
      (fun i => Cert.Spec.graphSum (fun _ => 1) (bcol (m ((c : Thread nD τ).loc main_arg3))) (i 1)) := by
  show StableHlo.after hostOps7 (W12 m ρ c) (Proc.devRef .tc main_v99) = _
  after_results_simp
  rw [W12_v95_0, W12_v95_1]
  rfl

end Values

end Cert.KernelIdeal.KV

end
-- ==== Proof.KTail.lean ====
/-
  The final host operations of the kernel program: entry (g, 0) of the result is the g-th sum over max(the g-th
  count, 1); the two accumulators are rows of 256 entries and the result a column.
-/
import proofs.«418295_j74921409511934_1_alg».proof.Proof.Spec
import proofs.«418295_j74921409511934_1_alg».proof.Proof.KChain
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents a region is entered with
variable (V : (c : Dev nD) → (b : Ref sig .tc) → Buf (Elt Ideal) ((c : Thread nD τ).loc b))

/-- The mean per graph read at an entry: the sum's entry over max(the count's entry, 1). -/
theorem meanOf_apply (s cnt : FVec Ideal S1x256 .f32) (g : Fin 256) :
    meanOf (F := Ideal) s cnt (ix2 g (0 : Fin 1))
      = Ideal.div (s (ix2 (0 : Fin 1) g)) (max (cnt (ix2 (0 : Fin 1) g)) 1) := by
  unfold meanOf
  -- entry (g, 0) of the column is entry (0, g) of the row of quotients
  refine (transpose_ix2_apply _ transposes_S1x256_S256x1_1_0 g (0 : Fin 1)).trans ?_
  -- the quotient at an entry divides the sum's entry by max(the count's entry, the ones array's entry)
  show Ideal.div (s (ix2 (0 : Fin 1) g))
      (max (cnt (ix2 (0 : Fin 1) g))
        (broadcastInDim S1x256 ![] bcast_S_S1x256 (constant (F := Ideal) S_ .f32 0x3F800000#32) (ix2 (0 : Fin 1) g))) = _
  refine congrArg (fun x => Ideal.div (s (ix2 (0 : Fin 1) g)) (max (cnt (ix2 (0 : Fin 1) g)) x)) ?_
  -- the ones array reads the scalar everywhere, and the scalar's word is the extended real one
  exact (broadcastInDim_apply _ bcast_S_S1x256 _ (ix2 (0 : Fin 1) g) ix0 fun ax => ax.elim0).trans Ideal.ofBits_one_f32

end Cert.KernelIdeal.KV

end
-- ==== Proof.KValue.lean ====
/-
  The kernel program's run with its result: the specification's result over the kernel's own aggregation, degree column
  and graph-id column.
-/
import proofs.«418295_j74921409511934_1_alg».proof.Proof.KRun
import proofs.«418295_j74921409511934_1_alg».proof.Proof.KChain
import proofs.«418295_j74921409511934_1_alg».proof.Proof.KTail

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result of the kernel program as a function of its arguments. -/
def resultOf (c : Dev nD) : FVec Ideal S256x1 .f32 :=
  Cert.Spec.result (agg (F := Ideal) (m ((c : Thread nD τ).loc main_arg1)) (m ((c : Thread nD τ).loc main_arg2))) (dcol (F := Ideal) (m ((c : Thread nD τ).loc main_arg1)) (m ((c : Thread nD τ).loc main_arg2)))
        (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
        (bcol (m ((c : Thread nD τ).loc main_arg3)))

/-- The result buffer at the last boundary is that function: entry (g, 0) is the mean over graph g of the readouts of the
    third layer's output. -/
theorem W13_result (c : Dev nD) : W13 m ρ c (Proc.devRef .tc main_v99) = resultOf m c := by
  rw [W13_v99]
  funext i
  obtain ⟨g, z, rfl⟩ : ∃ (g : Fin 256) (z : Fin 1), i = ix2 g z := ⟨i 0, i 1, eq_ix2 i⟩
  obtain rfl : z = 0 := Subsingleton.elim _ _
  rw [meanOf_apply]
  rfl

/-- Every weakly fair execution of the kernel program terminates without a fault, the result at that function of the
    arguments and the arguments unchanged. -/
theorem run : θ_run defs (onTc (τ := τ) (main (F := Ideal))) ⟨m, fun _ => 0, ρ⟩ (fun r => ∀ c : Dev nD,
      r.2.mem ((c.tc : Thread nD τ).loc main_v99) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W13_result m ρ c), (h c).2⟩) (Cert.KernelIdeal.KRun.run_main m ρ)

end Cert.KernelIdeal.KV

end
-- ==== Proof.RDefs.lean ====
/-
  The reference program's result term, folded into named pieces: the graph quantities (degrees, edge normalisation,
  neighbour aggregation), one layer, and the readout with the mean per graph.
-/
import proofs.«418295_j74921409511934_1_alg».proof.Proof.Gen.ReferenceIdeal.Run
import proofs.«418295_j74921409511934_1_alg».proof.Proof.Spec

set_option maxRecDepth 16384

noncomputable section

namespace Cert.ReferenceIdeal.RV

open Cert.ReferenceIdeal Cert.ReferenceIdeal.Gen Idealize.ShloMosaic Idealize.ShloMosaic.TcCoe Idealize.SL.Sem

variable {F : FTy → Type} [FloatOps F]

/-- The edge list's second row: the destination node of each edge. -/
def dstRow (ei : IVec S2x1600000 32) : IVec S1600000 32 :=
  shapeCast _ (extractStridedSlice S1x1600000 ![1, 0] ei slices_S2x1600000_S1x1600000_1_0) shapeCasts_S1x1600000_S1600000

/-- The edge list's first row: the source node of each edge. -/
def srcRow (ei : IVec S2x1600000 32) : IVec S1600000 32 :=
  shapeCast _ (extractStridedSlice S1x1600000 ![0, 0] ei slices_S2x1600000_S1x1600000_0_0) shapeCasts_S1x1600000_S1600000

/-- A node index with a negative value counted from the end. -/
def wrapIdx (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- Each node's degree: one plus the sum of the weights of the edges that end at it. -/
def deg (ei : IVec S2x1600000 32) (ew : FVec F S1600000 .f32) : FVec F S100000 .f32 :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 (wrapIdx (dstRow ei))) ew)
    (broadcastInDim S100000 ![] bcast_S_S100000 (constant S_ .f32 0x3F800000#32))

/-- Each edge's normalisation: its weight times the inverse square roots of its two end nodes' degrees. -/
def norm (ei : IVec S2x1600000 32) (ew : FVec F S1600000 .f32) : FVec F S1600000 .f32 :=
  mulf (mulf (Host.gather gather_S100000_S1600000x1_S1600000_n_0_n_n_0_1_1 (Host.rsqrt (deg ei ew))
        (broadcastInDim S1600000x1 ![0] bcast_S1600000_S1600000x1_0 (wrapIdx (srcRow ei)))) ew)
    (Host.gather gather_S100000_S1600000x1_S1600000_n_0_n_n_0_1_1 (Host.rsqrt (deg ei ew))
      (broadcastInDim S1600000x1 ![0] bcast_S1600000_S1600000x1_0 (wrapIdx (dstRow ei))))

/-- The neighbour aggregation with a given per-edge factor: each edge takes its source node's row, scales it, and adds it
    into its destination node's row. -/
def aggWith (ei : IVec S2x1600000 32) (nrm : FVec F S1600000 .f32) (xw : FVec F S100000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (wrapIdx (dstRow ei)))
    (mulf (Host.gather gather_S100000x64_S1600000x1_S1600000x64_1_0_n_n_0_1_164 xw
        (broadcastInDim S1600000x1 ![0] bcast_S1600000_S1600000x1_0 (wrapIdx (srcRow ei))))
      (broadcastInDim S1600000x64 ![0, 1] bcast_S1600000x1_S1600000x64_0_1
        (broadcastInDim S1600000x1 ![0] bcast_S1600000_S1600000x1_0 nrm)))

/-- The neighbour aggregation. -/
def agg (ei : IVec S2x1600000 32) (ew : FVec F S1600000 .f32) (xw : FVec F S100000x64 .f32) : FVec F S100000x64 .f32 :=
  aggWith ei (norm ei ew) xw

/-- The reciprocal of each node's degree. -/
def rdeg (ei : IVec S2x1600000 32) (ew : FVec F S1600000 .f32) : FVec F S100000 .f32 :=
  Host.divf (broadcastInDim S100000 ![] bcast_S_S100000 (constant S_ .f32 0x3F800000#32)) (deg ei ew)

/-- The reciprocal degrees as a column. -/
def dcol (ei : IVec S2x1600000 32) (ew : FVec F S1600000 .f32) : FVec F S100000x1 .f32 :=
  broadcastInDim S100000x1 ![0] bcast_S100000_S100000x1_0 (rdeg ei ew)

/-- One layer before the activation: aggregate + product scaled by the reciprocal degree + bias. -/
def refLayer (ei : IVec S2x1600000 32) (ew : FVec F S1600000 .f32) (x : FVec F S100000x64 .f32) (w : FVec F S64x64 .f32)
    (b : FVec F S64 .f32) : FVec F S100000x64 .f32 :=
  addf (addf (agg ei ew (Host.dotGeneral dot_S100000x64_S64x64_S100000x64_1_0_0_1_n_n none x w))
      (mulf (Host.dotGeneral dot_S100000x64_S64x64_S100000x64_1_0_0_1_n_n none x w)
        (broadcastInDim S100000x64 ![0, 1] bcast_S100000x1_S100000x64_0_1 (dcol ei ew))))
    (broadcastInDim S100000x64 ![0, 1] bcast_S1x64_S100000x64_0_1 (broadcastInDim S1x64 ![1] bcast_S64_S1x64_1 b))

/-- max(·, 0) on node rows. -/
def refRelu (x : FVec F S100000x64 .f32) : FVec F S100000x64 .f32 :=
  maximumf x (broadcastInDim S100000x64 ![] bcast_S_S100000x64 (constant S_ .f32 0x00000000#32))

/-- The graph ids as a column. -/
def bcol (bt : IVec S100000 32) : IVec S100000x1 32 :=
  broadcastInDim S100000x1 ![0] bcast_S100000_S100000x1_0 bt

/-- The readout of every node, as a column. -/
def refReadout (h : FVec F S100000x64 .f32) (wr0 : FVec F S64x32 .f32) (br0 : FVec F S32 .f32) (wr1 : FVec F S32x1 .f32)
    (br1 : FVec F S1 .f32) : FVec F S100000x1 .f32 :=
  addf (Host.dotGeneral dot_S100000x32_S32x1_S100000x1_1_0_0_1_n_n none
      (maximumf (addf (Host.dotGeneral dot_S100000x64_S64x32_S100000x32_1_0_0_1_n_n none h wr0)
          (broadcastInDim S100000x32 ![0, 1] bcast_S1x32_S100000x32_0_1 (broadcastInDim S1x32 ![1] bcast_S32_S1x32_1 br0)))
        (broadcastInDim S100000x32 ![] bcast_S_S100000x32 (constant S_ .f32 0x00000000#32))) wr1)
    (broadcastInDim S100000x1 ![0, 1] bcast_S1x1_S100000x1_0_1 (broadcastInDim S1x1 ![1] bcast_S1_S1x1_1 br1))

/-- The mean per graph of a column of node values. -/
def refMean (v : FVec F S100000x1 .f32) (bt : IVec S100000 32) : FVec F S256x1 .f32 :=
  Host.divf (Host.scatterAdd scatter_S256x1_S100000x1_S100000x1_1_0_0_1
      (broadcastInDim S256x1 ![] bcast_S_S256x1 (constant S_ .f32 0x00000000#32)) (bcol bt) v)
    (maximumf (Host.scatterAdd scatter_S256x1_S100000x1_S100000x1_1_0_0_1
        (broadcastInDim S256x1 ![] bcast_S_S256x1 (constant S_ .f32 0x00000000#32)) (bcol bt)
        (broadcastInDim S100000x1 ![] bcast_S_S100000x1 (constant S_ .f32 0x3F800000#32)))
      (broadcastInDim S256x1 ![] bcast_S_S256x1 (constant S_ .f32 0x3F800000#32)))

/-- The reference's result term is the three layers, the readout and the mean. -/
theorem res_eq (m : (ℓ : Loc nD τ sig) → Buf (Elt F) ℓ) (c : Dev nD) :
    Cert.ReferenceIdeal.Value.res_main_v189 (F := F) m c
      = refMean (refReadout
          (refLayer (m ((c.tc : Thread nD τ).loc main_arg1)) (m ((c.tc : Thread nD τ).loc main_arg2))
            (refRelu (refLayer (m ((c.tc : Thread nD τ).loc main_arg1)) (m ((c.tc : Thread nD τ).loc main_arg2))
              (refRelu (refLayer (m ((c.tc : Thread nD τ).loc main_arg1)) (m ((c.tc : Thread nD τ).loc main_arg2))
                (m ((c.tc : Thread nD τ).loc main_arg0)) (m ((c.tc : Thread nD τ).loc main_arg4)) (m ((c.tc : Thread nD τ).loc main_arg5))))
              (m ((c.tc : Thread nD τ).loc main_arg6)) (m ((c.tc : Thread nD τ).loc main_arg7))))
            (m ((c.tc : Thread nD τ).loc main_arg8)) (m ((c.tc : Thread nD τ).loc main_arg9)))
          (m ((c.tc : Thread nD τ).loc main_arg10)) (m ((c.tc : Thread nD τ).loc main_arg11))
          (m ((c.tc : Thread nD τ).loc main_arg12)) (m ((c.tc : Thread nD τ).loc main_arg13)))
        (m ((c.tc : Thread nD τ).loc main_arg3)) := by
  rfl

end Cert.ReferenceIdeal.RV

end
-- ==== Proof.LibHostRows.lean ====
/-
  Host layout operations and the host's row sum read at an index, for arrays of rows: a vector made a column, a
  scalar broadcast anywhere, a column broadcast along the rows, a vector made a row, a row broadcast down the
  rows, and the sum of a matrix's rows. Stated for any extents.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibHostRows

open Idealize.ShloMosaic Idealize.ShloMosaic.ValueIdx

/-- The host's sum over the second axis of an `a × b` array, read at row `r`: the initial value plus the sum of
    the row. -/
theorem hostReduceAdd_rows_apply {a b : ℕ} {φ : FTy} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (r : Fin a) :
    Host.reduceAdd x init h hu (ix1 r) = init ix0 + ∑ k : Fin b, x (ix2 r k) := by
  have hR : (⟨2, ![a, b]⟩ : Shape).Reduces [1] ⟨1, ![a]⟩ := ⟨h.1, Nat.one_pos, h.2⟩
  have e0 : Shape.Idx.first hu = ix0 := eq_ix0 _
  unfold Host.reduceAdd
  rw [Ideal.hostReduceAdd_def, Ideal.hostReduceAdd_single h hR, e0]
  refine congrArg (fun z => init ix0 + z) (Finset.sum_congr rfl fun k _ => congrArg x ?_)
  funext c
  match c with
  | ⟨0, _⟩ => rfl
  | ⟨1, _⟩ => rfl

/-- A vector of length `a` broadcast to an `a × 1` column reads its own entry. -/
theorem broadcastInDim_vec_col_apply {a : ℕ} {α : Type} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ ![0] h v (ix2 r z) = v (ix1 r) := by
  refine broadcastInDim_apply _ h v (ix2 r z) (ix1 r) fun ax => ?_
  match ax with
  | ⟨0, _⟩ =>
    show r.val = if a = 1 then 0 else r.val
    split
    · have := r.isLt; omega
    · rfl

/-- A scalar broadcast to any shape reads the scalar. -/
theorem broadcastInDim_scalar_apply {t : Shape} {α : Type} (v : (⟨0, ![]⟩ : Shape).Idx → α)
    (h : (⟨0, ![]⟩ : Shape).BroadcastsInDim t (![] : Fin 0 → Fin t.rank)) (j : t.Idx) :
    broadcastInDim t ![] h v j = v ix0 := by
  exact broadcastInDim_apply _ h v j ix0 fun ax => ax.elim0

/-- An `a × 1` column broadcast to `a × b` reads the column's entry of the row. -/
theorem broadcastInDim_col_apply {a b : ℕ} {α : Type} (v : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- A vector of length `b` broadcast to a `1 × b` row reads its own entry. -/
theorem broadcastInDim_vec_row_apply {b : ℕ} {α : Type} (v : (⟨1, ![b]⟩ : Shape).Idx → α)
    (h : (⟨1, ![b]⟩ : Shape).BroadcastsInDim ⟨2, ![1, b]⟩ (![1] : Fin 1 → Fin 2)) (z : Fin 1) (k : Fin b) :
    broadcastInDim ⟨2, ![1, b]⟩ ![1] h v (ix2 z k) = v (ix1 k) := by
  refine broadcastInDim_apply _ h v (ix2 z k) (ix1 k) fun ax => ?_
  match ax with
  | ⟨0, _⟩ =>
    show k.val = if b = 1 then 0 else k.val
    split
    · have := k.isLt; omega
    · rfl

/-- A `1 × b` row broadcast to `a × b` reads the row's entry of the column. -/
theorem broadcastInDim_row_apply {a b : ℕ} {α : Type} (v : (⟨2, ![1, b]⟩ : Shape).Idx → α)
    (h : (⟨2, ![1, b]⟩ : Shape).BroadcastsInDim ⟨2, ![a, b]⟩ (![0, 1] : Fin 2 → Fin 2)) (r : Fin a) (k : Fin b) :
    broadcastInDim ⟨2, ![a, b]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if b = 1 then 0 else k.val
    split
    · have := k.isLt; omega
    · rfl

end Cert.LibHostRows

end
-- ==== Proof.RLayers.lean ====
/-
  One layer of the reference, entry by entry: the host's matrix product is the sum over the contracted axis, the two
  broadcasts of the reciprocal-degree column read the node's entry, the two broadcasts of the bias read the feature's
  entry; and max against a zero array is max(·, 0).
-/
import proofs.«418295_j74921409511934_1_alg».proof.Proof.RDefs
import proofs.«418295_j74921409511934_1_alg».proof.Proof.Gen.ReferenceIdeal.Read
import proofs.«418295_j74921409511934_1_alg».proof.Proof.Spec
import proofs.«418295_j74921409511934_1_alg».proof.Proof.LibHostRows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RV

open Cert.ReferenceIdeal Cert.ReferenceIdeal.Gen Idealize.ShloMosaic Idealize.ShloMosaic.TcCoe Idealize.ShloMosaic.ValueIdx Idealize.SL.Sem

/-- Aggregate, plus the product scaled by the degree column, plus the bias, entry by entry at node p and feature q: the
    column broadcast along the rows reads the column's entry of node p; the bias made a row and then broadcast down the
    rows reads the bias's entry of feature q. What is left is (a + m · d p) + b q on both sides. -/
private theorem layer_at (a m : FVec Ideal S100000x64 .f32) (d : FVec Ideal S100000x1 .f32) (b : FVec Ideal S64 .f32) :
    addf (addf a (mulf m (broadcastInDim S100000x64 ![0, 1] bcast_S100000x1_S100000x64_0_1 d)))
        (broadcastInDim S100000x64 ![0, 1] bcast_S1x64_S100000x64_0_1 (broadcastInDim S1x64 ![1] bcast_S64_S1x64_1 b))
      = Cert.Spec.combine a (Cert.Spec.selfLoop m d) b := by
  funext i
  obtain ⟨p, q, rfl⟩ : ∃ (p : Fin 100000) (q : Fin 64), i = ix2 p q := ⟨i 0, i 1, eq_ix2 i⟩
  rw [addf_apply, addf_apply, mulf_apply, Cert.LibHostRows.broadcastInDim_col_apply,
    Cert.LibHostRows.broadcastInDim_row_apply, Cert.LibHostRows.broadcastInDim_vec_row_apply]
  rfl

/-- The host's product of the node rows with a 64 × 64 weight matrix is the sum over the 64 inner positions. -/
theorem dot64_eq_mm (x : FVec Ideal S100000x64 .f32) (w : FVec Ideal S64x64 .f32) :
    Host.dotGeneral dot_S100000x64_S64x64_S100000x64_1_0_0_1_n_n none x w = Cert.Spec.mm x w := by
  funext i
  -- the product at entry i is the sum over the inner position k of left (row of i, k) times right (k, column of i)
  refine (Cert.ReferenceIdeal.Read.val_main_v4_apply x w i).trans ?_
  unfold Cert.Spec.mm
  refine Finset.sum_congr rfl fun k _ => ?_
  -- the left operand is read at (i 0, k) and the right operand at (k, i 1): coordinate by coordinate
  have el : Cert.ReferenceIdeal.Read.lidx_main_v4 i k = ix2 (i 0) k :=
    funext fun a => Fin.ext (by match a with | ⟨0, _⟩ => rfl | ⟨1, _⟩ => rfl)
  have er : Cert.ReferenceIdeal.Read.ridx_main_v4 i k = ix2 k (i 1) :=
    funext fun a => Fin.ext (by match a with | ⟨0, _⟩ => rfl | ⟨1, _⟩ => rfl)
  exact congrArg₂ (fun a b => x a * w b) el er

/-- max against the zero array is max(·, 0). -/
theorem refRelu_eq (x : FVec Ideal S100000x64 .f32) : refRelu (F := Ideal) x = Cert.Spec.relu x := by
  funext i
  unfold refRelu
  -- the second operand is the scalar of the zero word broadcast everywhere, and the zero word is the extended real 0
  rw [maximumf_apply, Cert.LibHostRows.broadcastInDim_scalar_apply, constant_apply, Ideal.ofBits_zero_f32]
  rfl

/-- One layer of the reference is the specification's layer over the reference's aggregation and degree column. -/
theorem refLayer_eq (ei : IVec S2x1600000 32) (ew : FVec Ideal S1600000 .f32) (x : FVec Ideal S100000x64 .f32)
    (w : FVec Ideal S64x64 .f32) (b : FVec Ideal S64 .f32) :
    refLayer (F := Ideal) ei ew x w b = Cert.Spec.layer (agg (F := Ideal) ei ew) (dcol (F := Ideal) ei ew) x w b := by
  unfold refLayer Cert.Spec.layer
  -- both occurrences of the host's product become the specification's product; the aggregation of it stays one
  -- unopened array, and the rest is the entrywise identity above
  rw [dot64_eq_mm]
  exact layer_at (agg (F := Ideal) ei ew (Cert.Spec.mm x w)) (Cert.Spec.mm x w) (dcol (F := Ideal) ei ew) b

end Cert.ReferenceIdeal.RV

end
-- ==== Proof.LibRowScatter.lean ====
/-
  Rows scattered and gathered on the host, read at an index, at the ideal instance (floats are extended reals);
  and three facts about finite sums of extended reals and re-indexed sums.

  • A scatter-add of ROWS: operand [N, C], one index word per update row ([E, 1]), updates [E, C]. Element (n, f)
    of the result is the operand's plus the sum over the update rows e whose index word, read signed, is n, of
    update element (e, f).
    Likewise for a vector operand [N] and updates [E].
  • A gather of ROWS: operand [N, C] (or [N]), one index word per result row. Result element (e, f) is the operand's
    at the row the index word names, read signed and clamped into [0, N − 1].
  • A nonnegative real factor goes through a finite sum of extended reals; a three-level block sum is the flat sum;
    a sum over a + b terms splits.
-/
import Mathlib.Data.EReal.Operations
import Mathlib.Algebra.BigOperators.Fin
import Mathlib.Algebra.BigOperators.Group.Finset.Basic
import Mathlib.Logic.Equiv.Fin.Basic
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.RowScatter

open Idealize.ShloMosaic Idealize.ShloMosaic.ValueIdx

/-- The shape of an a × b matrix. -/
abbrev S2 (a b : ℕ) : Shape := ⟨2, ![a, b]⟩
/-- The shape of a vector of length a. -/
abbrev S1 (a : ℕ) : Shape := ⟨1, ![a]⟩

/-! ## Finite sums of extended reals -/

/-- Multiplication by a nonnegative REAL distributes over a finite sum of extended reals. (Multiplication of extended
    reals does not distribute over addition in general: ⊤ · (1 + (−1)) = 0 but ⊤ · 1 + ⊤ · (−1) = ⊥.) -/
theorem coe_nonneg_mul_sum {ι : Type*} (s : Finset ι) (r : ℝ) (hr : 0 ≤ r) (g : ι → EReal) :
    (r : EReal) * ∑ i ∈ s, g i = ∑ i ∈ s, (r : EReal) * g i := by
  classical
  refine Finset.induction_on s ?_ ?_
  · simp
  · intro a s ha ih
    rw [Finset.sum_insert ha, Finset.sum_insert ha,
      EReal.left_distrib_of_nonneg_of_ne_top (EReal.coe_nonneg.mpr hr) (EReal.coe_ne_top r), ih]

/-- A factor that is a nonnegative real goes through a sum of selected terms: if it takes each selected a e to b e, it
    takes 0 + Σ (selected a) to 0 + Σ (selected b). -/
theorem scale_through_sum {E : ℕ} (dn : EReal) (r : ℝ) (hr : 0 ≤ r) (hd : dn = (r : EReal)) (cond : Fin E → Prop)
    [DecidablePred cond] (a b : Fin E → EReal) (h : ∀ e, cond e → dn * a e = b e) :
    dn * (0 + ∑ e : Fin E, if cond e then a e else 0) = 0 + ∑ e : Fin E, if cond e then b e else 0 := by
  rw [zero_add, zero_add, hd, coe_nonneg_mul_sum _ r hr]
  refine Finset.sum_congr rfl fun e _ => ?_
  by_cases hc : cond e
  · rw [if_pos hc, if_pos hc, ← hd, h e hc]
  · rw [if_neg hc, if_neg hc, mul_zero]

/-! ## Re-indexed sums -/

section Reindex
variable {M : Type*} [AddCommMonoid M]

/-- A sum over A blocks of B sub-blocks of C terms, the term at position (B·c + s)·C + n, is the sum over the
    A·B·C positions. -/
theorem sum_blocks (A B C : ℕ) (g : ℕ → M) :
    ∑ c : Fin A, ∑ s : Fin B, ∑ n : Fin C, g ((B * c.val + s.val) * C + n.val) = ∑ N : Fin (A * B * C), g N.val := by
  rw [← Equiv.sum_comp (finProdFinEquiv (m := A * B) (n := C)) (fun N => g N.val), Fintype.sum_prod_type,
    ← Equiv.sum_comp (finProdFinEquiv (m := A) (n := B)), Fintype.sum_prod_type]
  refine Finset.sum_congr rfl fun c _ => Finset.sum_congr rfl fun s _ => Finset.sum_congr rfl fun n _ => ?_
  congr 1
  simp only [finProdFinEquiv_apply_val]
  ring

/-- A sum over a + b positions is the sum over the first a plus the sum over the last b. -/
theorem sum_split (a b : ℕ) (g : ℕ → M) :
    ∑ N : Fin (a + b), g N.val = ∑ N : Fin a, g N.val + ∑ N : Fin b, g (a + N.val) := by
  rw [Fin.sum_univ_add]
  simp only [Fin.val_castAdd, Fin.val_natAdd]

end Reindex

/-! ## A gather of rows, read at an index

On each operand axis the index read is the clamped start plus the batching coordinate plus the offset coordinate. Here
there are no batching axes; the row axis is collapsed (offset 0) and its start is the index word; the column axis has
start 0 and its offset is the result's column. -/

section Gather
variable {α : Type}

/-- A GATHER OF ROWS, read at (e, f): operand [N, C], one index word per result row, whole rows taken
    (slice sizes [1, C], the row axis collapsed). The result's (e, f) is the operand's at row idx[e, 0] — read signed
    and clamped into [0, N − 1] — and column f. -/
theorem gather_rows_apply {N E C : ℕ} (hN : 0 < N) (d : GatherDims (S2 N C) (S2 E 1) (S2 E C))
    (ho : d.offsetDims = [1]) (hc : d.collapsedSliceDims = [0]) (hob : d.operandBatchingDims = [])
    (hsb : d.startIndicesBatchingDims = []) (hm : d.startIndexMap = [0]) (hv : d.indexVectorDim = 1)
    (hsz : d.sliceSizes = ![1, C]) (x : (S2 N C).Idx → α) (idx : IVec (S2 E 1) 32) (e : Fin E) (f : Fin C) :
    Host.gather d x idx (ix2 e f) = x (ix2 ⟨min (idx (ix2 e 0)).toInt.toNat (N - 1), by omega⟩ f) := by
  obtain ⟨od, cd, ob, sb, sm, iv, ss, wf⟩ := d
  simp only at ho hc hob hsb hm hv hsz
  subst ho hc hob hsb hm hv hsz
  unfold Host.gather
  congr 1
  funext a
  refine Fin.ext ?_
  match a with
  | ⟨0, _⟩ =>
    show GatherDims.start _ (ix2 e f) idx 0 + GatherDims.batchCoord _ (ix2 e f) 0 + GatherDims.offCoord _ (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ c, GatherDims.siIdx (s := S2 N C) (si := S2 E 1) (t := S2 E C) ⟨[1], [0], [], [], [0], 1, ![1, C], wf⟩ (ix2 e f) c = ix2 e 0 := by
      intro c
      funext b; refine Fin.ext ?_
      match b with
      | ⟨0, _⟩ => rfl
      | ⟨1, _⟩ =>
        have hc1 : c.val < 1 := c.isLt
        show c.val = 0
        omega
    rw [hsi]
    rfl
  | ⟨1, _⟩ =>
    show GatherDims.start _ (ix2 e f) idx 1 + GatherDims.batchCoord _ (ix2 e f) 1 + GatherDims.offCoord _ (ix2 e f) 1 = _
    rw [GatherDims.batchCoord_eq_zero _ _ _ List.not_mem_nil]
    unfold GatherDims.start
    rw [dif_neg (show (1 : Fin 2) ∉ [(0 : Fin 2)] by decide)]
    unfold GatherDims.offCoord
    rw [dif_pos ((GatherDims.mem_sKept _ _).mpr ⟨show (1 : Fin 2) ∉ [(0 : Fin 2)] by decide, List.not_mem_nil⟩)]
    simp only [Nat.zero_add]
    rfl

/-- A GATHER OF ELEMENTS of a vector, read at e: operand [N], one index word per result element. The result's e is
    the operand's at idx[e, 0], read signed and clamped into [0, N − 1]. -/
theorem gather_elems_apply {N E : ℕ} (hN : 0 < N) (d : GatherDims (S1 N) (S2 E 1) (S1 E))
    (ho : d.offsetDims = []) (hc : d.collapsedSliceDims = [0]) (hob : d.operandBatchingDims = [])
    (hsb : d.startIndicesBatchingDims = []) (hm : d.startIndexMap = [0]) (hv : d.indexVectorDim = 1)
    (hsz : d.sliceSizes = ![1]) (x : (S1 N).Idx → α) (idx : IVec (S2 E 1) 32) (e : Fin E) :
    Host.gather d x idx (ix1 e) = x (ix1 ⟨min (idx (ix2 e 0)).toInt.toNat (N - 1), by omega⟩) := by
  obtain ⟨od, cd, ob, sb, sm, iv, ss, wf⟩ := d
  simp only at ho hc hob hsb hm hv hsz
  subst ho hc hob hsb hm hv hsz
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ c, GatherDims.siIdx (s := S1 N) (si := S2 E 1) (t := S1 E) ⟨[], [0], [], [], [0], 1, ![1], wf⟩ (ix1 e) c = ix2 e 0 := by
      intro c
      funext b; refine Fin.ext ?_
      match b with
      | ⟨0, _⟩ => rfl
      | ⟨1, _⟩ =>
        have hc1 : c.val < 1 := c.isLt
        show c.val = 0
        omega
    rw [hsi]
    rfl

end Gather

/-! ## A scatter-add of rows, read at an index

The result at an operand index is the operand's element plus the sum of the updates that land there. An update index
(e, f') has, on the row axis, start = the index word of row e read signed and window coordinate 0 (the axis is
inserted); on the column axis, start 0 and window coordinate f'. The sum over the updates landing on (n, f), written
over all (e, f') with an indicator, is a double sum whose inner sum over f' keeps the one term f' = f. -/

section Scatter

/-- An update index lands on operand index i exactly when, on every operand axis, the window's start (the index word
    read signed, or 0) plus the window coordinate is i's coordinate — as integers: a landing point outside the
    operand on some axis is no operand index, and the update is dropped. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro he a
      have h1 := h a
      rw [← he]
      show _ = ((d.start j idx a + (d.window j a : ℤ)).toNat : ℤ)
      omega
    · intro he
      funext a
      refine Fin.ext ?_
      have h1 := h a
      have h2 := he a
      show (d.start j idx a + (d.window j a : ℤ)).toNat = (i a).val
      omega
  · rename_i h
    constructor
    · intro he
      cases he
    · intro he
      exfalso
      apply h
      intro a
      have h2 := he a
      have h3 := (i a).isLt
      omega

/-- A SCATTER-ADD OF ROWS, read at (n, f): operand [N, C], one index word per update row, updates [E, C]. Update
    element (e, f') lands on (n, f) exactly when the index word of row e, read signed, is n, and f' = f. So the
    result's (n, f) is the operand's plus the sum, over the update rows e whose index word is n, of update (e, f). -/
theorem scatterAdd_rows_apply {N E C : ℕ} (d : ScatterDims (S2 N C) (S2 E 1) (S2 E C))
    (hu : d.updateWindowDims = [1]) (hi : d.insertedWindowDims = [0]) (hs : d.scatterDimsToOperandDims = [0])
    (hv : d.indexVectorDim = 1) (x : (S2 N C).Idx → EReal) (idx : IVec (S2 E 1) 32) (upd : (S2 E C).Idx → EReal)
    (n : Fin N) (f : Fin C) :
    Host.scatterAdd (F := Ideal) (φ := .f32) d x idx upd (ix2 n f) =
      x (ix2 n f) + ∑ e : Fin E, if (idx (ix2 e 0)).toInt = (n.val : ℤ) then upd (ix2 e f) else 0 := by
  obtain ⟨uw, iw, sd, iv, wf⟩ := d
  simp only at hu hi hs hv
  subst hu hi hs hv
  show Ideal.hostScatterAdd _ x idx upd (ix2 n f) = _
  unfold Ideal.hostScatterAdd
  congr 1
  rw [Finset.sum_filter, sum_idx2]
  refine Finset.sum_congr rfl fun e _ => ?_
  have hs0 : ∀ f' : Fin C, ScatterDims.start (s := S2 N C) (si := S2 E 1) (u := S2 E C) ⟨[1], [0], [0], 1, wf⟩ (ix2 e f') idx 0
      = (idx (ix2 e 0)).toInt := by
    intro f'
    unfold ScatterDims.start
    rw [dif_pos (List.mem_singleton.mpr rfl)]
    have hsi : ∀ c, ScatterDims.siIdx (s := S2 N C) (si := S2 E 1) (u := S2 E C) ⟨[1], [0], [0], 1, wf⟩ (ix2 e f') c = ix2 e 0 := by
      intro c
      funext b; refine Fin.ext ?_
      match b with
      | ⟨0, _⟩ => rfl
      | ⟨1, _⟩ =>
        have hc1 : c.val < 1 := c.isLt
        show c.val = 0
        omega
    rw [hsi]
  have hs1 : ∀ f' : Fin C, ScatterDims.start (s := S2 N C) (si := S2 E 1) (u := S2 E C) ⟨[1], [0], [0], 1, wf⟩ (ix2 e f') idx 1 = 0 := by
    intro f'
    unfold ScatterDims.start
    rw [dif_neg (show (1 : Fin 2) ∉ [(0 : Fin 2)] by decide)]
  have hw0 : ∀ f' : Fin C, ScatterDims.window (s := S2 N C) (si := S2 E 1) (u := S2 E C) ⟨[1], [0], [0], 1, wf⟩ (ix2 e f') 0 = 0 := by
    intro f'
    unfold ScatterDims.window
    split
    · rename_i ha
      exact absurd ha (show (0 : Fin 2) ∉ (List.finRange 2).filter (fun a : Fin 2 => a ∉ [(0 : Fin 2)]) by decide)
    · rfl
  have hw1 : ∀ f' : Fin C, ScatterDims.window (s := S2 N C) (si := S2 E 1) (u := S2 E C) ⟨[1], [0], [0], 1, wf⟩ (ix2 e f') 1 = f'.val := by
    intro f'
    unfold ScatterDims.window
    split
    · rfl
    · rename_i ha
      exact absurd (show (1 : Fin 2) ∈ (List.finRange 2).filter (fun a : Fin 2 => a ∉ [(0 : Fin 2)]) by decide) ha
  have key : ∀ f' : Fin C, (ScatterDims.resultIdx? (s := S2 N C) (si := S2 E 1) (u := S2 E C) ⟨[1], [0], [0], 1, wf⟩ (ix2 e f') idx = some (ix2 n f))
      ↔ ((idx (ix2 e 0)).toInt = (n.val : ℤ) ∧ f' = f) := by
    intro f'
    rw [resultIdx?_eq_some_iff]
    constructor
    · intro h
      have h0 : (idx (ix2 e 0)).toInt + ((0 : ℕ) : ℤ) = (n.val : ℤ) := by
        have := h 0; rw [hs0, hw0] at this; exact this
      have h1 : (0 : ℤ) + ((f'.val : ℕ) : ℤ) = (f.val : ℤ) := by
        have := h 1; rw [hs1, hw1] at this; exact this
      exact ⟨by omega, Fin.ext (by omega)⟩
    · rintro ⟨h0, hf⟩ a
      match a with
      | ⟨0, _⟩ =>
        show ScatterDims.start _ _ idx 0 + ((ScatterDims.window _ _ 0 : ℕ) : ℤ) = (n.val : ℤ)
        rw [hs0, hw0, h0]; simp
      | ⟨1, _⟩ =>
        show ScatterDims.start _ _ idx 1 + ((ScatterDims.window _ _ 1 : ℕ) : ℤ) = (f.val : ℤ)
        rw [hs1, hw1, hf]; simp
  simp only [key]
  by_cases hP : (idx (ix2 e 0)).toInt = (n.val : ℤ)
  · simp only [hP, true_and, if_true]
    rw [Finset.sum_ite_eq' Finset.univ f (fun b => upd (ix2 e b))]
    simp
  · simp only [hP, false_and, if_false]
    exact Finset.sum_const_zero

/-- A SCATTER-ADD OF ELEMENTS into a vector, read at n: operand [N], one index word per update element, updates [E].
    Update element e lands on n exactly when its index word, read signed, is n. So the result's n is the operand's
    plus the sum of the updates whose index word is n. -/
theorem scatterAdd_elems_apply {N E : ℕ} (d : ScatterDims (S1 N) (S2 E 1) (S1 E))
    (hu : d.updateWindowDims = []) (hi : d.insertedWindowDims = [0]) (hs : d.scatterDimsToOperandDims = [0])
    (hv : d.indexVectorDim = 1) (x : (S1 N).Idx → EReal) (idx : IVec (S2 E 1) 32) (upd : (S1 E).Idx → EReal)
    (n : Fin N) :
    Host.scatterAdd (F := Ideal) (φ := .f32) d x idx upd (ix1 n) =
      x (ix1 n) + ∑ e : Fin E, if (idx (ix2 e 0)).toInt = (n.val : ℤ) then upd (ix1 e) else 0 := by
  obtain ⟨uw, iw, sd, iv, wf⟩ := d
  simp only at hu hi hs hv
  subst hu hi hs hv
  show Ideal.hostScatterAdd _ x idx upd (ix1 n) = _
  unfold Ideal.hostScatterAdd
  congr 1
  have hsum : ∀ g : (S1 E).Idx → EReal, ∑ j, g j = ∑ e : Fin E, g (ix1 e) := by
    intro g
    refine (Fintype.sum_equiv ⟨fun e : Fin E => (ix1 e : (S1 E).Idx), fun j => j 0, fun _ => rfl, fun j => (eq_ix1 j).symm⟩ _ _ fun _ => rfl).symm
  rw [Finset.sum_filter, hsum]
  refine Finset.sum_congr rfl fun e _ => ?_
  have hs0 : ScatterDims.start (s := S1 N) (si := S2 E 1) (u := S1 E) ⟨[], [0], [0], 1, wf⟩ (ix1 e) idx 0
      = (idx (ix2 e 0)).toInt := by
    unfold ScatterDims.start
    rw [dif_pos (List.mem_singleton.mpr rfl)]
    have hsi : ∀ c, ScatterDims.siIdx (s := S1 N) (si := S2 E 1) (u := S1 E) ⟨[], [0], [0], 1, wf⟩ (ix1 e) c = ix2 e 0 := by
      intro c
      funext b; refine Fin.ext ?_
      match b with
      | ⟨0, _⟩ => rfl
      | ⟨1, _⟩ =>
        have hc1 : c.val < 1 := c.isLt
        show c.val = 0
        omega
    rw [hsi]
  have hw0 : ScatterDims.window (s := S1 N) (si := S2 E 1) (u := S1 E) ⟨[], [0], [0], 1, wf⟩ (ix1 e) 0 = 0 := by
    unfold ScatterDims.window
    split
    · rename_i ha
      exact absurd ha (show (0 : Fin 1) ∉ (List.finRange 1).filter (fun a : Fin 1 => a ∉ [(0 : Fin 1)]) by decide)
    · rfl
  have key : (ScatterDims.resultIdx? (s := S1 N) (si := S2 E 1) (u := S1 E) ⟨[], [0], [0], 1, wf⟩ (ix1 e) idx = some (ix1 n))
      ↔ (idx (ix2 e 0)).toInt = (n.val : ℤ) := by
    rw [resultIdx?_eq_some_iff]
    constructor
    · intro h
      have h0 : (idx (ix2 e 0)).toInt + ((0 : ℕ) : ℤ) = (n.val : ℤ) := by
        have := h 0; rw [hs0, hw0] at this; exact this
      omega
    · intro h0 a
      match a with
      | ⟨0, _⟩ =>
        show ScatterDims.start _ _ idx 0 + ((ScatterDims.window _ _ 0 : ℕ) : ℤ) = (n.val : ℤ)
        rw [hs0, hw0, h0]; simp
  simp only [key]

end Scatter

end Idealize.ShloMosaic.RowScatter

end
-- ==== Proof.RPool.lean ====
/-
  The reference's readout and mean per graph, entry by entry. The readout column at node n is the specification's
  readout of n (two matrix products as sums, two biases broadcast, max(·, 0) between). The scatter-add of a column
  into 256 zero rows by graph id gives, at graph g, 0 plus the sum of the entries of the nodes whose id, read signed,
  is g; a 32-bit word read signed equals g < 256 exactly when it is the word of g.
-/
import proofs.«418295_j74921409511934_1_alg».proof.Proof.RDefs
import proofs.«418295_j74921409511934_1_alg».proof.Proof.Gen.ReferenceIdeal.Read
import proofs.«418295_j74921409511934_1_alg».proof.Proof.Spec
import proofs.«418295_j74921409511934_1_alg».proof.Proof.LibHostRows
import proofs.«418295_j74921409511934_1_alg».proof.Proof.LibRowScatter
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.ReferenceIdeal.RV

open Cert.ReferenceIdeal Cert.ReferenceIdeal.Gen Idealize.ShloMosaic Idealize.ShloMosaic.TcCoe Idealize.ShloMosaic.ValueIdx Idealize.SL.Sem

/-! ## The two matrix products at an entry -/

/-- The node rows times the 64 × 32 matrix, at (p, q): the sum over the 64 contracted coordinates of the products. -/
private theorem dot1_apply (x : FVec Ideal S100000x64 .f32) (w : FVec Ideal S64x32 .f32) (p : Fin 100000) (q : Fin 32) :
    Host.dotGeneral dot_S100000x64_S64x32_S100000x32_1_0_0_1_n_n none x w (ix2 p q)
      = ∑ k : Fin 64, x (ix2 p k) * w (ix2 k q) := by
  simp only [Host.dotGeneral]
  rw [Ideal.dotGeneral_apply, ← Equiv.sum_comp (contrEquiv1 dot_S100000x64_S64x32_S100000x32_1_0_0_1_n_n 64 rfl rfl).symm]
  refine Finset.sum_congr rfl fun k _ => ?_
  have hk := contrEquiv1_symm_val dot_S100000x64_S64x32_S100000x32_1_0_0_1_n_n 64 rfl rfl k
  have el : dot_S100000x64_S64x32_S100000x32_1_0_0_1_n_n.lhsIdx (ix2 p q)
      ((contrEquiv1 dot_S100000x64_S64x32_S100000x32_1_0_0_1_n_n 64 rfl rfl).symm k) = ix2 p k :=
    funext fun a => Fin.ext (by
      match a with
      | ⟨0, _⟩ => exact Cert.ReferenceIdeal.Read.lhs_main_v171_0 _ _
      | ⟨1, _⟩ => exact (Cert.ReferenceIdeal.Read.lhs_main_v171_1 _ _).trans hk)
  have er : dot_S100000x64_S64x32_S100000x32_1_0_0_1_n_n.rhsIdx (ix2 p q)
      ((contrEquiv1 dot_S100000x64_S64x32_S100000x32_1_0_0_1_n_n 64 rfl rfl).symm k) = ix2 k q :=
    funext fun a => Fin.ext (by
      match a with
      | ⟨0, _⟩ => exact (Cert.ReferenceIdeal.Read.rhs_main_v171_0 _ _).trans hk
      | ⟨1, _⟩ => exact Cert.ReferenceIdeal.Read.rhs_main_v171_1 _ _)
  rw [el, er]

/-- The hidden rows times the 32 × 1 matrix, at (p, q): the sum over the 32 contracted coordinates of the products. -/
private theorem dot2_apply (x : FVec Ideal S100000x32 .f32) (w : FVec Ideal S32x1 .f32) (p : Fin 100000) (q : Fin 1) :
    Host.dotGeneral dot_S100000x32_S32x1_S100000x1_1_0_0_1_n_n none x w (ix2 p q)
      = ∑ k : Fin 32, x (ix2 p k) * w (ix2 k q) := by
  simp only [Host.dotGeneral]
  rw [Ideal.dotGeneral_apply, ← Equiv.sum_comp (contrEquiv1 dot_S100000x32_S32x1_S100000x1_1_0_0_1_n_n 32 rfl rfl).symm]
  refine Finset.sum_congr rfl fun k _ => ?_
  have hk := contrEquiv1_symm_val dot_S100000x32_S32x1_S100000x1_1_0_0_1_n_n 32 rfl rfl k
  have el : dot_S100000x32_S32x1_S100000x1_1_0_0_1_n_n.lhsIdx (ix2 p q)
      ((contrEquiv1 dot_S100000x32_S32x1_S100000x1_1_0_0_1_n_n 32 rfl rfl).symm k) = ix2 p k :=
    funext fun a => Fin.ext (by
      match a with
      | ⟨0, _⟩ => exact Cert.ReferenceIdeal.Read.lhs_main_v176_0 _ _
      | ⟨1, _⟩ => exact (Cert.ReferenceIdeal.Read.lhs_main_v176_1 _ _).trans hk)
  have er : dot_S100000x32_S32x1_S100000x1_1_0_0_1_n_n.rhsIdx (ix2 p q)
      ((contrEquiv1 dot_S100000x32_S32x1_S100000x1_1_0_0_1_n_n 32 rfl rfl).symm k) = ix2 k q :=
    funext fun a => Fin.ext (by
      match a with
      | ⟨0, _⟩ => exact (Cert.ReferenceIdeal.Read.rhs_main_v176_0 _ _).trans hk
      | ⟨1, _⟩ => exact Cert.ReferenceIdeal.Read.rhs_main_v176_1 _ _)
  rw [el, er]

/-! ## A bias, and the constant arrays, at an entry -/

/-- A vector made a row, and the row broadcast down the rows, reads the vector's entry of the column. -/
private theorem bias_apply {a b : ℕ} {α : Type} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (k : Fin b) :
    broadcastInDim ⟨2, ![a, b]⟩ ![0, 1] h2 (broadcastInDim ⟨2, ![1, b]⟩ ![1] h1 v) (ix2 r k) = v (ix1 k) := by
  rw [Cert.LibHostRows.broadcastInDim_row_apply, Cert.LibHostRows.broadcastInDim_vec_row_apply]

/-- The array of zeros reads 0 at every entry. -/
private theorem zeros_apply {t : Shape} (hb : (⟨0, ![]⟩ : Shape).BroadcastsInDim t (![] : Fin 0 → Fin t.rank)) (j : t.Idx) :
    broadcastInDim t ![] hb (constant (F := Ideal) ⟨0, ![]⟩ .f32 0x00000000#32) j = 0 := by
  rw [Cert.LibHostRows.broadcastInDim_scalar_apply, constant_apply, Ideal.ofBits_zero_f32]

/-- The array of ones reads 1 at every entry. -/
private theorem ones_apply {t : Shape} (hb : (⟨0, ![]⟩ : Shape).BroadcastsInDim t (![] : Fin 0 → Fin t.rank)) (j : t.Idx) :
    broadcastInDim t ![] hb (constant (F := Ideal) ⟨0, ![]⟩ .f32 0x3F800000#32) j = 1 := by
  rw [Cert.LibHostRows.broadcastInDim_scalar_apply, constant_apply, Ideal.ofBits_one_f32]

/-- The readout column at node n. -/
theorem refReadout_apply (h : FVec Ideal S100000x64 .f32) (wr0 : FVec Ideal S64x32 .f32) (br0 : FVec Ideal S32 .f32)
    (wr1 : FVec Ideal S32x1 .f32) (br1 : FVec Ideal S1 .f32) (n : Fin 100000) :
    refReadout (F := Ideal) h wr0 br0 wr1 br1 (ix2 n (0 : Fin 1)) = Cert.Spec.readout h wr0 br0 wr1 br1 n := by
  unfold refReadout Cert.Spec.readout
  rw [addf_apply, dot2_apply, bias_apply]
  refine congrArg (· + br1 (ix1 (0 : Fin 1))) (Finset.sum_congr rfl fun k2 _ => ?_)
  rw [maximumf_apply, addf_apply, dot1_apply, bias_apply, zeros_apply]

/-! ## The scatter-add by graph id -/

/-- The word of a natural number below 256, read signed, is that number. -/
private theorem toInt_ofNat_small (g : ℕ) (hg : g < 256) : (BitVec.ofNat 32 g).toInt = (g : ℤ) := by
  rw [BitVec.toInt_eq_toNat_cond, BitVec.toNat_ofNat]
  have h : g % 2 ^ 32 = g := Nat.mod_eq_of_lt (by omega)
  rw [h]
  split <;> omega

/-- A 32-bit word read signed is g < 256 exactly when it is the word of g (reading signed is injective). -/
private theorem word_eq_iff (x : BitVec 32) (g : ℕ) (hg : g < 256) : x.toInt = (g : ℤ) ↔ x = BitVec.ofNat 32 g := by
  constructor
  · intro h
    exact BitVec.eq_of_toInt_eq (h.trans (toInt_ofNat_small g hg).symm)
  · rintro rfl
    exact toInt_ofNat_small g hg

/-- A column scattered by graph id into 256 zero rows: at graph g, 0 plus the sum of the entries of the nodes whose id,
    read signed, is g; that is the sum over the nodes whose id is the word of g. -/
private theorem scat_apply (hb : S_.BroadcastsInDim S256x1 (![] : Fin 0 → Fin S256x1.rank)) (idx : IVec S100000x1 32)
    (u : FVec Ideal S100000x1 .f32) (g : Fin 256) :
    Host.scatterAdd (F := Ideal) scatter_S256x1_S100000x1_S100000x1_1_0_0_1
        (broadcastInDim S256x1 ![] hb (constant S_ .f32 0x00000000#32)) idx u (ix2 g (0 : Fin 1))
      = Cert.Spec.graphSum (fun n => u (ix2 n (0 : Fin 1))) idx g := by
  refine (RowScatter.scatterAdd_rows_apply scatter_S256x1_S100000x1_S100000x1_1_0_0_1 rfl rfl rfl rfl _ idx u g 0).trans ?_
  rw [zeros_apply, zero_add]
  unfold Cert.Spec.graphSum
  refine Finset.sum_congr rfl fun n _ => ?_
  exact if_congr (word_eq_iff _ g.val g.isLt) rfl rfl

/-- The column of ones, node by node, is the constant function 1. -/
private theorem ones_col (hb : S_.BroadcastsInDim S100000x1 (![] : Fin 0 → Fin S100000x1.rank)) :
    (fun n : Fin 100000 => broadcastInDim S100000x1 ![] hb (constant (F := Ideal) S_ .f32 0x3F800000#32) (ix2 n (0 : Fin 1)))
      = fun _ => (1 : EReal) :=
  funext fun n => ones_apply hb (ix2 n (0 : Fin 1))

/-- The mean per graph of a column of node values. -/
theorem refMean_eq (v : FVec Ideal S100000x1 .f32) (bt : IVec S100000 32) :
    refMean (F := Ideal) v bt
      = fun i => Cert.Spec.graphMean (fun n => v (ix2 n (0 : Fin 1))) (bcol bt) (i 0) := by
  funext i
  obtain ⟨g, z, rfl⟩ : ∃ (g : Fin 256) (z : Fin 1), i = ix2 g z := ⟨i 0, i 1, eq_ix2 i⟩
  obtain rfl : z = 0 := Subsingleton.elim _ _
  show refMean (F := Ideal) v bt (ix2 g (0 : Fin 1)) = Cert.Spec.graphMean (fun n => v (ix2 n (0 : Fin 1))) (bcol bt) g
  unfold refMean Cert.Spec.graphMean
  rw [hostDivf_apply, maximumf_apply, scat_apply, scat_apply, ones_apply]
  rw [ones_col]

end Cert.ReferenceIdeal.RV

end
-- ==== Proof.RValue.lean ====
/-
  The reference program's result as the specification's result over the reference's own aggregation, degree column and
  graph-id column: each layer by its entries, the readout column by its entries, the scatter-add by graph id as the
  sum over the graph's nodes.
-/
import proofs.«418295_j74921409511934_1_alg».proof.Proof.RDefs
import proofs.«418295_j74921409511934_1_alg».proof.Proof.RLayers
import proofs.«418295_j74921409511934_1_alg».proof.Proof.RPool

set_option maxRecDepth 16384

noncomputable section

namespace Cert.ReferenceIdeal.RV

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ)

/-- The result of the reference program as a function of its arguments. -/
def resultOf (c : Dev nD) : FVec Ideal S256x1 .f32 :=
  Cert.Spec.result (agg (F := Ideal) (m ((c.tc : Thread nD τ).loc main_arg1)) (m ((c.tc : Thread nD τ).loc main_arg2))) (dcol (F := Ideal) (m ((c.tc : Thread nD τ).loc main_arg1)) (m ((c.tc : Thread nD τ).loc main_arg2)))
        (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
        (bcol (m ((c.tc : Thread nD τ).loc main_arg3)))

/-- The reference's result term is that function. -/
theorem res_result (c : Dev nD) : Cert.ReferenceIdeal.Value.res_main_v189 (F := Ideal) m c = resultOf m c := by
  rw [res_eq, refMean_eq]
  simp only [refLayer_eq, refRelu_eq, refReadout_apply]
  rfl

end Cert.ReferenceIdeal.RV

end
-- ==== Proof.Bridge.lean ====
/-
  The two programs compute the graph quantities by the same host operations, so the kernel program's aggregation is
  the reference's; the reciprocal-degree column and the graph-id column are laid out by a reshape in one program and
  by a broadcast along a new unit axis in the other, and both read entry (p, 0) from entry p of the vector.
-/
import proofs.«418295_j74921409511934_1_alg».proof.Proof.KChain
import proofs.«418295_j74921409511934_1_alg».proof.Proof.RDefs
import proofs.«418295_j74921409511934_1_alg».proof.Proof.LibVecRows
import proofs.«418295_j74921409511934_1_alg».proof.Proof.LibHostRows
import Idealize.ShloMosaic.Lib.ValueIdx

set_option maxRecDepth 16384

noncomputable section

namespace Cert.Bridge

open Idealize.ShloMosaic Idealize.ShloMosaic.ValueIdx

variable {F : FTy → Type} [FloatOps F]

/-- The aggregation is the same function in both programs. -/
theorem agg_eq (ei : IVec ⟨2, ![2, 1600000]⟩ 32) (ew : FVec F ⟨1, ![1600000]⟩ .f32) :
    Cert.KernelIdeal.KV.agg (F := F) ei ew = Cert.ReferenceIdeal.RV.agg (F := F) ei ew := rfl

/-- The reciprocal degrees are the same vector in both programs. -/
theorem rdeg_eq (ei : IVec ⟨2, ![2, 1600000]⟩ 32) (ew : FVec F ⟨1, ![1600000]⟩ .f32) :
    Cert.KernelIdeal.KV.rdeg (F := F) ei ew = Cert.ReferenceIdeal.RV.rdeg (F := F) ei ew := rfl

/-- The degree column: a reshape and a broadcast along a new unit axis give the same column. -/
theorem dcol_eq (ei : IVec ⟨2, ![2, 1600000]⟩ 32) (ew : FVec F ⟨1, ![1600000]⟩ .f32) :
    Cert.KernelIdeal.KV.dcol (F := F) ei ew = Cert.ReferenceIdeal.RV.dcol (F := F) ei ew := by
  funext i
  obtain ⟨p, z, rfl⟩ : ∃ (p : Fin 100000) (z : Fin 1), i = ix2 p z := ⟨i 0, i 1, eq_ix2 i⟩
  unfold Cert.KernelIdeal.KV.dcol Cert.ReferenceIdeal.RV.dcol
  rw [rdeg_eq]
  exact (Cert.LibVecRows.shapeCast_col_apply _ _ p z).trans (Cert.LibHostRows.broadcastInDim_vec_col_apply _ _ p z).symm

/-- The graph-id column likewise. -/
theorem bcol_eq (bt : IVec ⟨1, ![100000]⟩ 32) :
    Cert.KernelIdeal.KV.bcol bt = Cert.ReferenceIdeal.RV.bcol bt := by
  funext i
  obtain ⟨p, z, rfl⟩ : ∃ (p : Fin 100000) (z : Fin 1), i = ix2 p z := ⟨i 0, i 1, eq_ix2 i⟩
  unfold Cert.KernelIdeal.KV.bcol Cert.ReferenceIdeal.RV.bcol
  exact (Cert.LibVecRows.shapeCast_col_apply _ _ p z).trans (Cert.LibHostRows.broadcastInDim_vec_col_apply _ _ p z).symm

end Cert.Bridge

end
-- ==== Proof.lean ====
/-
  The certificate: a three-layer graph convolution network with a readout and a mean per graph, computed by seven
  kernel regions among host operations, against its plain host reference, over the extended reals.

  Both programs compute the same graph quantities (degrees, edge normalisation) by the same host operations, and for
  each layer the same aggregation over the edges. The kernel program's matrix-product regions give the product of all
  node rows with the weights, block of rows by block of rows, which is the host's matrix product entry by entry; its
  epilogue regions add aggregate, scaled product and bias as the reference does. Its last region accumulates, block by
  block, the readouts and the counts of each graph's nodes through a membership factor that is 1 or 0; since 0 times
  any extended real is 0, that is the sum over the graph's nodes, which is what the reference's scatter-add by graph id
  gives. The final division is the same in both. No finiteness of the inputs is used.
-/
import proofs.«418295_j74921409511934_1_alg».proof.Defs
import proofs.«418295_j74921409511934_1_alg».proof.Proof.Gen.Kernel
import proofs.«418295_j74921409511934_1_alg».proof.Proof.Gen.Kernel.Skeleton
import proofs.«418295_j74921409511934_1_alg».proof.Proof.Gen.Kernel.Launch
import proofs.«418295_j74921409511934_1_alg».proof.Proof.Gen.Kernel.Points
import proofs.«418295_j74921409511934_1_alg».proof.Proof.Gen.Kernel.Frame
import proofs.«418295_j74921409511934_1_alg».proof.Proof.Gen.KernelIdeal
import proofs.«418295_j74921409511934_1_alg».proof.Proof.Gen.KernelIdeal.Skeleton
import proofs.«418295_j74921409511934_1_alg».proof.Proof.Gen.KernelIdeal.Launch
import proofs.«418295_j74921409511934_1_alg».proof.Proof.Gen.KernelIdeal.Points
import proofs.«418295_j74921409511934_1_alg».proof.Proof.Gen.KernelIdeal.Frame
import proofs.«418295_j74921409511934_1_alg».proof.Proof.Gen.ReferenceIdeal
import proofs.«418295_j74921409511934_1_alg».proof.Proof.Gen.ReferenceIdeal.Run
import proofs.«418295_j74921409511934_1_alg».proof.Proof.Gen.Pre_finite_inputs
import proofs.«418295_j74921409511934_1_alg».proof.Proof.KValue
import proofs.«418295_j74921409511934_1_alg».proof.Proof.RValue
import proofs.«418295_j74921409511934_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the specification's result: the kernel program's
    over its own aggregation and columns, the reference's over its own, and these are the same. -/
theorem algebraic : Cert.algebraic_KernelIdeal_ReferenceIdeal := by
  intro m ρ m' ρ' _ hagree
  refine ⟨fun c => Cert.KernelIdeal.KV.resultOf m c, Cert.KernelIdeal.KV.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.RV.res_result]
  obtain ⟨e0, e1, e2, e3, e4, e5, e6, e7, e8, e9, e10, e11, e12, e13⟩ := hagree c
  unfold Cert.ReferenceIdeal.RV.resultOf Cert.KernelIdeal.KV.resultOf
  rw [e0, e1, e2, e3, e4, e5, e6, e7, e8, e9, e10, e11, e12, e13,
    ← Cert.Bridge.agg_eq, ← Cert.Bridge.dcol_eq, ← Cert.Bridge.bcol_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
